-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x2048 : Shape := ⟨2, ![16384, 2048]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x256 .f32) (main_arg1 : FVec F S16384x2048 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x256 : Shape := ⟨2, ![16384, 256]⟩
abbrev S16384x2048 : Shape := ⟨2, ![16384, 2048]⟩
abbrev S2x2048x256 : Shape := ⟨3, ![2, 2048, 256]⟩
abbrev S2x1x2048 : Shape := ⟨3, ![2, 1, 2048]⟩
abbrev S1024x256 : Shape := ⟨2, ![1024, 256]⟩
abbrev S1024x2048 : Shape := ⟨2, ![1024, 2048]⟩
abbrev S1x2048x256 : Shape := ⟨3, ![1, 2048, 256]⟩
abbrev S1x1x2048 : Shape := ⟨3, ![1, 1, 2048]⟩
abbrev S2048x256 : Shape := ⟨2, ![2048, 256]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S256x2048 : Shape := ⟨2, ![256, 2048]⟩
abbrev S16x128 : Shape := ⟨2, ![16, 128]⟩
abbrev S512x256 : Shape := ⟨2, ![512, 256]⟩
abbrev S512x2048 : Shape := ⟨2, ![512, 2048]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 43
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x2048, .f32⟩
  | .hbm, ⟨2, _⟩ => ⟨S2x2048x256, .f32⟩
  | .hbm, ⟨3, _⟩ => ⟨S2x1x2048, .f32⟩
  | .hbm, ⟨4, _⟩ => ⟨S1x2048x256, .f32⟩
  | .hbm, ⟨5, _⟩ => ⟨S2048x256, .f32⟩
  | .hbm, ⟨6, _⟩ => ⟨S1x2048x256, .f32⟩
  | .hbm, ⟨7, _⟩ => ⟨S2048x256, .f32⟩
  | .hbm, ⟨8, _⟩ => ⟨S2048x256, .f32⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048x1, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048, .f32⟩
  | .hbm, ⟨22, _⟩ => ⟨S2048, .i1⟩
  | .hbm, ⟨23, _⟩ => ⟨S2048, .f32⟩
  | .hbm, ⟨24, _⟩ => ⟨S1x2048, .f32⟩
  | .hbm, ⟨25, _⟩ => ⟨S2048x256, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x256, .f32⟩
  | .hbm, ⟨34, _⟩ => ⟨S2048x256, .f32⟩
  | .hbm, ⟨35, _⟩ => ⟨S2048x256, .bf16⟩
  | .hbm, ⟨36, _⟩ => ⟨S256x2048, .f32⟩
  | .hbm, ⟨37, _⟩ => ⟨S256x2048, .bf16⟩
  | .hbm, ⟨38, _⟩ => ⟨S16x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x2048, .f32⟩
  | .local _ .vmem, ⟨3, _⟩ => ⟨S1024x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x1x2048, .f32⟩
  | .local _ .vmem, ⟨7, _⟩ => ⟨S1x1x2048, .f32⟩
  | .local _ .vmem, ⟨8, _⟩ => ⟨S2048x256, .f32⟩
  | .local _ .vmem, ⟨9, _⟩ => ⟨S1x2048, .f32⟩
  | .local _ .vmem, ⟨10, _⟩ => ⟨S512x256, .f32⟩
  | .local _ .vmem, ⟨11, _⟩ => ⟨S512x256, .f32⟩
  | .local _ .vmem, ⟨12, _⟩ => ⟨S512x2048, .f32⟩
  | .local _ .vmem, ⟨13, _⟩ => ⟨S512x2048, .f32⟩
  | .local _ .vmem, ⟨14, _⟩ => ⟨S2048x256, .bf16⟩
  | .local _ .vmem, ⟨15, _⟩ => ⟨S256x2048, .bf16⟩
  | .local _ .vmem, ⟨16, _⟩ => ⟨S1x2048, .f32⟩
  | .local _ .vmem, ⟨17, _⟩ => ⟨S8x128, .f32⟩
  | .local _ .vmem, ⟨18, _⟩ => ⟨S8x128, .f32⟩
  | .local _ .vmem, ⟨19, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_32 : BitVec 32 := 0#32
  let v70 : BitVec 1 := Scalar.cmpi .ne v69 c0_i32_32
  v70

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x256_S1024x256_0_0 : ∀ a, (![0, 0] : Fin 2 → Nat) a + S1024x256.size a ≤ S1024x256.size a
  h_S1024x256 : 0 < S1024x256.numel
  inb_S1024x2048_S1024x2048_0_0 : ∀ a, (![0, 0] : Fin 2 → Nat) a + S1024x2048.size a ≤ S1024x2048.size a
  h_S1024x2048 : 0 < S1024x2048.numel
  natLt_1_32 : 1 < 32
  bitsLt_bf16_f32 : FTy.bits .bf16 < FTy.bits .f32
  reduces_S1024x2048_S2048 : S1024x2048.Reduces [0] S2048
  shapeCasts_S2048_S1x2048 : S2048.ShapeCasts S1x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  slices_S2x2048x256_S1x2048x256_0_0_0 : S2x2048x256.Slices ![0, 0, 0] S1x2048x256
  slices_S2x2048x256_S1x2048x256_1_0_0 : S2x2048x256.Slices ![1, 0, 0] S1x2048x256
  slices_S2x1x2048_S1x1x2048_0_0_0 : S2x1x2048.Slices ![0, 0, 0] S1x1x2048
  shapeCasts_S1x1x2048_S2048 : S1x1x2048.ShapeCasts S2048
  slices_S2x1x2048_S1x1x2048_1_0_0 : S2x1x2048.Slices ![1, 0, 0] S1x1x2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S2048_S1x2048_1 : S2048.BroadcastsInDim S1x2048 (![1] : Fin 1 → Fin S1x2048.rank)
  reducesTo_S2048x256_S2048_d1 : S2048x256.ReducesTo [1] S2048
  h_S_ : 0 < S_.numel
  bcast_S_S2048x1 : S_.BroadcastsInDim S2048x1 (![] : Fin 0 → Fin S2048x1.rank)
  transposes_S2048x256_S256x2048_1_0 : S2048x256.Transposes [1, 0] S256x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  inb_S512x2048_S512x2048_0_0 : ∀ a, (![0, 0] : Fin 2 → Nat) a + S512x2048.size a ≤ S512x2048.size a
  h_S512x2048 : 0 < S512x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S512x256_S512 : S512x256.Reduces [1] S512
  shapeCasts_S512_S512x1 : S512.ShapeCasts S512x1
  broadcasts_S512x1_S512x256 : S512x1.Broadcasts S512x256
  broadcasts_S1x2048_S512x2048 : S1x2048.Broadcasts S512x2048
  reduces_S512x2048_S512 : S512x2048.Reduces [1] S512
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  dot_S1024x2048_S1024x256_S2048x256_0_0_1_1_n_n_wf : DotDims.WF S1024x2048 S1024x256 S2048x256 [0] [0] [1] [1] [] []
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S2x2048x256.size a
  hwx0_2 : ∀ i : grid0.Coords, EltTy.bits .f32 = 32 ∨ (Rect.block (s := S2x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S16384x256.size a
  hwx1_0 : ∀ i : grid1.Coords, EltTy.bits .f32 = 32 ∨ (Rect.block (s := S16384x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .bf16 = 32 ∨ (Rect.block (s := S2048x256) S2048x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x2048.size a
  hwx1_3 : ∀ i : grid1.Coords, EltTy.bits .bf16 = 32 ∨ (Rect.block (s := S256x2048) S256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S16x128.size a
  hwx1_5 : ∀ i : grid1.Coords, EltTy.bits .f32 = 32 ∨ (Rect.block (s := S16x128) S8x128.size (cc1_transform_5 i) (hinb1_5 i)).WholeWords (EltTy.packing .f32)

variable [Facts₀]

def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x2048 : Shape := ⟨2, ![16384, 2048]⟩
abbrev S_ : Shape := ⟨0, ![]⟩
abbrev S2048 : Shape := ⟨1, ![2048]⟩
abbrev S2048x16384 : Shape := ⟨2, ![2048, 16384]⟩
abbrev S2048x256 : Shape := ⟨2, ![2048, 256]⟩
abbrev S2048x1 : Shape := ⟨2, ![2048, 1]⟩
abbrev S16384 : Shape := ⟨1, ![16384]⟩
abbrev S16384x1 : Shape := ⟨2, ![16384, 1]⟩
abbrev S256x2048 : Shape := ⟨2, ![256, 2048]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x2048, .f32⟩
  | .hbm, ⟨2, _⟩ => ⟨S_, .f32⟩
  | .hbm, ⟨3, _⟩ => ⟨S16384x2048, .f32⟩
  | .hbm, ⟨4, _⟩ => ⟨S16384x2048, .i1⟩
  | .hbm, ⟨5, _⟩ => ⟨S16384x2048, .i32⟩
  | .hbm, ⟨6, _⟩ => ⟨S_, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S16384x2048, .f32⟩
  | .hbm, ⟨12, _⟩ => ⟨S2048x16384, .f32⟩
  | .hbm, ⟨13, _⟩ => ⟨S2048x256, .f32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S2048x256, .f32⟩
  | .hbm, ⟨20, _⟩ => ⟨S2048x256, .f32⟩
  | .hbm, ⟨21, _⟩ => ⟨S16384x256, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x2048, .f32⟩
  | .hbm, ⟨33, _⟩ => ⟨S16384x2048, .i1⟩
  | .hbm, ⟨34, _⟩ => ⟨S_, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S2048x256, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S2048x256, .f32⟩
  | .hbm, ⟨64, _⟩ => ⟨S2048x256, .f32⟩
  | .hbm, ⟨65, _⟩ => ⟨S256x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .i1⟩
  | .hbm, ⟨70, _⟩ => ⟨S1x2048, .i1⟩
  | .hbm, ⟨71, _⟩ => ⟨S16384x2048, .i1⟩
  | .hbm, ⟨72, _⟩ => ⟨S16384x2048, .i1⟩
  | .hbm, ⟨73, _⟩ => ⟨S_, .f32⟩
  | .hbm, ⟨74, _⟩ => ⟨S16384x2048, .f32⟩
  | .hbm, ⟨75, _⟩ => ⟨S16384x2048, .f32⟩
  | .hbm, ⟨76, _⟩ => ⟨S_, .f32⟩
  | .hbm, ⟨77, _⟩ => ⟨S16384x2048, .f32⟩
  | .hbm, ⟨78, _⟩ => ⟨S16384x2048, .f32⟩
  | .hbm, ⟨79, _⟩ => ⟨S_, .f32⟩
  | .hbm, ⟨80, _⟩ => ⟨S16384x2048, .f32⟩
  | .hbm, ⟨81, _⟩ => ⟨S16384x2048, .f32⟩
  | .hbm, ⟨82, _⟩ => ⟨S16384x2048, .i32⟩
  | .hbm, ⟨83, _⟩ => ⟨S_, .i32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i32⟩
  | .hbm, ⟨88, _⟩ => ⟨S16384, .f32⟩
  | .hbm, ⟨89, _⟩ => ⟨S16384x2048, .f32⟩
  | .hbm, ⟨90, _⟩ => ⟨S16384x2048, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_call3_v2 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_c_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_cst_16 : Ref sig .tc := ⟨.hbm, 94, rfl⟩
abbrev main_v60 : Ref sig .tc := ⟨.hbm, 95, rfl⟩
abbrev main_cst_17 : Ref sig .tc := ⟨.hbm, 96, rfl⟩
abbrev main_v61 : Ref sig .tc := ⟨.hbm, 97, rfl⟩
abbrev main_cst_18 : Ref sig .tc := ⟨.hbm, 98, rfl⟩
abbrev main_v62 : Ref sig .tc := ⟨.hbm, 99, rfl⟩
abbrev main_cst_19 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  natLt_1_32 : 1 < 32
  reducesTo_S16384x2048_S2048_d0 : S16384x2048.ReducesTo [0] S2048
  h_S_ : 0 < S_.numel
  bcast_S_S2048 : S_.BroadcastsInDim S2048 (![] : Fin 0 → Fin S2048.rank)
  transposes_S16384x2048_S2048x16384_1_0 : S16384x2048.Transposes [1, 0] S2048x16384
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S16384 : S_.BroadcastsInDim S16384 (![] : Fin 0 → Fin S16384.rank)
  reducesTo_S2048x256_S2048_d1 : S2048x256.ReducesTo [1] S2048
  bcast_S_S2048x1 : S_.BroadcastsInDim S2048x1 (![] : Fin 0 → Fin S2048x1.rank)
  transposes_S2048x256_S256x2048_1_0 : S2048x256.Transposes [1, 0] S256x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  reducesTo_S16384_S_d0 : S16384.ReducesTo [0] S_
  dot_S2048x16384_S16384x256_S2048x256_1_0_0_1_n_n_wf : DotDims.WF S2048x16384 S16384x256 S2048x256 [1] [0] [0] [1] [] []
  dot_S16384x2048_S2048x256_S16384x256_1_0_0_1_n_n_wf : DotDims.WF S16384x2048 S2048x256 S16384x256 [1] [0] [0] [1] [] []
  dot_S16384x256_S256x2048_S16384x2048_1_0_0_1_n_n_wf : DotDims.WF S16384x256 S256x2048 S16384x2048 [1] [0] [0] [1] [] []

variable [Facts₀]

def dot_S2048x16384_S16384x256_S2048x256_1_0_0_1_n_n : DotDims S2048x16384 S16384x256 S2048x256 where
  lhsContracting := [1]
  rhsContracting := [0]
  lhsNonContracting := [0]
  rhsNonContracting := [1]
  lhsBatch := []
  rhsBatch := []
  wf := dot_S2048x16384_S16384x256_S2048x256_1_0_0_1_n_n_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf

class Facts : Prop extends Facts₀ where

variable [Facts]
-- ==== Proof.Region0.lean ====
import proofs.«402318_j62947040690217_3_alg».proof.Proof.Gen.KernelIdeal.Launch
import proofs.«402318_j62947040690217_3_alg».proof.Proof.Gen.KernelIdeal.Skeleton
import proofs.«402318_j62947040690217_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: masked row sums accumulated over eight row tiles per core

The kernel keeps two accumulators between grid points: a 2048x256 table (for every class, the sum of the
prediction rows whose label entry reaches the threshold) and a 1x2048 row (how many such rows). At the first
tile of a core's eight both are reset to zero; every tile adds its contribution; at the eighth tile both are
copied into the core's slab of the two results. This module states what the accumulators and the result
buffers hold after every grid point, and proves that the kernel body run at a point takes the contents of
the point before to the contents of that point. -/

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: both inputs are fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, in closed form over the sixteen grid points -/

/-- "This is the first of the core's eight tiles": the reset branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last of the core's eight tiles": the copy-out branch. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are idle: everywhere but at a core's last tile -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S2048x256 .f32 := Memref.whole cc0_scratch0
abbrev scM0_1 : Memref sig .tc .vmem S1x2048 .f32 := Memref.whole cc0_scratch1
abbrev VS0_0 : View sig .tc .vmem S2048x256 .f32 := scM0_0.view
abbrev VS0_1 : View sig .tc .vmem S1x2048 .f32 := scM0_1.view
abbrev VO0_2 : View sig .tc .vmem S1x2048x256 .f32 := (Memref.whole cc0_stg2_0 : Memref sig .tc .vmem S1x2048x256 .f32).view
abbrev VO0_3 : View sig .tc .vmem S1x1x2048 .f32 := (Memref.whole cc0_stg3_0 : Memref sig .tc .vmem S1x1x2048 .f32).view

set_option maxHeartbeats 2000000 in
/-- The first of a core's eight tiles: both accumulators are overwritten with zero (whatever they held), then read
    and stored once; the two result buffers are not touched. -/
noncomputable def kernelRun0_A (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i)
    (x0 : Vec F S1024x256 .f32) (x1 : Vec F S1024x2048 .f32) :
    Σ' (LS0 : List (View.Piece (Elt F) S2048x256 .f32)), { LS1 : List (View.Piece (Elt F) S1x2048 .f32) //
      ∀ (xi2 : Vec F S1x2048x256 .f32) (xi3 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__centroid_kernel i arg2 harg2 arg3 harg3 arg4 harg4 arg5 harg5 arg6 harg6 arg7 harg7) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 2000000 in
/-- A tile in the middle of a core's eight (neither branch taken): both accumulators are read and stored once,
    the two result buffers are not touched. -/
noncomputable def kernelRun0_B (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i)
    (x0 : Vec F S1024x256 .f32) (x1 : Vec F S1024x2048 .f32) (xs0 : Vec F S2048x256 .f32) (xs1 : Vec F S1x2048 .f32) :
    Σ' (LS0 : List (View.Piece (Elt F) S2048x256 .f32)), { LS1 : List (View.Piece (Elt F) S1x2048 .f32) //
      ∀ (xi2 : Vec F S1x2048x256 .f32) (xi3 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__centroid_kernel i arg2 harg2 arg3 harg3 arg4 harg4 arg5 harg5 arg6 harg6 arg7 harg7) K } := by
  refine ⟨?_, ?_, fun xi2 xi3 E K => ?run⟩
  case run =>
    simp only [cc0__centroid_kernel_eq_skeleton]; unfold cc0__centroid_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 2000000 in
/-- The last of a core's eight tiles: both accumulators are read and stored once, then each is copied whole into
    its result buffer (whatever that held). -/
noncomputable def kernelRun0_C (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i)
    (x0 : Vec F S1024x256 .f32) (x1 : Vec F S1024x2048 .f32) (xs0 : Vec F S2048x256 .f32) (xs1 : Vec F S1x2048 .f32) :
    Σ' (L2 : List (View.Piece (Elt F) S1x2048x256 .f32)) (L3 : List (View.Piece (Elt F) S1x1x2048 .f32)) (LS0 : List (View.Piece (Elt F) S2048x256 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__centroid_kernel i arg2 harg2 arg3 harg3 arg4 harg4 arg5 harg5 arg6 harg6 arg7 harg7) K } := by
  refine ⟨?_, ?_, ?_, ?_, fun E K => ?run⟩
  case run =>
    simp only [cc0__centroid_kernel_eq_skeleton]; unfold cc0__centroid_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

/-! ## What each case leaves in the accumulators and the result buffers -/

/-- At a core's first tile the stores into the table accumulator cover it. -/
theorem scover0_A_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) (y : S2048x256.Idx) : ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S2048x256.size (by sl_kernel_rfl) y

/-- At a core's first tile the stores into the count accumulator cover it. -/
theorem scover0_A_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) (y : S1x2048.Idx) : ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1x2048.size (by sl_kernel_rfl) y

/-- The table accumulator after a core's first tile. -/
def sout0_A_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) : Vec F S2048x256 .f32 :=
  VS0_0.read (Elt F) (VS0_0.writes (Elt F) VS0_0.junk (kernelRun0_A c i arg2 harg2 arg3 harg3 arg4 harg4 arg5 harg5 arg6 harg6 arg7 harg7 hc0 hc1 x0 x1).1)

/-- The count accumulator after a core's first tile. -/
def sout0_A_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) : Vec F S1x2048 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- At a middle tile the store into the table accumulator covers it. -/
theorem scover0_B_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) (y : S2048x256.Idx) : ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S2048x256.size (by sl_kernel_rfl) y

/-- At a middle tile the store into the count accumulator covers it. -/
theorem scover0_B_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) (y : S1x2048.Idx) : ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x2048.size (by sl_kernel_rfl) y

/-- The table accumulator after a middle tile, from what the tile before left. -/
def sout0_B_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) : Vec F S2048x256 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)

/-- The count accumulator after a middle tile, from what the tile before left. -/
def sout0_B_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

/-- At a core's last tile the store into the first result buffer covers it. -/
theorem cover0_C_2 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) (y : S1x2048x256.Idx) : ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x2048x256.size (by sl_kernel_rfl) y

/-- At a core's last tile the store into the second result buffer covers it. -/
theorem cover0_C_3 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) (y : S1x1x2048.Idx) : ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1x2048.size (by sl_kernel_rfl) y

/-- At a core's last tile the store into the table accumulator covers it. -/
theorem scover0_C_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) (y : S2048x256.Idx) : ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S2048x256.size (by sl_kernel_rfl) y

/-- At a core's last tile the store into the count accumulator covers it. -/
theorem scover0_C_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) (y : S1x2048.Idx) : ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x2048.size (by sl_kernel_rfl) y

/-- The first result buffer after a core's last tile. -/
def out0_C_2 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) : Vec F S1x2048x256 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- The second result buffer after a core's last tile. -/
def out0_C_3 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) : Vec F S1x1x2048 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- The table accumulator after a core's last tile. -/
def sout0_C_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) : Vec F S2048x256 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- The count accumulator after a core's last tile. -/
def sout0_C_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## Point by point -/

/-- What the two result buffers and the two accumulators hold after the body at grid position `n`
    (first result, second result, table accumulator, count accumulator): the case the position is in, run on the
    position's blocks and — except at a core's first tile — on what the position before left in the accumulators.
    A result buffer holds nothing of interest except after a core's last tile. -/
def outsAt0 (c : Dev nD) : (n : ℕ) → n < cfg0.N → Vec F S1x2048x256 .f32 × Vec F S1x1x2048 .f32 × Vec F S2048x256 .f32 × Vec F S1x2048 .f32
  | 0, hn => (VO0_2.read (Elt F) VO0_2.junk, VO0_3.read (Elt F) VO0_3.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      (VO0_2.read (Elt F) VO0_2.junk, VO0_3.read (Elt F) VO0_3.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (VO0_2.read (Elt F) VO0_2.junk, VO0_3.read (Elt F) VO0_3.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) :
    outsAt0 V c t.val t.isLt = (VO0_2.read (Elt F) VO0_2.junk, VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (fun h => by (try dsimp only at h); omega) ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (VO0_2.read (Elt F) VO0_2.junk, VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- Every other scoped buffer of the core (the second call's staging buffers and scratch), at some contents. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The region's invariant before grid position `n`: before the first, both accumulators at anything; afterwards
    each at what the position before left in it; throughout, the core's other scoped buffers unopened and the
    generator register at some state. -/
def PhiS (c : Dev nD) : (n : ℕ) → n ≤ cfg0.N → sProp 𝕄
  | 0, _ => iprop((((∃ d, owns (c : Thread nD τ) scM0_0 fullShare d) ∗ (∃ d, owns (c : Thread nD τ) scM0_1 fullShare d)) ∗ others0 c) ∗ (∃ r, prngReg c r))
  | n + 1, hn => iprop(((owns (c : Thread nD τ) scM0_0 fullShare ((outsAt0 V c n hn).2.2.1) ∗ owns (c : Thread nD τ) scM0_1 fullShare ((outsAt0 V c n hn).2.2.2)) ∗ others0 c) ∗ (∃ r, prngReg c r))

theorem PhiS_zero (c : Dev nD) (n : ℕ) (h : n ≤ cfg0.N) (hz : n = 0) :
    PhiS V c n h = iprop((((∃ d, owns (c : Thread nD τ) scM0_0 fullShare d) ∗ (∃ d, owns (c : Thread nD τ) scM0_1 fullShare d)) ∗ others0 c) ∗ (∃ r, prngReg c r)) := by
  subst hz; rfl
theorem PhiS_succ (c : Dev nD) (n : ℕ) (hn : n < cfg0.N) :
    PhiS V c (n + 1) hn = iprop(((owns (c : Thread nD τ) scM0_0 fullShare ((outsAt0 V c n hn).2.2.1) ∗ owns (c : Thread nD τ) scM0_1 fullShare ((outsAt0 V c n hn).2.2.2)) ∗ others0 c) ∗ (∃ r, prngReg c r)) := rfl
theorem PhiS_pos (c : Dev nD) (n : ℕ) (h : n ≤ cfg0.N) (hz : n ≠ 0) :
    PhiS V c n h = iprop(((owns (c : Thread nD τ) scM0_0 fullShare ((outsAt0 V c (n - 1) (by omega)).2.2.1) ∗ owns (c : Thread nD τ) scM0_1 fullShare ((outsAt0 V c (n - 1) (by omega)).2.2.2)) ∗ others0 c) ∗ (∃ r, prngReg c r)) := by
  cases n with
  | zero => exact absurd rfl hz
  | succ n => rfl

/-! ## The proof data -/

/-- The proof data of the first pallas_call on core `c`: the arrays as the region finds them; after the body at a
    point each input's buffer at its block, each result buffer and (in the invariant) each accumulator at
    `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point. The inputs' buffers hold their blocks; the closed forms say which of the three cases
    the point is in; the invariant hands the body the accumulators at what the point before left (at anything
    before the first point, and a core's first tile overwrites them whatever they hold) and takes them back at
    this point's contents; a result buffer is handed back untouched except at a core's last tile, where it is
    stored whole; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1),
      Dat.leavesExact_idle (dat0 V c) 3 t (idleAt0_3 t hc1) (noFlush0_3 t hc1)]
    rw [outsAt0_A V c t h0]
    unfold sout0_A_0 sout0_A_1; (try dsimp only)
    by_cases hz : t.val = 0
    · rw [PhiS_castSucc V c t, PhiS_zero V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3
  · have hc0 : ¬cond0_0 (grid0.coords t) := fun h => h0 ((hcond0_0 t).mp h)
    have hz : t.val ≠ 0 := fun h => h0 (by rw [h])
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold out0_C_2 out0_C_3 sout0_C_0 sout0_C_1; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      · unfold owns; iexists _; isplitr
        swap; · iexact H3
        ipureintro; exact View.read_writes_of_cover _ _ _ _ _ (cover0_C_3 c _ _ _ _ _ _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      rw [outsAt0_B V c t h0 h1]
      unfold sout0_B_0 sout0_B_1; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region's plain invariant with the two accumulators named: each owned whole at some contents, the core's
    other scoped buffers unopened, the generator register at some state. -/
theorem PhiA0_named (c : Dev nD) :
    (Pipeline.ΦA spec0 c : sProp 𝕄)
      = iprop((((∃ d, owns (c : Thread nD τ) scM0_0 fullShare d) ∗ (∃ d, owns (c : Thread nD τ) scM0_1 fullShare d)) ∗ others0 c) ∗ (∃ r, prngReg c r)) := by
  unfold Pipeline.ΦA
  rw [Pipeline.scopedRest_split_of_list spec0 c [cc0_scratch0, cc0_scratch1] (by decide) (by decide)]
  simp only [scM0_0, scM0_1, owns_whole]
  rfl

/-- What the launch hands the region is the invariant before the first point: the two accumulators taken out of
    the core's scoped buffers. -/
theorem hin0 (c : Dev nD) : Pipeline.ΦA spec0 c ⊢ (dat0 V c).Φ 0 := by
  rw [show (dat0 V c).Φ 0 = PhiS V c 0 (Nat.zero_le _) from rfl, PhiS_zero V c 0 _ rfl, PhiA0_named]

/-- After the last point the invariant gives the plain one back: what the accumulators hold is forgotten. -/
theorem hout0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by rw [show cfg0.N = 16 from N_0]; decide), PhiA0_named]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

end Cert.KernelIdeal.Gen

end
-- ==== Proof.Region1.lean ====
import proofs.«402318_j62947040690217_3_alg».proof.Proof.Gen.KernelIdeal.Launch
import proofs.«402318_j62947040690217_3_alg».proof.Proof.Gen.KernelIdeal.Skeleton
import proofs.«402318_j62947040690217_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! # The second pipelined call, at the contents its region is entered with

The body's proof data and obligation on the grid of 2 × 16 = 32 points, t = 16 · core + j. Five input windows (two
blocks fetched at every point, three whole arrays fetched at the first point only) and one output block per core,
written back only at j = 15 and idle elsewhere. A 1 × 1 scratch is carried from point to point: reset at j = 0, updated
at every point from the point's blocks and what it held, and at j = 15 the output block is built from it. Three control
cases: A (j = 0), B (0 < j < 15), C (j = 15). In each case the body's run on whole memrefs leaves pieces in the scratch
(and, in C, in the output block); the pieces cover their buffers and read back as the payloads of the kernel's skeleton.
That gives the recursion `sAt1` for the scratch after each point and the block `k1_pay2 (sAt1 …)` the output holds at
the points that write it back. Everything is generic in the float instance and stated at a parameter `V`, the
TensorCore's buffer contents when the region is entered. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The reset condition of the body (the second grid coordinate is 0), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points t with t % 16 = 0: decided over the 32 points. -/
theorem hcond1_0 : ∀ t : Fin cfg1.N, cond1_0 (grid1.coords t) ↔ t.val % 16 = 0 :=
  (by decide +kernel : ∀ t : Fin grid1.N, cond1_0 (grid1.coords t) ↔ t.val % 16 = 0)
/-- The condition of the closing store into the output block (the second grid coordinate is 15). -/
abbrev cond1_1 (i : grid1.Coords) : Prop := k1_cond2 i = 1#1
/-- It holds exactly at the points t with t % 16 = 15: decided over the 32 points. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The body's run, case by case -/

set_option maxHeartbeats 1000000 in
/-- CASE A (t % 16 = 0: the scratch is reset, then updated; nothing is stored into the output block). On whole
    memrefs, the five inputs at contents x0 … x4, the output block at contents xi5 that are handed back untouched,
    the scratch at anything, the body runs to the continuation with the inputs as they were and the scratch written
    with the pieces LS0, which the run itself finds. -/
noncomputable def kernelRun1_A (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : cond1_0 i) (hc1 : ¬cond1_1 i)
    (x0 : Vec F S512x256 .f32) (x1 : Vec F S512x2048 .f32) (x2 : Vec F S2048x256 .bf16) (x3 : Vec F S256x2048 .bf16) (x4 : Vec F S1x2048 .f32) :
    { LS0 : List (View.Piece (Elt F) S1x1 .f32) //
      ∀ (xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__dist_kernel i arg2 harg2 arg3 harg3 arg4 harg4 arg5 harg5 arg6 harg6 arg7 harg7 arg8 harg8) K } := by
  refine ⟨?_, fun xi5 E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- CASE B (0 < t % 16 < 15: neither the reset nor the closing store). As case A, but the scratch is handed in at the
    contents xs0 the point before left in it, which the update reads. -/
noncomputable def kernelRun1_B (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : ¬cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) :
    { LS0 : List (View.Piece (Elt F) S1x1 .f32) //
      ∀ (xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__dist_kernel i arg2 harg2 arg3 harg3 arg4 harg4 arg5 harg5 arg6 harg6 arg7 harg7 arg8 harg8) K } := by
  refine ⟨?_, fun xi5 E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- CASE C (t % 16 = 15: no reset; after the update the output block is stored whole). The output block is handed in
    at anything and comes back written with the pieces L5; the scratch as in case B. -/
noncomputable def kernelRun1_C (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) :
    Σ' (L5 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__dist_kernel i arg2 harg2 arg3 harg3 arg4 harg4 arg5 harg5 arg6 harg6 arg7 harg7 arg8 harg8) K } := by
  refine ⟨?_, ?_, fun E K => ?run⟩
  case run =>
    simp only [cc1__dist_kernel_eq_skeleton]; unfold cc1__dist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

/-! ## Where the windows are idle, and the scratch operand -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the points of the closing store the output window is idle, -/
theorem idleAt1_5 : ∀ t : Fin cfg1.N, ¬cond1_1 (grid1.coords t) → cfg1.idle 5 (grid1.coords t) = true := by decide +kernel
/-- and its block is not written back there; -/
theorem noFlush1_5 : ∀ t : Fin cfg1.N, ¬cond1_1 (grid1.coords t) → (cfg1.win 5).flush t = false := by decide +kernel
/-- at those points it is live. -/
theorem liveAt1_5 : ∀ t : Fin cfg1.N, cond1_1 (grid1.coords t) → cfg1.idle 5 (grid1.coords t) = false := by decide +kernel

/-- The scratch operand: a whole 1x1 buffer of the kernel's own, carried from point to point. -/
abbrev scM1_0 : Memref sig .tc .vmem S1x1 .f32 := Memref.whole cc1_scratch0

/-- The class's region invariant with the scratch operand as a memref owned at some contents; the core's other scoped
    buffers (the first call's staging buffers and scratch) stay as they are, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ d, owns (c : Thread nD τ) scM1_0 fullShare d)) ∗ (∃ r, prngReg c r)) := by
  unfold Pipeline.ΦA; rw [scopedRest1_eq]; simp only [scM1_0, owns_whole]; try rfl

/-- Offsets spelt as a literal pair of zeros are the zero offsets. -/
theorem zeroOffs1 : (![0, 0] : Fin 2 → Nat) = fun _ => 0 := funext fun a => by fin_cases a <;> rfl

/-! ## What each case leaves: covers, and the pieces read back as payloads -/

/-- Case A's two stores into the scratch (the reset, then the update) cover it. -/
theorem scover1_A (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : cond1_0 i) (hc1 : ¬cond1_1 i)
    (x0 : Vec F S512x256 .f32) (x1 : Vec F S512x2048 .f32) (x2 : Vec F S2048x256 .bf16) (x3 : Vec F S256x2048 .bf16) (x4 : Vec F S1x2048 .f32) (y : S1x1.Idx) :
    ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S1x1.size (by sl_kernel_rfl) y

/-- Read back, they leave the update of the reset value: the later store covers the earlier, and its payload read the
    scratch after the reset. -/
theorem spiece1_A (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : cond1_0 i) (hc1 : ¬cond1_1 i)
    (x0 : Vec F S512x256 .f32) (x1 : Vec F S512x2048 .f32) (x2 : Vec F S2048x256 .bf16) (x3 : Vec F S256x2048 .bf16) (x4 : Vec F S1x2048 .f32) :
    View.canon (kernelRun1_A c i arg2 harg2 arg3 harg3 arg4 harg4 arg5 harg5 arg6 harg6 arg7 harg7 arg8 harg8 hc0 hc1 x0 x1 x2 x3 x4).1 = k1_pay1 x1 (k1_pay4 x3) (k1_pay5 x4) (k1_pay7 x0) (k1_pay8 x0 x1 x2) (k1_pay3 (F := F)) := by
  unfold kernelRun1_A; dsimp only; sl_unfold_words; (try dsimp only)
  rw [View.canon_cons_unit_zero (S := S1x1) zeroOffs1]
  simp only [View.readAt_eq_ld, harg2.read_unread, harg3.read_unread, harg4.read_unread, harg5.read_unread, harg6.read_unread, harg8.read_unread,
    View.readCov_unit_zero (S := S1x1) _ zeroOffs1, View.ld_unit_zero (S := S512x256) zeroOffs1, View.ld_unit_zero (S := S512x2048) zeroOffs1,
    View.ld_unit_zero (S := S2048x256) zeroOffs1, View.ld_unit_zero (S := S256x2048) zeroOffs1, View.ld_unit_zero (S := S1x2048) zeroOffs1,
    View.ld_unit_zero (S := S1x1) zeroOffs1]

/-- Case B's one store into the scratch covers it. -/
theorem scover1_B (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : ¬cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) (y : S1x1.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S1x1.size (by sl_kernel_rfl) y

/-- Read back, it leaves the update of what the scratch held. -/
theorem spiece1_B (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : ¬cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) :
    View.canon (kernelRun1_B c i arg2 harg2 arg3 harg3 arg4 harg4 arg5 harg5 arg6 harg6 arg7 harg7 arg8 harg8 hc0 hc1 x0 x1 x2 x3 x4 xs0).1 = k1_pay1 x1 (k1_pay4 x3) (k1_pay5 x4) (k1_pay7 x0) (k1_pay8 x0 x1 x2) xs0 := by
  unfold kernelRun1_B; dsimp only; sl_unfold_words; (try dsimp only)
  rw [View.canon_unit_zero (S := S1x1) zeroOffs1]
  simp only [View.readAt_eq_ld, harg2.read_unread, harg3.read_unread, harg4.read_unread, harg5.read_unread, harg6.read_unread, harg8.read_unread,
    View.readCov_unit_zero (S := S1x1) _ zeroOffs1, View.ld_unit_zero (S := S512x256) zeroOffs1, View.ld_unit_zero (S := S512x2048) zeroOffs1,
    View.ld_unit_zero (S := S2048x256) zeroOffs1, View.ld_unit_zero (S := S256x2048) zeroOffs1, View.ld_unit_zero (S := S1x2048) zeroOffs1,
    View.ld_unit_zero (S := S1x1) zeroOffs1]

/-- Case C's one store into the scratch covers it, -/
theorem scover1_C (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) (y : S1x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1x1.size (by sl_kernel_rfl) y

/-- and leaves the update of what the scratch held; -/
theorem spiece1_C (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) :
    View.canon (kernelRun1_C c i arg2 harg2 arg3 harg3 arg4 harg4 arg5 harg5 arg6 harg6 arg7 harg7 arg8 harg8 hc0 hc1 x0 x1 x2 x3 x4 xs0).2.1 = k1_pay1 x1 (k1_pay4 x3) (k1_pay5 x4) (k1_pay7 x0) (k1_pay8 x0 x1 x2) xs0 := by
  unfold kernelRun1_C; dsimp only; sl_unfold_words; (try dsimp only)
  rw [View.canon_unit_zero (S := S1x1) zeroOffs1]
  simp only [View.readAt_eq_ld, harg2.read_unread, harg3.read_unread, harg4.read_unread, harg5.read_unread, harg6.read_unread, harg8.read_unread,
    View.readCov_unit_zero (S := S1x1) _ zeroOffs1, View.ld_unit_zero (S := S512x256) zeroOffs1, View.ld_unit_zero (S := S512x2048) zeroOffs1,
    View.ld_unit_zero (S := S2048x256) zeroOffs1, View.ld_unit_zero (S := S256x2048) zeroOffs1, View.ld_unit_zero (S := S1x2048) zeroOffs1,
    View.ld_unit_zero (S := S1x1) zeroOffs1]

/-- its one store into the output block covers the block, -/
theorem cover1_C_5 (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) (y : S8x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S8x128.size (by sl_kernel_rfl) y

/-- and leaves the block built from the updated scratch (the store's payload read the scratch after the update). -/
theorem piece1_C_5 (c : Dev nD) (i : grid1.Coords)
    (arg2 : Memref sig .tc .vmem S512x256 .f32) (harg2 : arg2.IsWhole) (arg3 : Memref sig .tc .vmem S512x2048 .f32) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1x2048 .f32) (harg6 : arg6.IsWhole) (arg7 : Memref sig .tc .vmem S8x128 .f32) (harg7 : arg7.IsWhole)
    (arg8 : Memref sig .tc .vmem S1x1 .f32) (harg8 : arg8.IsWhole) (hc0 : ¬cond1_0 i) (hc1 : cond1_1 i)
    (x0 : Vec F S512x256 .f32) (x1 : Vec F S512x2048 .f32) (x2 : Vec F S2048x256 .bf16) (x3 : Vec F S256x2048 .bf16) (x4 : Vec F S1x2048 .f32) (xs0 : Vec F S1x1 .f32) :
    View.canon (kernelRun1_C c i arg2 harg2 arg3 harg3 arg4 harg4 arg5 harg5 arg6 harg6 arg7 harg7 arg8 harg8 hc0 hc1 x0 x1 x2 x3 x4 xs0).1 = k1_pay2 (k1_pay1 x1 (k1_pay4 x3) (k1_pay5 x4) (k1_pay7 x0) (k1_pay8 x0 x1 x2) xs0) := by
  unfold kernelRun1_C; dsimp only; sl_unfold_words; (try dsimp only)
  rw [View.canon_unit_zero (S := S8x128) zeroOffs1]
  simp only [View.readAt_eq_ld, harg2.read_unread, harg3.read_unread, harg4.read_unread, harg5.read_unread, harg6.read_unread, harg8.read_unread,
    View.readCov_unit_zero (S := S1x1) _ zeroOffs1, View.ld_unit_zero (S := S512x256) zeroOffs1, View.ld_unit_zero (S := S512x2048) zeroOffs1,
    View.ld_unit_zero (S := S2048x256) zeroOffs1, View.ld_unit_zero (S := S256x2048) zeroOffs1, View.ld_unit_zero (S := S1x2048) zeroOffs1,
    View.ld_unit_zero (S := S1x1) zeroOffs1]

section Region1
-- the TensorCore's buffer contents when the region is entered: the parameter this region's half is stated at
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an input not
    fetched at a point has not moved its block index), for any proof data whose array is the entry contents and whose
    body leaves the block in place. Windows 2, 3, 4 are whole arrays fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch, point by point -/

/-- One point's update of the scratch, from the point's blocks and what the scratch held. -/
def upd1 (c : Dev nD) (t : Fin cfg1.N) (s : Vec F S1x1 .f32) : Vec F S1x1 .f32 :=
  k1_pay1 (iblk1 V c 1 t) (k1_pay4 (iblk1 V c 3 t)) (k1_pay5 (iblk1 V c 4 t)) (k1_pay7 (iblk1 V c 0 t)) (k1_pay8 (iblk1 V c 0 t) (iblk1 V c 1 t) (iblk1 V c 2 t)) s

/-- THE ACCUMULATION. What the scratch holds after the body at point n: at a point with n % 16 = 0 the update of the
    reset value, elsewhere the update of what the point before left. -/
def sAt1 (c : Dev nD) : (n : ℕ) → n < cfg1.N → Vec F S1x1 .f32
  | 0, hn => upd1 V c ⟨0, hn⟩ (k1_pay3 (F := F))
  | n + 1, hn =>
    if (n + 1) % 16 = 0 then upd1 V c ⟨n + 1, hn⟩ (k1_pay3 (F := F))
    else upd1 V c ⟨n + 1, hn⟩ (sAt1 c n (Nat.lt_of_succ_lt hn))

/-- At a point of the reset: the update of the reset value. -/
theorem sAt1_reset (c : Dev nD) (t : Fin cfg1.N) (h : t.val % 16 = 0) :
    sAt1 V c t.val t.isLt = k1_pay1 (iblk1 V c 1 t) (k1_pay4 (iblk1 V c 3 t)) (k1_pay5 (iblk1 V c 4 t)) (k1_pay7 (iblk1 V c 0 t)) (k1_pay8 (iblk1 V c 0 t) (iblk1 V c 1 t) (iblk1 V c 2 t)) (k1_pay3 (F := F)) := by
  obtain ⟨n, hn⟩ := t
  cases n with
  | zero => rfl
  | succ n => exact (if_pos h).trans rfl

/-- At any other point: the update of what the point before left. -/
theorem sAt1_step (c : Dev nD) (t : Fin cfg1.N) (h : ¬ t.val % 16 = 0) :
    sAt1 V c t.val t.isLt = k1_pay1 (iblk1 V c 1 t) (k1_pay4 (iblk1 V c 3 t)) (k1_pay5 (iblk1 V c 4 t)) (k1_pay7 (iblk1 V c 0 t)) (k1_pay8 (iblk1 V c 0 t) (iblk1 V c 1 t) (iblk1 V c 2 t)) (sAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant with the carried scratch -/

/-- Before position n: before the first point the class's invariant (every scoped buffer at anything); afterwards the
    other scoped buffers at anything, the scratch at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ owns (c : Thread nD τ) scM1_0 fullShare (sAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ owns (c : Thread nD τ) scM1_0 fullShare (sAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ owns (c : Thread nD τ) scM1_0 fullShare (sAt1 V c (n - 1) (by omega))) ∗ (∃ r, prngReg c r)) := by
  cases n with
  | zero => exact absurd rfl hz
  | succ n => rfl

/-! ## The pipeline's proof data -/

/-- The proof data of this pipeline on core c: the arrays as the region finds them; after the body at point t each
    input's buffer at its block and the output's at the block built from the scratch after that point (read only at the
    points that write it back); the invariant with the carried scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (sAt1 V c t.val t.isLt)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (sAt1 V c t.val t.isLt) := by dsimp only [dat1]
/-- At a point that writes the output block back, it holds the block built from the scratch after that point. -/
theorem after1_5_last (c : Dev nD) (t : Fin cfg1.N) (h : t.val % 16 = 15) : (dat1 V c).after 5 t = k1_pay2 (sAt1 V c t.val t.isLt) :=
  after1_5 V c t

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- Each window's current staging memref at point t, as the pipeline passes it to the body. -/
abbrev ms1_0 (t : Fin cfg1.N) : Memref sig .tc .vmem S512x256 .f32 := win1_0.stage (cfg1.slots t 0)
abbrev ms1_1 (t : Fin cfg1.N) : Memref sig .tc .vmem S512x2048 .f32 := win1_1.stage (cfg1.slots t 1)
abbrev ms1_2 (t : Fin cfg1.N) : Memref sig .tc .vmem S2048x256 .bf16 := win1_2.stage (cfg1.slots t 2)
abbrev ms1_3 (t : Fin cfg1.N) : Memref sig .tc .vmem S256x2048 .bf16 := win1_3.stage (cfg1.slots t 3)
abbrev ms1_4 (t : Fin cfg1.N) : Memref sig .tc .vmem S1x2048 .f32 := win1_4.stage (cfg1.slots t 4)
abbrev ms1_5 (t : Fin cfg1.N) : Memref sig .tc .vmem S8x128 .f32 := win1_5.stage (cfg1.slots t 5)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms of the two conditions say which of
    the three cases the point is in, and that case's run applies. The invariant hands the body the scratch at what the
    point before left (at anything before the first point) and takes it back at this point's contents: the run's pieces
    cover the scratch and read back as the update. Where the output window is idle its buffer goes back untouched; at a
    point of the closing store it goes back at the block built from the updated scratch. The core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1)]
    rw [sAt1_reset V c t h0]
    by_cases hz : t.val = 0
    · rw [PhiS1_castSucc V c t, PhiS1_zero V c _ _ hz, PhiA1_eq]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro
          exact (View.read_writes_eq_canon _ _ _ (scover1_A c (grid1.coords t) _ _ _ _ _ _ _ _ _ _ _ _ _ _ hc0 hc1 (iblk1 V c 0 t) (iblk1 V c 1 t) (iblk1 V c 2 t) (iblk1 V c 3 t) (iblk1 V c 4 t))).trans (spiece1_A c (grid1.coords t) _ _ _ _ _ _ _ _ _ _ _ _ _ _ hc0 hc1 (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro
          exact (View.read_writes_eq_canon _ _ _ (scover1_A c (grid1.coords t) _ _ _ _ _ _ _ _ _ _ _ _ _ _ hc0 hc1 (iblk1 V c 0 t) (iblk1 V c 1 t) (iblk1 V c 2 t) (iblk1 V c 3 t) (iblk1 V c 4 t))).trans (spiece1_A c (grid1.coords t) _ _ _ _ _ _ _ _ _ _ _ _ _ _ hc0 hc1 (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬cond1_0 (grid1.coords t) := fun h => h0 ((hcond1_0 t).mp h)
    have hz : t.val ≠ 0 := fun h => h0 (by rw [h])
    rw [sAt1_step V c t h0]
    rw [PhiS1_castSucc V c t, PhiS1_pos V c _ _ hz]
    by_cases h1 : t.val % 16 = 15
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5, sAt1_step V c t h0]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro
          exact (View.read_writes_eq_canon _ _ _ (scover1_C c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))).trans (spiece1_C c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (cover1_C_5 c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))).trans (piece1_C_5 c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))
    · have hc1 : ¬cond1_1 (grid1.coords t) := fun h => h1 ((hcond1_1 t).mp h)
      rw [Dat.leavesExact_idle (dat1 V c) 5 t (idleAt1_5 t hc1) (noFlush1_5 t hc1)]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro
          exact (View.read_writes_eq_canon _ _ _ (scover1_B c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))).trans (spiece1_B c (grid1.coords t) _ _ _ _ _ _ _ _ _ _ _ _ _ _ hc0 hc1 (iblk1 V c 0 t) (iblk1 V c 1 t) (iblk1 V c 2 t) (iblk1 V c 3 t) (iblk1 V c 4 t) (sAt1 V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Gen

end
-- ==== Proof.KRun.lean ====
import proofs.«402318_j62947040690217_3_alg».proof.Proof.Gen.KernelIdeal.Launch
import proofs.«402318_j62947040690217_3_alg».proof.Proof.Gen.KernelIdeal.Skeleton
import proofs.«402318_j62947040690217_3_alg».proof.Proof.Gen.KernelIdeal.Points
import proofs.«402318_j62947040690217_3_alg».proof.Proof.Region0
import proofs.«402318_j62947040690217_3_alg».proof.Proof.Region1
import proofs.«402318_j62947040690217_3_alg».proof.Proof.RunCond
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel program's run: both pallas_calls and the host operations around them

The buffers' contents between @main's items are the valuations of the conditional frame, with the unknowns (what
each call leaves in its result arrays) set to what the calls' proof data compute: each result array is the fold of
its blocks' write-backs. Each call is a segment entered from "every unscoped buffer at the valuation before it, the
generator register at some state, nothing owed" and left at the valuation after it. -/

variable (m : (ℓ : Loc nD τ sig) → Buf (Elt F) ℓ)

/-- Core `c`'s buffers when the first call is entered, read at a TensorCore reference. -/
abbrev Vr0 (c : Dev nD) (b : Ref sig .tc) : Buf (Elt F) ((c : Thread nD τ).loc b) := V0 m c (Proc.devRef .tc b)
/-- After the first call: its arrays at what its write-backs leave, every other buffer as entered. -/
def W2 (c : Dev nD) : Valuation τ sig (Elt F) :=
  Pipeline.withArrays spec0 c (V0 m c) fun w => (dat0 (Vr0 m) c).arrAt w cfg0.N
/-- What the first call leaves, as the conditional frame's unknowns (the second call's not yet). -/
def outsA : Outs (F := F) := fun _ r c => W2 m c (Proc.devRef .tc r)
/-- Core `c`'s buffers when the second call is entered, read at a TensorCore reference. -/
abbrev Vr1 (c : Dev nD) (b : Ref sig .tc) : Buf (Elt F) ((c : Thread nD τ).loc b) := V2 m (outsA m) c (Proc.devRef .tc b)
/-- After the second call. -/
def W4 (c : Dev nD) : Valuation τ sig (Elt F) :=
  Pipeline.withArrays spec1 c (V2 m (outsA m) c) fun w => (dat1 (Vr1 m) c).arrAt w cfg1.N
/-- What the two calls leave: the conditional frame's unknowns. -/
def kouts : Outs (F := F) := fun J r c => if J = 3 then W4 m c (Proc.devRef .tc r) else W2 m c (Proc.devRef .tc r)

theorem kouts_one (r : Ref sig .tc) (c : Dev nD) : kouts m 1 r c = W2 m c (Proc.devRef .tc r) := rfl
theorem kouts_three (r : Ref sig .tc) (c : Dev nD) : kouts m 3 r c = W4 m c (Proc.devRef .tc r) := rfl
theorem V1_kouts (c : Dev nD) : V1 m (kouts m) c = V1 m (outsA m) c := rfl
theorem V2_kouts (c : Dev nD) : V2 m (kouts m) c = V2 m (outsA m) c := rfl

theorem W2_arr (c : Dev nD) (w : Fin cfg0.W) :
    W2 m c (Proc.devRef .tc (Pipeline.arrRef spec0 w)) = (dat0 (Vr0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (dat1 (Vr1 m) c).arrAt w cfg1.N := by
  unfold W4; exact Pipeline.withArrays_arr spec1 launch1.win.arr_inj c _ _ w

/-- After the first call each of its arrays holds what the pipeline leaves: the two inputs are as entered, the two
    results are the unknowns' values. -/
theorem hF0 (c : Dev nD) (w : Fin cfg0.W) : (dat0 (Vr0 m) c).arrAt w cfg0.N = V1 m (kouts m) c (Proc.devRef .tc (Pipeline.arrRef spec0 w)) := by
  match w with
  | ⟨0, _⟩ => exact ((dat0 (Vr0 m) c).arrAt_in 0 rfl _).trans ((A_eq0 (Vr0 m) c 0).trans (V1_of m (kouts m) c main_arg0 (by decide)).symm)
  | ⟨1, _⟩ => exact ((dat0 (Vr0 m) c).arrAt_in 1 rfl _).trans ((A_eq0 (Vr0 m) c 1).trans (V1_of m (kouts m) c main_arg1 (by decide)).symm)
  | ⟨2, _⟩ =>
    refine (W2_arr m c 2).symm.trans ?_
    show kouts m 1 main_v0_0 c = _
    simp only [V1, Function.update_of_ne (StableHlo.devRef_ne_of_ne (by decide : main_v0_0 ≠ main_v0_1) : (Proc.devRef .tc main_v0_0 : DevRef τ sig) ≠ Proc.devRef .tc main_v0_1), Function.update_self]
  | ⟨3, _⟩ =>
    refine (W2_arr m c 3).symm.trans ?_
    show kouts m 1 main_v0_1 c = _
    simp only [V1, Function.update_self]
theorem hrest0 (c : Dev nD) : ∀ b, b ∉ Finset.univ.image (Pipeline.arrRef spec0) → V1 m (kouts m) c (Proc.devRef .tc b) = V0 m c (Proc.devRef .tc b) :=
  fun b hb => V1_of m (kouts m) c b (by
    intro hmem
    simp only [List.mem_cons, List.mem_nil_iff, or_false] at hmem
    rcases hmem with rfl | rfl
    · exact hb (Finset.mem_image.mpr ⟨2, Finset.mem_univ _, rfl⟩)
    · exact hb (Finset.mem_image.mpr ⟨3, Finset.mem_univ _, rfl⟩))

/-- After the second call: its five inputs are as entered, its result is the unknown's value. -/
theorem hF1 (c : Dev nD) (w : Fin cfg1.W) : (dat1 (Vr1 m) c).arrAt w cfg1.N = V3 m (kouts m) c (Proc.devRef .tc (Pipeline.arrRef spec1 w)) := by
  match w with
  | ⟨0, _⟩ => exact ((dat1 (Vr1 m) c).arrAt_in 0 rfl _).trans ((A_eq1 (Vr1 m) c 0).trans ((congrFun (V2_kouts m c) _).symm.trans (V3_of m (kouts m) c main_arg0 (by decide)).symm))
  | ⟨1, _⟩ => exact ((dat1 (Vr1 m) c).arrAt_in 1 rfl _).trans ((A_eq1 (Vr1 m) c 1).trans ((congrFun (V2_kouts m c) _).symm.trans (V3_of m (kouts m) c main_arg1 (by decide)).symm))
  | ⟨2, _⟩ => exact ((dat1 (Vr1 m) c).arrAt_in 2 rfl _).trans ((A_eq1 (Vr1 m) c 2).trans ((congrFun (V2_kouts m c) _).symm.trans (V3_of m (kouts m) c main_v28 (by decide)).symm))
  | ⟨3, _⟩ => exact ((dat1 (Vr1 m) c).arrAt_in 3 rfl _).trans ((A_eq1 (Vr1 m) c 3).trans ((congrFun (V2_kouts m c) _).symm.trans (V3_of m (kouts m) c main_v30 (by decide)).symm))
  | ⟨4, _⟩ => exact ((dat1 (Vr1 m) c).arrAt_in 4 rfl _).trans ((A_eq1 (Vr1 m) c 4).trans ((congrFun (V2_kouts m c) _).symm.trans (V3_of m (kouts m) c main_v19 (by decide)).symm))
  | ⟨5, _⟩ =>
    refine (W4_arr m c 5).symm.trans ?_
    show kouts m 3 main_v31 c = _
    simp only [V3, Function.update_self]
theorem hrest1 (c : Dev nD) : ∀ b, b ∉ Finset.univ.image (Pipeline.arrRef spec1) → V3 m (kouts m) c (Proc.devRef .tc b) = V2 m (outsA m) c (Proc.devRef .tc b) :=
  fun b hb => (V3_of m (kouts m) c b (by
    intro hmem
    simp only [List.mem_cons, List.mem_nil_iff, or_false] at hmem
    rcases hmem with rfl
    exact hb (Finset.mem_image.mpr ⟨5, Finset.mem_univ _, rfl⟩))).trans (congrFun (V2_kouts m c) _)

/-! ## The proof data family and the thread state -/

/-- Both calls' proof data, each at its call's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c
/-- No core owes another anything: no level is assigned. -/
abbrev L₀ : GSem nD τ sig → Finset Unit := fun _ => ∅
abbrev lv₀ : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)

/-- The plain invariant from what a region's entry hands over: the generator register, nothing prefetched, the
    scoped buffers no window stages. -/
theorem phiA_in0 (P : sProp 𝕄) (c : Dev nD) :
    (iprop((∃ r, prngReg c r) ∗ P ∗ Pipeline.scopedRest (Ix := Unit) (Name := ℕ) (U := UR sig nD τ) (Lvl := ℕ) (Val := Elt F) spec0 c) : sProp 𝕄) ⊢ Pipeline.ΦA spec0 c := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ Pipeline.ownSems0 (fun k : PEmpty => (k.elim : SemLoc sig)) c ∗ Pipeline.scopedRest (Ix := Unit) (Name := ℕ) (U := UR sig nD τ) (Lvl := ℕ) (Val := Elt F) spec0 c) := by
  rw [Pipeline.ownSems0_none]; unfold Pipeline.ΦA
  iintro ⟨Hr, Hp⟩
  isplitl [Hp]; · iexact Hp
  isplitr; · iempintro
  iexact Hr
theorem phiA_in1 (P : sProp 𝕄) (c : Dev nD) :
    (iprop((∃ r, prngReg c r) ∗ P ∗ Pipeline.scopedRest (Ix := Unit) (Name := ℕ) (U := UR sig nD τ) (Lvl := ℕ) (Val := Elt F) spec1 c) : sProp 𝕄) ⊢ Pipeline.ΦA spec1 c := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ Pipeline.ownSems0 (fun k : PEmpty => (k.elim : SemLoc sig)) c ∗ Pipeline.scopedRest (Ix := Unit) (Name := ℕ) (U := UR sig nD τ) (Lvl := ℕ) (Val := Elt F) spec1 c) := by
  rw [Pipeline.ownSems0_none]; unfold Pipeline.ΦA
  iintro ⟨Hr, Hp⟩
  isplitl [Hp]; · iexact Hp
  isplitr; · iempintro
  iexact Hr

set_option backward.isDefEq.respectTransparency.types false in
/-- The first call as a segment: entered from the launch contents, left at the valuation after it. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L₀ lv₀ 0 fun _ _ => rfl
  pre c := iprop(StableHlo.held (c : Thread nD τ) (Pipeline.ucRefs τ sig) (V0 m c) ∗ Rst c)
  post c := iprop(StableHlo.held (c : Thread nD τ) (Pipeline.ucRefs τ sig) (V1 m (kouts m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V0 m c (Proc.devRef .tc b))
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c (Proc.devRef .tc b)) fun w => A_eq0 (Vr0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 _ c).trans (hin0 (Vr0 m) c)
  hout c := (hout0 (Vr0 m) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V0 m c (Proc.devRef .tc b)) (fun b => V1 m (kouts m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered from the contents the host stretch between the calls leaves. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L₀ lv₀ 1 fun _ _ => rfl
  pre c := iprop(StableHlo.held (c : Thread nD τ) (Pipeline.ucRefs τ sig) (V2 m (outsA m) c) ∗ Rst c)
  post c := iprop(StableHlo.held (c : Thread nD τ) (Pipeline.ucRefs τ sig) (V3 m (kouts m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V2 m (outsA m) c (Proc.devRef .tc b))
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outsA m) c (Proc.devRef .tc b)) fun w => A_eq1 (Vr1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 _ c).trans (hin1 (Vr1 m) c)
  hout c := (hout1 (Vr1 m) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outsA m) c (Proc.devRef .tc b)) (fun b => V3 m (kouts m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, nothing faulting, and
    every final memory holds each unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V4 m (kouts m) c b) :=
  run_cond m emb₁ () Variants.none L₀ lv₀ (fun _ _ => rfl) ρ (kouts m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L₀ lv₀ fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m) (hpre0 := fun _ => .rfl) (hpost0 := fun _ => .rfl)
    (R1 := reg1 m) (hpre1 := fun c => by rw [V2_kouts]; exact Idealize.SL.BI.Entails.refl _) (hpost1 := fun _ => .rfl)

end Cert.KernelIdeal.Gen

end
-- ==== Proof.Frames.lean ====
import proofs.«402318_j62947040690217_3_alg».proof.Defs
import proofs.«402318_j62947040690217_3_alg».proof.Proof.Gen.Kernel
import proofs.«402318_j62947040690217_3_alg».proof.Proof.Gen.KernelIdeal
import proofs.«402318_j62947040690217_3_alg».proof.Proof.Gen.ReferenceIdeal
import proofs.«402318_j62947040690217_3_alg».proof.Proof.Gen.Pre_finite_inputs
import proofs.«402318_j62947040690217_3_alg».proof.Proof.Gen.ReferenceIdeal.Run
import proofs.«402318_j62947040690217_3_alg».proof.Proof.KRun
import proofs.«402318_j62947040690217_3_alg».proof.Proof.WordKRun

/-! # The three frames and the idealization's one rewrite

Each kernel program's frame is its run read at the two argument arrays: no host operation and no pallas_call
writes an argument, so the last valuation holds each as launched. The reference has no kernel: its frame is its
run with the result dropped. The one rewrite the idealization applied (a widening of a narrowing, replaced by the
value itself) is the rule's own statement. -/

noncomputable section

namespace Cert.Proof.Frames

open Idealize.ShloMosaic Idealize.ShloMosaic.TcCoe Idealize.SL.Sem

variable [hKernel : Cert.Kernel.Facts] [hKernelIdeal : Cert.KernelIdeal.Facts] [hReferenceIdeal : Cert.ReferenceIdeal.Facts] [hPre : Cert.Pre_finite_inputs.Facts]

/-- An unscoped TensorCore buffer of the word-level program is among those the run's post speaks of. -/
theorem mem_uc_w (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same for the idealized program. -/
theorem mem_uc_i (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m ρ _ =>
  (θ_run (Cert.Kernel.defs (F := Bits)) _ _).mono (fun r h c =>
      ⟨(h c _ (mem_uc_w Cert.Kernel.main_arg0 (by decide))).trans (Cert.Kernel.Gen.V4_main_arg0 m (Cert.Kernel.Gen.kouts m) c),
       (h c _ (mem_uc_w Cert.Kernel.main_arg1 (by decide))).trans (Cert.Kernel.Gen.V4_main_arg1 m (Cert.Kernel.Gen.kouts m) c)⟩)
    (Cert.Kernel.Gen.run_all (F := Bits) m ρ)

theorem frame_ki : Cert.frame_KernelIdeal := fun m ρ _ =>
  (θ_run (Cert.KernelIdeal.defs (F := Ideal)) _ _).mono (fun r h c =>
      ⟨(h c _ (mem_uc_i Cert.KernelIdeal.main_arg0 (by decide))).trans (Cert.KernelIdeal.Gen.V4_main_arg0 m (Cert.KernelIdeal.Gen.kouts m) c),
       (h c _ (mem_uc_i Cert.KernelIdeal.main_arg1 (by decide))).trans (Cert.KernelIdeal.Gen.V4_main_arg1 m (Cert.KernelIdeal.Gen.kouts m) c)⟩)
    (Cert.KernelIdeal.Gen.run_all (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem preserves : Cert.preserves_Kernel_KernelIdeal :=
  IdealRules.truncf_extf.statement Cert.KernelIdeal.S1024x2048 .f32 .bf16

end Cert.Proof.Frames

end
-- ==== Proof.KVal.lean ====
import proofs.«402318_j62947040690217_3_alg».proof.Proof.Gen.KernelIdeal.Skeleton
import Idealize.ShloMosaic.Lib.ValueIdx

/-! # The kernel program's value, as pure functions of the two argument arrays

No memory and no schedule here: the row tiles the two pallas_calls walk, the accumulators after each tile as a
recursion over the tiles (through the kernel bodies' own payload functions), and the arrays the calls write. -/

noncomputable section

namespace Cert.KernelIdeal.KVal

open Idealize.ShloMosaic Idealize.ShloMosaic.ValueIdx Cert.KernelIdeal Cert.KernelIdeal.Gen

variable {F : FTy → Type} [FloatOps F]

/-! ## Row tiles -/

/-- Rows `1024 t … 1024 t + 1023` of the predictions (the first call's tile `t`, `t < 16`). -/
def predTile1 (P : Vec F S16384x256 .f32) (t : ℕ) : Vec F S1024x256 .f32 :=
  fun y => P (ix2 (⟨(1024 * t + (y 0).val) % 16384, Nat.mod_lt _ (by decide)⟩ : Fin 16384) (⟨(y 1).val, (y 1).isLt⟩ : Fin 256))
/-- Rows `1024 t … 1024 t + 1023` of the labels. -/
def labTile1 (L : Vec F S16384x2048 .f32) (t : ℕ) : Vec F S1024x2048 .f32 :=
  fun y => L (ix2 (⟨(1024 * t + (y 0).val) % 16384, Nat.mod_lt _ (by decide)⟩ : Fin 16384) (⟨(y 1).val, (y 1).isLt⟩ : Fin 2048))
/-- Rows `512 t … 512 t + 511` of the predictions (the second call's tile `t`, `t < 32`). -/
def predTile2 (P : Vec F S16384x256 .f32) (t : ℕ) : Vec F S512x256 .f32 :=
  fun y => P (ix2 (⟨(512 * t + (y 0).val) % 16384, Nat.mod_lt _ (by decide)⟩ : Fin 16384) (⟨(y 1).val, (y 1).isLt⟩ : Fin 256))
/-- Rows `512 t … 512 t + 511` of the labels. -/
def labTile2 (L : Vec F S16384x2048 .f32) (t : ℕ) : Vec F S512x2048 .f32 :=
  fun y => L (ix2 (⟨(512 * t + (y 0).val) % 16384, Nat.mod_lt _ (by decide)⟩ : Fin 16384) (⟨(y 1).val, (y 1).isLt⟩ : Fin 2048))

/-! ## The first call: masked row sums and counts, per core -/

/-- The 2048x256 accumulator after tile `n`: reset at the first of every eight tiles, then each tile adds
    (thresholded labels)ᵀ · predictions of its rows. -/
def tabAt (P : Vec F S16384x256 .f32) (L : Vec F S16384x2048 .f32) : ℕ → Vec F S2048x256 .f32
  | 0 => k0_pay4 (predTile1 P 0) (labTile1 L 0) (k0_pay1 (F := F))
  | n + 1 => k0_pay4 (predTile1 P (n + 1)) (labTile1 L (n + 1)) (if (n + 1) % 8 = 0 then (k0_pay1 (F := F)) else tabAt P L n)
/-- The 1x2048 accumulator after tile `n`: reset likewise, then each tile adds the column sums of its
    thresholded labels. -/
def cntAt (L : Vec F S16384x2048 .f32) : ℕ → Vec F S1x2048 .f32
  | 0 => k0_pay5 (labTile1 L 0) (k0_pay2 (F := F))
  | n + 1 => k0_pay5 (labTile1 L (n + 1)) (if (n + 1) % 8 = 0 then (k0_pay2 (F := F)) else cntAt L n)
/-- The call's first result: core `i 0`'s slab is its table accumulator after its eighth tile. -/
def res0 (P : Vec F S16384x256 .f32) (L : Vec F S16384x2048 .f32) : Vec F S2x2048x256 .f32 :=
  fun i => k0_pay6 (tabAt P L (8 * (i 0).val + 7)) (ix3 (0 : Fin 1) (⟨(i 1).val, (i 1).isLt⟩ : Fin 2048) (⟨(i 2).val, (i 2).isLt⟩ : Fin 256))
/-- The call's second result: core `i 0`'s slab is its count accumulator after its eighth tile. -/
def res1 (L : Vec F S16384x2048 .f32) : Vec F S2x1x2048 .f32 :=
  fun i => k0_pay7 (cntAt L (8 * (i 0).val + 7)) (ix3 (0 : Fin 1) (0 : Fin 1) (⟨(i 2).val, (i 2).isLt⟩ : Fin 2048))

/-! ## The second call: the loss accumulated over sixteen row tiles per core -/

/-- The 1x1 accumulator after tile `n`, given the three tables the host prepared between the calls (the class
    centroids `C`, the transposed normalised centroids `T`, which classes exist `E`): reset at the first of
    every sixteen tiles, then each tile adds the sum over its rows of the positive and the negative term. -/
def lossAt (P : Vec F S16384x256 .f32) (L : Vec F S16384x2048 .f32) (C : Vec F S2048x256 .bf16) (T : Vec F S256x2048 .bf16) (E : Vec F S1x2048 .f32) :
    ℕ → Vec F S1x1 .f32
  | 0 => k1_pay1 (labTile2 L 0) (k1_pay4 T) (k1_pay5 E) (k1_pay7 (predTile2 P 0)) (k1_pay8 (predTile2 P 0) (labTile2 L 0) C) (k1_pay3 (F := F))
  | n + 1 => k1_pay1 (labTile2 L (n + 1)) (k1_pay4 T) (k1_pay5 E) (k1_pay7 (predTile2 P (n + 1))) (k1_pay8 (predTile2 P (n + 1)) (labTile2 L (n + 1)) C)
      (if (n + 1) % 16 = 0 then (k1_pay3 (F := F)) else lossAt P L C T E n)
/-- The call's result, 16x128: core `i 0 / 8`'s 8x128 slab holds its accumulator after its sixteenth tile at
    entry (0, 0) and zero elsewhere. -/
def res31 (P : Vec F S16384x256 .f32) (L : Vec F S16384x2048 .f32) (C : Vec F S2048x256 .bf16) (T : Vec F S256x2048 .bf16) (E : Vec F S1x2048 .f32) :
    Vec F S16x128 .f32 :=
  fun i => k1_pay2 (lossAt P L C T E (16 * ((i 0).val / 8) + 15))
    (ix2 (⟨(i 0).val % 8, Nat.mod_lt _ (by decide)⟩ : Fin 8) (⟨(i 1).val, (i 1).isLt⟩ : Fin 128))

end Cert.KernelIdeal.KVal

end
-- ==== Proof.Read0.lean ====
import proofs.«402318_j62947040690217_3_alg».proof.Proof.Region0
import proofs.«402318_j62947040690217_3_alg».proof.Proof.KVal
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Cfg Window)

variable {F : FTy → Type} [FloatOps F]

/-! # The first pallas_call's accumulators and result arrays, as pure functions of the two argument arrays -/

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as values

Every store of the body writes a whole buffer, and every load reads one, so the contents a case leaves in a
buffer is the payload of the last store into it, with each loaded value replaced by what the buffer held. -/

/-- First tile, table accumulator: zero is stored, read back, and the tile's contribution added. -/
theorem piece0_A_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S2048x256) hz2]
  simp only [View.readAt_eq_ld, harg2.read_unread, harg3.read_unread, View.ld_unit_zero (S := S1024x256) hz2, View.ld_unit_zero (S := S1024x2048) hz2, View.readCov_unit_zero (S := S2048x256) _ hz2]

/-- First tile, count accumulator. -/
theorem piece0_A_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : cond0_0 i) (hc1 : ¬cond0_1 i) (x0 : Vec F S1024x256 .f32) (x1 : Vec F S1024x2048 .f32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x2048) hz2]
  simp only [View.readAt_eq_ld, harg2.read_unread, harg3.read_unread, View.ld_unit_zero (S := S1024x256) hz2, View.ld_unit_zero (S := S1024x2048) hz2, View.readCov_unit_zero (S := S1x2048) _ hz2]

/-- Middle tile, table accumulator: what it held plus the tile's contribution. -/
theorem piece0_B_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S2048x256) hz2]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2]

/-- Middle tile, count accumulator. -/
theorem piece0_B_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : ¬cond0_1 i) (x0 : Vec F S1024x256 .f32) (x1 : Vec F S1024x2048 .f32) (xs0 : Vec F S2048x256 .f32) (xs1 : Vec F S1x2048 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x2048) hz2]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2]

/-- Last tile, table accumulator: as at a middle tile. -/
theorem piece0_C_0 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S2048x256) hz2]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2]

/-- Last tile, count accumulator. -/
theorem piece0_C_1 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x2048) hz2]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2]

/-- Last tile, first result buffer: the updated table accumulator, with a unit axis in front. -/
theorem piece0_C_2 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x2048x256) hz3]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2, View.readCov_unit_zero (S := S2048x256) _ hz2]

/-- Last tile, second result buffer: the updated count accumulator, with a unit axis in front. -/
theorem piece0_C_3 (c : Dev nD) (i : grid0.Coords) (arg2 : Memref sig .tc .vmem S1024x256 .f32) (harg2 : arg2.IsWhole) (arg3 : Memref sig .tc .vmem S1024x2048 .f32) (harg3 : arg3.IsWhole) (arg4 : Memref sig .tc .vmem S1x2048x256 .f32) (harg4 : arg4.IsWhole) (arg5 : Memref sig .tc .vmem S1x1x2048 .f32) (harg5 : arg5.IsWhole) (arg6 : Memref sig .tc .vmem S2048x256 .f32) (harg6 : arg6.IsWhole) (arg7 : Memref sig .tc .vmem S1x2048 .f32) (harg7 : arg7.IsWhole) (hc0 : ¬cond0_0 i) (hc1 : cond0_1 i) (x0 : Vec F S1024x256 .f32) (x1 : Vec F S1024x2048 .f32) (xs0 : Vec F S2048x256 .f32) (xs1 : Vec F S1x2048 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x2048) hz3]
  simp only [View.readAt_eq_ld, harg2.read_unread, harg3.read_unread, harg6.read_unread, harg7.read_unread, View.ld_unit_zero (S := S1024x256) hz2, View.ld_unit_zero (S := S1024x2048) hz2, View.ld_unit_zero (S := S2048x256) hz2, View.ld_unit_zero (S := S1x2048) hz2, View.readCov_unit_zero (S := S1x2048) _ hz2]

/-! ## The input windows' blocks are row tiles of the argument arrays -/

/-- The predictions as the region finds them. -/
abbrev Pa (c : Dev nD) : Vec F S16384x256 .f32 := V c main_arg0
/-- The labels as the region finds them. -/
abbrev La (c : Dev nD) : Vec F S16384x2048 .f32 := V c main_arg1

/-- The index maps over the sixteen points: both inputs take row block `t`, both results take slab `t / 8`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

theorem iblk0_pred (c : Dev nD) (t : Fin cfg0.N) : (iblk0 V c 0 t : Vec F S1024x256 .f32) = KVal.predTile1 (Pa V c) t.val := by
  obtain ⟨e0, e1, -⟩ := idx_facts0 t
  have hN : t.val < 16 := lt_of_lt_of_eq t.isLt (show cfg0.N = 16 from N_0)
  funext j
  unfold iblk0 KVal.predTile1
  rw [View.read_apply]
  show V c main_arg0 _ = V c main_arg0 _
  congr 1
  funext a
  apply Fin.ext
  have hj0 : (j 0).val < 1024 := (j 0).isLt
  match a with
  | ⟨0, _⟩ => show win0_0.index t 0 * 1024 + 1 * (j 0).val = (1024 * t.val + (j 0).val) % 16384; rw [e0, Nat.mod_eq_of_lt (by omega)]; omega
  | ⟨1, _⟩ => show win0_0.index t 1 * 256 + 1 * (j 1).val = (j 1).val; rw [e1]; omega

theorem iblk0_lab (c : Dev nD) (t : Fin cfg0.N) : (iblk0 V c 1 t : Vec F S1024x2048 .f32) = KVal.labTile1 (La V c) t.val := by
  obtain ⟨-, -, e0, e1, -⟩ := idx_facts0 t
  have hN : t.val < 16 := lt_of_lt_of_eq t.isLt (show cfg0.N = 16 from N_0)
  funext j
  unfold iblk0 KVal.labTile1
  rw [View.read_apply]
  show V c main_arg1 _ = V c main_arg1 _
  congr 1
  funext a
  apply Fin.ext
  have hj0 : (j 0).val < 1024 := (j 0).isLt
  match a with
  | ⟨0, _⟩ => show win0_1.index t 0 * 1024 + 1 * (j 0).val = (1024 * t.val + (j 0).val) % 16384; rw [e0, Nat.mod_eq_of_lt (by omega)]; omega
  | ⟨1, _⟩ => show win0_1.index t 1 * 2048 + 1 * (j 1).val = (j 1).val; rw [e1]; omega

/-! ## The accumulators after every point -/

theorem tabAt_reset (P : Vec F S16384x256 .f32) (L : Vec F S16384x2048 .f32) (n : ℕ) (h : n % 8 = 0) :
    KVal.tabAt P L n = k0_pay4 (KVal.predTile1 P n) (KVal.labTile1 L n) (k0_pay1 (F := F)) := by
  cases n with
  | zero => rfl
  | succ n => show k0_pay4 _ _ (if (n + 1) % 8 = 0 then _ else _) = _; rw [if_pos h]

theorem tabAt_step (P : Vec F S16384x256 .f32) (L : Vec F S16384x2048 .f32) (n : ℕ) (h : ¬n % 8 = 0) :
    KVal.tabAt P L n = k0_pay4 (KVal.predTile1 P n) (KVal.labTile1 L n) (KVal.tabAt P L (n - 1)) := by
  cases n with
  | zero => exact absurd (Nat.zero_mod _) h
  | succ n => show k0_pay4 _ _ (if (n + 1) % 8 = 0 then _ else _) = _; rw [if_neg h]; rfl

theorem cntAt_reset (L : Vec F S16384x2048 .f32) (n : ℕ) (h : n % 8 = 0) :
    KVal.cntAt L n = k0_pay5 (KVal.labTile1 L n) (k0_pay2 (F := F)) := by
  cases n with
  | zero => rfl
  | succ n => show k0_pay5 _ (if (n + 1) % 8 = 0 then _ else _) = _; rw [if_pos h]

theorem cntAt_step (L : Vec F S16384x2048 .f32) (n : ℕ) (h : ¬n % 8 = 0) :
    KVal.cntAt L n = k0_pay5 (KVal.labTile1 L n) (KVal.cntAt L (n - 1)) := by
  cases n with
  | zero => exact absurd (Nat.zero_mod _) h
  | succ n => show k0_pay5 _ (if (n + 1) % 8 = 0 then _ else _) = _; rw [if_neg h]; rfl

theorem pay4_congr {x0 x0' : Vec F S1024x256 .f32} {x1 x1' : Vec F S1024x2048 .f32} {a a' : Vec F S2048x256 .f32}
    (h0 : x0 = x0') (h1 : x1 = x1') (ha : a = a') : k0_pay4 x0 x1 a = k0_pay4 x0' x1' a' := by rw [h0, h1, ha]
theorem pay5_congr {x1 x1' : Vec F S1024x2048 .f32} {a a' : Vec F S1x2048 .f32}
    (h1 : x1 = x1') (ha : a = a') : k0_pay5 x1 a = k0_pay5 x1' a' := by rw [h1, ha]

/-- After the body at point `n` the two accumulators hold the table and the counts of the tiles so far of the core's eight. -/
theorem outsAt0_acc (c : Dev nD) : ∀ (n : ℕ) (h : n < cfg0.N),
    (outsAt0 V c n h).2.2.1 = KVal.tabAt (Pa V c) (La V c) n ∧ (outsAt0 V c n h).2.2.2 = KVal.cntAt (La V c) n
  | n, h => by
    by_cases h0 : n % 8 = 0
    · rw [outsAt0_A V c ⟨n, h⟩ h0, tabAt_reset _ _ n h0, cntAt_reset _ n h0]
      dsimp only
      exact ⟨(piece0_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) _ (iblk0 V c 0 ⟨n, h⟩) (iblk0 V c 1 ⟨n, h⟩)).trans
          (pay4_congr (iblk0_pred V c ⟨n, h⟩) (iblk0_lab V c ⟨n, h⟩) rfl),
        (piece0_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) _ (iblk0 V c 0 ⟨n, h⟩) (iblk0 V c 1 ⟨n, h⟩)).trans
          (pay5_congr (iblk0_lab V c ⟨n, h⟩) rfl)⟩
    · have hn : n - 1 < cfg0.N := Nat.lt_of_le_of_lt (Nat.sub_le _ _) h
      have ih := outsAt0_acc c (n - 1) hn
      rw [tabAt_step _ _ n h0, cntAt_step _ n h0]
      by_cases h1 : n % 8 = 7
      · rw [outsAt0_C V c ⟨n, h⟩ h0 h1]
        dsimp only
        exact ⟨(piece0_C_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk0 V c 0 ⟨n, h⟩) (iblk0 V c 1 ⟨n, h⟩) (outsAt0 V c (n - 1) hn).2.2.1 (outsAt0 V c (n - 1) hn).2.2.2).trans
            (pay4_congr (iblk0_pred V c ⟨n, h⟩) (iblk0_lab V c ⟨n, h⟩) ih.1),
          (piece0_C_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk0 V c 0 ⟨n, h⟩) (iblk0 V c 1 ⟨n, h⟩) (outsAt0 V c (n - 1) hn).2.2.1 (outsAt0 V c (n - 1) hn).2.2.2).trans
            (pay5_congr (iblk0_lab V c ⟨n, h⟩) ih.2)⟩
      · rw [outsAt0_B V c ⟨n, h⟩ h0 h1]
        dsimp only
        exact ⟨(piece0_B_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk0 V c 0 ⟨n, h⟩) (iblk0 V c 1 ⟨n, h⟩) (outsAt0 V c (n - 1) hn).2.2.1 (outsAt0 V c (n - 1) hn).2.2.2).trans
            (pay4_congr (iblk0_pred V c ⟨n, h⟩) (iblk0_lab V c ⟨n, h⟩) ih.1),
          (piece0_B_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk0 V c 0 ⟨n, h⟩) (iblk0 V c 1 ⟨n, h⟩) (outsAt0 V c (n - 1) hn).2.2.1 (outsAt0 V c (n - 1) hn).2.2.2).trans
            (pay5_congr (iblk0_lab V c ⟨n, h⟩) ih.2)⟩
  termination_by n => n
  decreasing_by omega

theorem outsAt0_tab (c : Dev nD) (t : Fin cfg0.N) : (outsAt0 V c t.val t.isLt).2.2.1 = KVal.tabAt (Pa V c) (La V c) t.val :=
  (outsAt0_acc V c t.val t.isLt).1

theorem outsAt0_cnt (c : Dev nD) (t : Fin cfg0.N) : (outsAt0 V c t.val t.isLt).2.2.2 = KVal.cntAt (La V c) t.val :=
  (outsAt0_acc V c t.val t.isLt).2

/-- At a core's last tile the first result buffer is left holding the updated table accumulator. -/
theorem outsAt0_res0 (c : Dev nD) (t : Fin cfg0.N) (h : t.val % 8 = 7) :
    (outsAt0 V c t.val t.isLt).1 = k0_pay6 (KVal.tabAt (Pa V c) (La V c) t.val) := by
  have h0 : ¬t.val % 8 = 0 := by omega
  have hn : t.val - 1 < cfg0.N := Nat.lt_of_le_of_lt (Nat.sub_le _ _) t.isLt
  have ih := outsAt0_acc V c (t.val - 1) hn
  rw [outsAt0_C V c t h0 h, tabAt_step _ _ t.val h0]
  dsimp only
  exact (piece0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) hn).2.2.1 (outsAt0 V c (t.val - 1) hn).2.2.2).trans
    (congrArg k0_pay6 (pay4_congr (iblk0_pred V c t) (iblk0_lab V c t) ih.1))

/-- At a core's last tile the second result buffer is left holding the updated count accumulator. -/
theorem outsAt0_res1 (c : Dev nD) (t : Fin cfg0.N) (h : t.val % 8 = 7) :
    (outsAt0 V c t.val t.isLt).2.1 = k0_pay7 (KVal.cntAt (La V c) t.val) := by
  have h0 : ¬t.val % 8 = 0 := by omega
  have hn : t.val - 1 < cfg0.N := Nat.lt_of_le_of_lt (Nat.sub_le _ _) t.isLt
  have ih := outsAt0_acc V c (t.val - 1) hn
  rw [outsAt0_C V c t h0 h, cntAt_step _ t.val h0]
  dsimp only
  exact (piece0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk0 V c 0 t) (iblk0 V c 1 t) (outsAt0 V c (t.val - 1) hn).2.2.1 (outsAt0 V c (t.val - 1) hn).2.2.2).trans
    (congrArg k0_pay7 (pay5_congr (iblk0_lab V c t) ih.2))

/-! ## From the blocks to the arrays

Core `k`'s slab of either result is written once, at the core's last tile `8 k + 7`, and the two slabs fill the array. -/

/-- The first result at an index of slab `(n - 7) / 8` is the entry of the table after tile `n`. -/
theorem res0_at (P : Vec F S16384x256 .f32) (L : Vec F S16384x2048 .f32) (n : ℕ) (i : S2x2048x256.Idx) (j : S1x2048x256.Idx)
    (h0 : 8 * (i 0).val + 7 = n) (h1 : (i 1).val = (j 1).val) (h2 : (i 2).val = (j 2).val) :
    KVal.res0 P L i = k0_pay6 (KVal.tabAt P L n) j := by
  subst h0
  unfold KVal.res0
  refine congrArg (k0_pay6 (KVal.tabAt P L (8 * (i 0).val + 7))) ?_
  funext a
  apply Fin.ext
  have hj : (j 0).val < 1 := (j 0).isLt
  match a with
  | ⟨0, _⟩ => show (0 : ℕ) = (j 0).val; omega
  | ⟨1, _⟩ => exact h1
  | ⟨2, _⟩ => exact h2

/-- The second result at an index of slab `(n - 7) / 8` is the entry of the counts after tile `n`. -/
theorem res1_at (L : Vec F S16384x2048 .f32) (n : ℕ) (i : S2x1x2048.Idx) (j : S1x1x2048.Idx)
    (h0 : 8 * (i 0).val + 7 = n) (h2 : (i 2).val = (j 2).val) :
    KVal.res1 L i = k0_pay7 (KVal.cntAt L n) j := by
  subst h0
  unfold KVal.res1
  refine congrArg (k0_pay7 (KVal.cntAt L (8 * (i 0).val + 7))) ?_
  funext a
  apply Fin.ext
  have hj0 : (j 0).val < 1 := (j 0).isLt
  have hj1 : (j 1).val < 1 := (j 1).isLt
  match a with
  | ⟨0, _⟩ => show (0 : ℕ) = (j 0).val; omega
  | ⟨1, _⟩ => show (0 : ℕ) = (j 1).val; omega
  | ⟨2, _⟩ => exact h2

/-- What a core's last tile writes back of the first result is its slab of `res0`. -/
theorem flushed0_2 (c : Dev nD) (t : Fin cfg0.N) (hf : (cfg0.win 2).flush t = true) :
    (dat0 V c).flushed 2 t = ((cfg0.win 2).blk t).view.read (Elt F) (KVal.res0 (Pa V c) (La V c)) := by
  have h7 : t.val % 8 = 7 := (flush0_2 t).mp hf
  obtain ⟨-, -, -, -, e0, e1, e2, -⟩ := idx_facts0 t
  show (cfg0.win 2).cut (grid0.coords t) ((dat0 V c).after 2 t) = _
  rw [after0_2, outsAt0_res0 V c t h7]
  funext j
  rw [View.read_apply]
  have hj : (j 0).val < 1 := (j 0).isLt
  refine (res0_at (Pa V c) (La V c) t.val _ _ ?_ ?_ ?_).symm
  · show 8 * (win0_2.index t 0 * 1 + 1 * (j 0).val) + 7 = t.val; rw [e0]; omega
  · show win0_2.index t 1 * 2048 + 1 * (j 1).val = (j 1).val; rw [e1]; omega
  · show win0_2.index t 2 * 256 + 1 * (j 2).val = (j 2).val; rw [e2]; omega

/-- What a core's last tile writes back of the second result is its slab of `res1`. -/
theorem flushed0_3 (c : Dev nD) (t : Fin cfg0.N) (hf : (cfg0.win 3).flush t = true) :
    (dat0 V c).flushed 3 t = ((cfg0.win 3).blk t).view.read (Elt F) (KVal.res1 (La V c)) := by
  have h7 : t.val % 8 = 7 := (flush0_3 t).mp hf
  obtain ⟨-, -, -, -, -, -, -, e0, e1, e2⟩ := idx_facts0 t
  show (cfg0.win 3).cut (grid0.coords t) ((dat0 V c).after 3 t) = _
  rw [after0_3, outsAt0_res1 V c t h7]
  funext j
  rw [View.read_apply]
  have hj : (j 0).val < 1 := (j 0).isLt
  refine (res1_at (La V c) t.val _ _ ?_ ?_).symm
  · show 8 * (win0_3.index t 0 * 1 + 1 * (j 0).val) + 7 = t.val; rw [e0]; omega
  · show win0_3.index t 2 * 2048 + 1 * (j 2).val = (j 2).val; rw [e2]; omega

/-- The first result array after the call. -/
theorem arr0_2 (c : Dev nD) : ((dat0 V c).arrAt 2 cfg0.N : Vec F S2x2048x256 .f32) = KVal.res0 (Pa V c) (La V c) :=
  (dat0 V c).arrAt_eq_of_cover 2 (KVal.res0 (Pa V c) (La V c)) (flushed0_2 V c) fun i => by
    have hi0 : (i 0).val < 2 := (i 0).isLt
    have hi1 : (i 1).val < 2048 := (i 1).isLt
    have hi2 : (i 2).val < 256 := (i 2).isLt
    have hN : cfg0.N = 16 := N_0
    let t : Fin cfg0.N := ⟨8 * (i 0).val + 7, by rw [hN]; omega⟩
    have ht : t.val = 8 * (i 0).val + 7 := rfl
    obtain ⟨-, -, -, -, e0, e1, e2, -⟩ := idx_facts0 t
    refine ⟨t, (flush0_2 t).mpr (by rw [ht]; omega), ?_⟩
    show i ∈ ((View.whole main_v0_0).slice (win0_2.rect t)).set
    rw [View.set_slice_whole, Rect.mem_set_unit]
    intro a
    match a with
    | ⟨0, _⟩ => show win0_2.index t 0 * 1 ≤ (i 0).val ∧ (i 0).val < win0_2.index t 0 * 1 + 1; rw [e0, ht]; omega
    | ⟨1, _⟩ => show win0_2.index t 1 * 2048 ≤ (i 1).val ∧ (i 1).val < win0_2.index t 1 * 2048 + 2048; rw [e1]; omega
    | ⟨2, _⟩ => show win0_2.index t 2 * 256 ≤ (i 2).val ∧ (i 2).val < win0_2.index t 2 * 256 + 256; rw [e2]; omega

/-- The second result array after the call. -/
theorem arr0_3 (c : Dev nD) : ((dat0 V c).arrAt 3 cfg0.N : Vec F S2x1x2048 .f32) = KVal.res1 (La V c) :=
  (dat0 V c).arrAt_eq_of_cover 3 (KVal.res1 (La V c)) (flushed0_3 V c) fun i => by
    have hi0 : (i 0).val < 2 := (i 0).isLt
    have hi1 : (i 1).val < 1 := (i 1).isLt
    have hi2 : (i 2).val < 2048 := (i 2).isLt
    have hN : cfg0.N = 16 := N_0
    let t : Fin cfg0.N := ⟨8 * (i 0).val + 7, by rw [hN]; omega⟩
    have ht : t.val = 8 * (i 0).val + 7 := rfl
    obtain ⟨-, -, -, -, -, -, -, e0, e1, e2⟩ := idx_facts0 t
    refine ⟨t, (flush0_3 t).mpr (by rw [ht]; omega), ?_⟩
    show i ∈ ((View.whole main_v0_1).slice (win0_3.rect t)).set
    rw [View.set_slice_whole, Rect.mem_set_unit]
    intro a
    match a with
    | ⟨0, _⟩ => show win0_3.index t 0 * 1 ≤ (i 0).val ∧ (i 0).val < win0_3.index t 0 * 1 + 1; rw [e0, ht]; omega
    | ⟨1, _⟩ => show win0_3.index t 1 * 1 ≤ (i 1).val ∧ (i 1).val < win0_3.index t 1 * 1 + 1; rw [e1]; omega
    | ⟨2, _⟩ => show win0_3.index t 2 * 2048 ≤ (i 2).val ∧ (i 2).val < win0_3.index t 2 * 2048 + 2048; rw [e2]; omega

end Cert.KernelIdeal.Gen
end
-- ==== Proof.Read1.lean ====
import proofs.«402318_j62947040690217_3_alg».proof.Proof.Region1
import proofs.«402318_j62947040690217_3_alg».proof.Proof.Read0
import proofs.«402318_j62947040690217_3_alg».proof.Proof.KVal
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx Idealize.SL.Sem
open Idealize.ShloMosaic.Pipeline (Dat Cfg Window)

variable {F : FTy → Type} [FloatOps F]

/-! # The second pipelined call's result array, as a pure function of the arrays its region is entered with

The call's five input arrays are the two argument arrays (walked in 32 row tiles of 512 rows) and three tables the
host prepared (read whole at every point). Each input block is read off its array: a block's coordinate is its block
index times the block's extent plus the coordinate inside the block, and the block indices are decided over the 32
points. So the scratch after point t is the pure recursion over the row tiles, and the 16 x 128 result array — whose
8 x 128 block of core q is written back once, at point 16 q + 15 — is that recursion's value after each core's
sixteenth tile, laid out by the closing store. -/

variable (V : (c : Dev nD) → (b : Ref sig .tc) → Buf (Elt F) ((c : Thread nD τ).loc b))

/-- The region-entry contents of the three tables the host hands this call, at their literal types (the two
    argument arrays' are named with the first call's). -/
abbrev Ca (c : Dev nD) : Vec F S2048x256 .bf16 := V c main_v28
abbrev Ta (c : Dev nD) : Vec F S256x2048 .bf16 := V c main_v30
abbrev Ea (c : Dev nD) : Vec F S1x2048 .f32 := V c main_v19

/-! ## The block indices, decided over the grid -/

/-- At point t the two tiled inputs are at row block t, the three tables at block (0, 0), and the output at row block
    t / 16 (its core). -/
theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-! ## The input blocks, read off their arrays -/

/-- An entry of the predictions' block at point t is the array's entry 512 t rows further down. -/
theorem iblk1_0_at (c : Dev nD) (t : Fin cfg1.N) (y : S512x256.Idx) (k : S16384x256.Idx)
    (hk0 : (k 0).val = 512 * t.val + (y 0).val) (hk1 : (k 1).val = (y 1).val) :
    (iblk1 V c 0 t : Vec F S512x256 .f32) y = Pa V c k := by
  obtain ⟨e0, e1, -⟩ := idx1_facts t
  unfold iblk1
  rw [View.read_apply]
  show V c main_arg0 _ = V c main_arg0 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 256 + 1 * (y 1).val = (k 1).val; rw [e1, hk1]; omega

/-- The same for the labels' block. -/
theorem iblk1_1_at (c : Dev nD) (t : Fin cfg1.N) (y : S512x2048.Idx) (k : S16384x2048.Idx)
    (hk0 : (k 0).val = 512 * t.val + (y 0).val) (hk1 : (k 1).val = (y 1).val) :
    (iblk1 V c 1 t : Vec F S512x2048 .f32) y = La V c k := by
  obtain ⟨-, -, e0, e1, -⟩ := idx1_facts t
  unfold iblk1
  rw [View.read_apply]
  show V c main_arg1 _ = V c main_arg1 _
  congr 1
  funext a
  apply Fin.ext
  match a with
  | ⟨0, _⟩ => show win1_1.index t (0 : Fin 2) * 512 + 1 * (y 0).val = (k 0).val; rw [e0, hk0]; omega
  | ⟨1, _⟩ => show win1_1.index t (1 : Fin 2) * 2048 + 1 * (y 1).val = (k 1).val; rw [e1, hk1]; omega

/-- The predictions' block at point t is row tile t. -/
theorem iblk1_pred (c : Dev nD) (t : Fin cfg1.N) : (iblk1 V c 0 t : Vec F S512x256 .f32) = KVal.predTile2 (Pa V c) t.val := by
  have hN : t.val < 32 := lt_of_lt_of_eq t.isLt (show cfg1.N = 32 from N_1)
  funext y
  have hy : (y 0).val < 512 := idx2_lt0 y
  unfold KVal.predTile2
  exact iblk1_0_at V c t y _ (Nat.mod_eq_of_lt (by omega)) rfl

/-- The labels' block at point t is row tile t. -/
theorem iblk1_lab (c : Dev nD) (t : Fin cfg1.N) : (iblk1 V c 1 t : Vec F S512x2048 .f32) = KVal.labTile2 (La V c) t.val := by
  have hN : t.val < 32 := lt_of_lt_of_eq t.isLt (show cfg1.N = 32 from N_1)
  funext y
  have hy : (y 0).val < 512 := idx2_lt0 y
  unfold KVal.labTile2
  exact iblk1_1_at V c t y _ (Nat.mod_eq_of_lt (by omega)) rfl

/-- The three tables' blocks are the whole arrays, at every point. -/
theorem iblk1_C (c : Dev nD) (t : Fin cfg1.N) : (iblk1 V c 2 t : Vec F S2048x256 .bf16) = Ca V c := by
  obtain ⟨-, -, -, -, e0, e1, -⟩ := idx1_facts t
  funext y
  unfold iblk1
  rw [View.read_apply]
  show V c main_v28 _ = V c main_v28 y
  congr 1
  funext a
  apply Fin.ext
  match a with
  | ⟨0, _⟩ => show win1_2.index t (0 : Fin 2) * 2048 + 1 * (y 0).val = (y 0).val; rw [e0]; omega
  | ⟨1, _⟩ => show win1_2.index t (1 : Fin 2) * 256 + 1 * (y 1).val = (y 1).val; rw [e1]; omega

theorem iblk1_T (c : Dev nD) (t : Fin cfg1.N) : (iblk1 V c 3 t : Vec F S256x2048 .bf16) = Ta V c := by
  obtain ⟨-, -, -, -, -, -, e0, e1, -⟩ := idx1_facts t
  funext y
  unfold iblk1
  rw [View.read_apply]
  show V c main_v30 _ = V c main_v30 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 2048 + 1 * (y 1).val = (y 1).val; rw [e1]; omega

theorem iblk1_E (c : Dev nD) (t : Fin cfg1.N) : (iblk1 V c 4 t : Vec F S1x2048 .f32) = Ea V c := by
  obtain ⟨-, -, -, -, -, -, -, -, e0, e1, -⟩ := idx1_facts t
  funext y
  unfold iblk1
  rw [View.read_apply]
  show V c main_v19 _ = V c main_v19 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 2048 + 1 * (y 1).val = (y 1).val; rw [e1]; omega

/-! ## The scratch is the pure recursion over the row tiles -/

/-- One point's update, over the pure tiles and tables. -/
theorem upd1_eq (c : Dev nD) (t : Fin cfg1.N) (s : Vec F S1x1 .f32) :
    upd1 V c t s = k1_pay1 (KVal.labTile2 (La V c) t.val) (k1_pay4 (Ta V c)) (k1_pay5 (Ea V c)) (k1_pay7 (KVal.predTile2 (Pa V c) t.val))
      (k1_pay8 (KVal.predTile2 (Pa V c) t.val) (KVal.labTile2 (La V c) t.val) (Ca V c)) s := by
  unfold upd1
  rw [iblk1_pred V c t, iblk1_lab V c t, iblk1_C V c t, iblk1_T V c t, iblk1_E V c t]

/-- After every point the scratch holds the recursion's value there: by induction on the point, both sides resetting
    at the points with n % 16 = 0. -/
theorem sAt1_loss_nat (c : Dev nD) : ∀ (n : ℕ) (hn : n < cfg1.N), sAt1 V c n hn = KVal.lossAt (Pa V c) (La V c) (Ca V c) (Ta V c) (Ea V c) n
  | 0, hn => by
    show upd1 V c ⟨0, hn⟩ (k1_pay3 (F := F)) = _
    rw [upd1_eq]; rfl
  | n + 1, hn => by
    have ih := sAt1_loss_nat c n (Nat.lt_of_succ_lt hn)
    show (if (n + 1) % 16 = 0 then upd1 V c ⟨n + 1, hn⟩ (k1_pay3 (F := F)) else upd1 V c ⟨n + 1, hn⟩ (sAt1 V c n (Nat.lt_of_succ_lt hn))) = _
    by_cases h : (n + 1) % 16 = 0
    · rw [if_pos h, upd1_eq]
      show _ = k1_pay1 _ _ _ _ _ (if (n + 1) % 16 = 0 then (k1_pay3 (F := F)) else KVal.lossAt (Pa V c) (La V c) (Ca V c) (Ta V c) (Ea V c) n)
      rw [if_pos h]
    · rw [if_neg h, upd1_eq, ih]
      show _ = k1_pay1 _ _ _ _ _ (if (n + 1) % 16 = 0 then (k1_pay3 (F := F)) else KVal.lossAt (Pa V c) (La V c) (Ca V c) (Ta V c) (Ea V c) n)
      rw [if_neg h]

theorem sAt1_loss (c : Dev nD) (t : Fin cfg1.N) : sAt1 V c t.val t.isLt = KVal.lossAt (Pa V c) (La V c) (Ca V c) (Ta V c) (Ea V c) t.val :=
  sAt1_loss_nat V c t.val t.isLt

/-! ## From the output's blocks to its array -/

/-- WHAT A WRITING POINT WRITES BACK is its block of the result function: at a point t with t % 16 = 15 the block's
    rows are rows 8 (t / 16) … 8 (t / 16) + 7 of the array, whose core is t / 16 and whose sixteenth tile is t. -/
theorem flushed1_5_eq (c : Dev nD) (t : Fin cfg1.N) (hf : (cfg1.win 5).flush t = true) :
    (dat1 V c).flushed 5 t = ((cfg1.win 5).blk t).view.read (Elt F) (KVal.res31 (Pa V c) (La V c) (Ca V c) (Ta V c) (Ea V c)) := by
  have hN : t.val < 32 := lt_of_lt_of_eq t.isLt (show cfg1.N = 32 from N_1)
  have h15 : t.val % 16 = 15 := (flush1_5 t).mp hf
  obtain ⟨-, -, -, -, -, -, -, -, -, -, e0, e1⟩ := idx1_facts t
  show (cfg1.win 5).cut (grid1.coords t) ((dat1 V c).after 5 t) = _
  rw [after1_5, sAt1_loss]
  funext j
  have hj0 : (j 0).val < 8 := idx2_lt0 j
  have hj1 : (j 1).val < 128 := idx2_lt1 j
  have r0 : ((((cfg1.win 5).blk t).view.emb j) 0).val = t.val / 16 * 8 + (j 0).val := by
    show win1_5.index t (0 : Fin 2) * 8 + 1 * (j 0).val = _; rw [e0]; omega
  have r1 : ((((cfg1.win 5).blk t).view.emb j) 1).val = (j 1).val := by
    show win1_5.index t (1 : Fin 2) * 128 + 1 * (j 1).val = _; rw [e1]; omega
  show k1_pay2 (KVal.lossAt (Pa V c) (La V c) (Ca V c) (Ta V c) (Ea V c) t.val) j
      = k1_pay2 (KVal.lossAt (Pa V c) (La V c) (Ca V c) (Ta V c) (Ea V c) (16 * (((((cfg1.win 5).blk t).view.emb j) 0).val / 8) + 15))
          (ix2 (⟨((((cfg1.win 5).blk t).view.emb j) 0).val % 8, Nat.mod_lt _ (by decide)⟩ : Fin 8) (⟨((((cfg1.win 5).blk t).view.emb j) 1).val, ((((cfg1.win 5).blk t).view.emb j) 1).isLt⟩ : Fin 128))
  have hn : 16 * (((((cfg1.win 5).blk t).view.emb j) 0).val / 8) + 15 = t.val := by rw [r0]; omega
  rw [hn]
  congr 1
  funext a
  apply Fin.ext
  match a with
  | ⟨0, _⟩ => show (j 0).val = ((((cfg1.win 5).blk t).view.emb j) 0).val % 8; rw [r0]; omega
  | ⟨1, _⟩ => show (j 1).val = ((((cfg1.win 5).blk t).view.emb j) 1).val; rw [r1]

/-- An index of the array is in point t's block iff each coordinate is in the block's range on its axis. -/
theorem mem_blk1_5 (t : Fin cfg1.N) (i : S16x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v31).slice (win1_5.rect t)).set ↔ _
  rw [View.set_slice_whole, Rect.mem_set_unit]
  exact Iff.rfl

/-- Every row of the array is in the block of its core's last point: row r is covered by point 16 (r / 8) + 15. -/
theorem cover1_5 (i : S16x128.Idx) : ∃ t : Fin cfg1.N, (cfg1.win 5).flush t = true ∧ i ∈ ((cfg1.win 5).blk t).view.set := by
  have hi0 : (i 0).val < 16 := idx2_lt0 i
  have hi1 : (i 1).val < 128 := idx2_lt1 i
  have hlt : 16 * ((i 0).val / 8) + 15 < cfg1.N := by rw [show cfg1.N = 32 from N_1]; omega
  refine ⟨⟨16 * ((i 0).val / 8) + 15, hlt⟩, (flush1_5 _).mpr (by show (16 * ((i 0).val / 8) + 15) % 16 = 15; omega), ?_⟩
  obtain ⟨-, -, -, -, -, -, -, -, -, -, e0, e1⟩ := idx1_facts ⟨16 * ((i 0).val / 8) + 15, hlt⟩
  have e0' : win1_5.index ⟨16 * ((i 0).val / 8) + 15, hlt⟩ (0 : Fin 2) = (16 * ((i 0).val / 8) + 15) / 16 := e0
  rw [mem_blk1_5]
  intro a
  match a with
  | ⟨0, _⟩ => show win1_5.index ⟨16 * ((i 0).val / 8) + 15, hlt⟩ (0 : Fin 2) * 8 ≤ (i 0).val ∧ (i 0).val < win1_5.index ⟨16 * ((i 0).val / 8) + 15, hlt⟩ (0 : Fin 2) * 8 + 8; rw [e0']; omega
  | ⟨1, _⟩ => show win1_5.index ⟨16 * ((i 0).val / 8) + 15, hlt⟩ (1 : Fin 2) * 128 ≤ (i 1).val ∧ (i 1).val < win1_5.index ⟨16 * ((i 0).val / 8) + 15, hlt⟩ (1 : Fin 2) * 128 + 128; rw [e1]; omega

/-- THE ARRAY after the call: the result function, everywhere. -/
theorem arr1_5 (c : Dev nD) : ((dat1 V c).arrAt 5 cfg1.N : Vec F S16x128 .f32) = KVal.res31 (Pa V c) (La V c) (Ca V c) (Ta V c) (Ea V c) :=
  (dat1 V c).arrAt_eq_of_cover 5 (KVal.res31 (Pa V c) (La V c) (Ca V c) (Ta V c) (Ea V c)) (fun t hf => flushed1_5_eq V c t hf) cover1_5

end Cert.KernelIdeal.Gen

end
-- ==== Proof.LibSums.lean ====
import Mathlib.Algebra.BigOperators.Fin
import Mathlib.Algebra.BigOperators.Group.Finset.Basic
import Mathlib.Logic.Equiv.Fin.Basic

/-! # Sums over a range of rows, regrouped by tiles

A sum over the `N` rows of an array is the sum over its row tiles of the sums over each tile's rows: for
`N = a * b`, tile `p` (of `a`) holds rows `b * p … b * p + b - 1`; for `N = a * b * c` the tiles are themselves
grouped in `a` groups of `b` tiles of `c` rows, and row `r` of tile `q` of group `p` is row `b * c * p + c * q + r`.
Stated in any commutative additive monoid, so that they hold of sums of extended reals. -/

namespace Cert.LibSums

open scoped BigOperators

/-- Row `b * p + q` of an array of `a * b` rows, for `p < a` and `q < b`, is a row of the array. -/
theorem tile_row_lt {a b N : ℕ} (hN : a * b = N) (p : Fin a) (q : Fin b) : b * p.val + q.val < N := by
  have hp : p.val + 1 ≤ a := p.isLt
  have hq := q.isLt
  calc b * p.val + q.val < b * p.val + b := by omega
    _ = b * (p.val + 1) := by rw [Nat.mul_succ]
    _ ≤ b * a := Nat.mul_le_mul_left b hp
    _ = N := by rw [Nat.mul_comm, hN]

/-- A sum over `N = a * b` rows is the sum over the `a` tiles of the sums over each tile's `b` rows. -/
theorem sum_tiles {M : Type*} [AddCommMonoid M] (a b N : ℕ) (hN : a * b = N) (f : Fin N → M) :
    ∑ i : Fin N, f i = ∑ p : Fin a, ∑ q : Fin b, f ⟨b * p.val + q.val, tile_row_lt hN p q⟩ := by
  subst hN
  rw [← Equiv.sum_comp (finProdFinEquiv (m := a) (n := b)) f, Fintype.sum_prod_type]
  refine Finset.sum_congr rfl fun p _ => Finset.sum_congr rfl fun q _ => congrArg f (Fin.ext ?_)
  show q.val + b * p.val = b * p.val + q.val
  exact Nat.add_comm _ _

/-- Row `b * c * p + c * q + r` of an array of `a * b * c` rows, for `p < a`, `q < b`, `r < c`, is a row of the array. -/
theorem group_tile_row_lt {a b c N : ℕ} (hN : a * b * c = N) (p : Fin a) (q : Fin b) (r : Fin c) :
    b * c * p.val + c * q.val + r.val < N := by
  have h1 : c * q.val + r.val < b * c := tile_row_lt (a := b) (b := c) rfl q r
  have h2 := tile_row_lt (a := a) (b := b * c) (N := N) (by rw [← Nat.mul_assoc]; exact hN) p ⟨c * q.val + r.val, h1⟩
  simpa [Nat.add_assoc] using h2

/-- A sum over `N = a * b * c` rows is the sum over `a` groups of `b` tiles of `c` rows each. The instances used:
    `16384 = 2 * 8 * 1024` and `16384 = 2 * 16 * 512`. -/
theorem sum_group_tiles {M : Type*} [AddCommMonoid M] (a b c N : ℕ) (hN : a * b * c = N) (f : Fin N → M) :
    ∑ i : Fin N, f i
      = ∑ p : Fin a, ∑ q : Fin b, ∑ r : Fin c, f ⟨b * c * p.val + c * q.val + r.val, group_tile_row_lt hN p q r⟩ := by
  rw [sum_tiles a (b * c) N (by rw [← Nat.mul_assoc]; exact hN) f]
  refine Finset.sum_congr rfl fun p _ => ?_
  rw [sum_tiles b c (b * c) rfl fun i : Fin (b * c) => f ⟨b * c * p.val + i.val, tile_row_lt (by rw [← Nat.mul_assoc]; exact hN) p i⟩]
  refine Finset.sum_congr rfl fun q _ => Finset.sum_congr rfl fun r _ => congrArg f (Fin.ext ?_)
  show b * c * p.val + (c * q.val + r.val) = b * c * p.val + c * q.val + r.val
  rw [Nat.add_assoc]

end Cert.LibSums
-- ==== Proof.BridgeAcc.lean ====
import proofs.«402318_j62947040690217_3_alg».proof.Proof.KVal
import proofs.«402318_j62947040690217_3_alg».proof.Proof.LibSums
import Idealize.ShloMosaic.Lib.ValueIdx
import Idealize.ShloMosaic.Lib.ValueLayout
import Idealize.ShloMosaic.Lib.Pipeline.Value
import Idealize.ShloMosaic.PureOps.Ideal.Laws

/-! # The first call's accumulators in closed form

The first call walks the 16384 rows in sixteen tiles of 1024 rows, eight per core. Each tile adds, into a 2048x256
table, (thresholded labels)ᵀ · predictions of its rows, and into a 1x2048 row the column sums of its thresholded
labels; both accumulators start from zero at the first of a core's eight tiles. So after a core's eighth tile the
accumulators hold the sums over that core's 8192 rows, and the two cores' results added are the sums over all
16384 rows: the masked row sums and the counts of the rows that pass the threshold, per class. -/

noncomputable section

namespace Cert.Bridge.Acc

open Idealize.ShloMosaic Idealize.ShloMosaic.ValueIdx Cert.KernelIdeal Cert.KernelIdeal.Gen Cert.KernelIdeal.KVal
open scoped BigOperators

/-- A label passes the threshold 0.8 (the word `0x3F4CCCCD`) or not, as the extended real `1` or `0`: the comparison's
    bit, widened to a 32-bit word and converted. -/
def passes (x : EReal) : EReal :=
  FloatOps.sitofp (F := Ideal) .f32 ((FloatOps.cmpf (F := Ideal) (φ := .f32) .oge x (Ideal.ofBits .f32 0x3F4CCCCD#32)).setWidth 32)

/-! ## One tile's payloads at an index -/

/-- The thresholded labels of a tile, at an entry. -/
theorem pay3_apply (v4 : Vec Ideal S1024x2048 .f32) (y : S1024x2048.Idx) : k0_pay3 v4 y = passes (v4 y) := rfl

/-- The zero table and the zero row the accumulators start from. -/
theorem pay1_apply (i : S2048x256.Idx) : (k0_pay1 (F := Ideal)) i = 0 := by
  show shapeCast S2048x256 (broadcast S2048x256 (Scalar.ofBits (F := Ideal) .f32 0x00000000#32)) shapeCasts_S2048x256_S2048x256 i = 0
  rw [shapeCast_self]
  exact Ideal.ofBits_zero_f32
theorem pay2_apply (i : S1x2048.Idx) : (k0_pay2 (F := Ideal)) i = 0 := by
  show shapeCast S1x2048 (broadcast S1x2048 (Scalar.ofBits (F := Ideal) .f32 0x00000000#32)) shapeCasts_S1x2048_S1x2048 i = 0
  rw [shapeCast_self]
  exact Ideal.ofBits_zero_f32

/-- The contraction (labelsᵀ · predictions, over the tile's rows): the operands' indices at result entry `(k, d)` and
    row `r` are `(r, k)` and `(r, d)`, axis by axis. -/
theorem lhs_tab_0 (i : S2048x256.Idx) (q : dot_S1024x2048_S1024x256_S2048x256_0_0_1_1_n_n.contr.Idx) :
    (dot_S1024x2048_S1024x256_S2048x256_0_0_1_1_n_n.lhsIdx i q 0).val = (q ⟨0, by decide⟩).val :=
  dot_S1024x2048_S1024x256_S2048x256_0_0_1_1_n_n.lhsIdx_val_of_single rfl i q
theorem lhs_tab_1 (i : S2048x256.Idx) (q : dot_S1024x2048_S1024x256_S2048x256_0_0_1_1_n_n.contr.Idx) :
    (dot_S1024x2048_S1024x256_S2048x256_0_0_1_1_n_n.lhsIdx i q 1).val = (i 0).val := by
  unfold DotDims.lhsIdx
  rw [dif_neg (show ¬(1 : Fin S1024x2048.rank) ∈ dot_S1024x2048_S1024x256_S2048x256_0_0_1_1_n_n.lhsBatch by decide), dif_pos (show (1 : Fin S1024x2048.rank) ∈ dot_S1024x2048_S1024x256_S2048x256_0_0_1_1_n_n.lhsNonContracting by decide)]
  rfl
theorem rhs_tab_0 (i : S2048x256.Idx) (q : dot_S1024x2048_S1024x256_S2048x256_0_0_1_1_n_n.contr.Idx) :
    (dot_S1024x2048_S1024x256_S2048x256_0_0_1_1_n_n.rhsIdx i q 0).val = (q ⟨0, by decide⟩).val :=
  dot_S1024x2048_S1024x256_S2048x256_0_0_1_1_n_n.rhsIdx_val_of_single rfl i q
theorem rhs_tab_1 (i : S2048x256.Idx) (q : dot_S1024x2048_S1024x256_S2048x256_0_0_1_1_n_n.contr.Idx) :
    (dot_S1024x2048_S1024x256_S2048x256_0_0_1_1_n_n.rhsIdx i q 1).val = (i 1).val := by
  unfold DotDims.rhsIdx
  rw [dif_neg (show ¬(1 : Fin S1024x256.rank) ∈ dot_S1024x2048_S1024x256_S2048x256_0_0_1_1_n_n.rhsBatch by decide), dif_pos (show (1 : Fin S1024x256.rank) ∈ dot_S1024x2048_S1024x256_S2048x256_0_0_1_1_n_n.rhsNonContracting by decide)]
  rfl

/-- One tile's step on the table, at entry `(k, d)`: the accumulator plus the sum over the tile's rows of the row's
    thresholded label of class `k` times its prediction's coordinate `d`. -/
theorem pay4_apply (v3 : Vec Ideal S1024x256 .f32) (v4 : Vec Ideal S1024x2048 .f32) (v11 : Vec Ideal S2048x256 .f32)
    (k : Fin 2048) (d : Fin 256) :
    k0_pay4 v3 v4 v11 (ix2 k d) = v11 (ix2 k d) + ∑ r : Fin 1024, passes (v4 (ix2 r k)) * v3 (ix2 r d) := by
  show shapeCast S2048x256 (addf v11 (matmul dot_S1024x2048_S1024x256_S2048x256_0_0_1_1_n_n none
      (truncf .bf16 (k0_pay3 v4) bitsLt_bf16_f32) (truncf .bf16 v3 bitsLt_bf16_f32) (constant S2048x256 .f32 0x00000000#32)))
    shapeCasts_S2048x256_S2048x256 (ix2 k d) = _
  rw [shapeCast_self, addf_apply]
  simp only [matmul]
  rw [Ideal.matmul_constant_zero_apply, ← Equiv.sum_comp (contrEquiv1 dot_S1024x2048_S1024x256_S2048x256_0_0_1_1_n_n 1024 rfl rfl).symm]
  refine congrArg (v11 (ix2 k d) + ·) (Finset.sum_congr rfl fun r _ => ?_)
  have hk := contrEquiv1_symm_val dot_S1024x2048_S1024x256_S2048x256_0_0_1_1_n_n 1024 rfl rfl r
  have el : dot_S1024x2048_S1024x256_S2048x256_0_0_1_1_n_n.lhsIdx (ix2 k d) ((contrEquiv1 dot_S1024x2048_S1024x256_S2048x256_0_0_1_1_n_n 1024 rfl rfl).symm r) = ix2 r k := funext fun a => Fin.ext (by
    match a with
    | ⟨0, _⟩ => exact (lhs_tab_0 _ _).trans hk
    | ⟨1, _⟩ => exact lhs_tab_1 _ _)
  have er : dot_S1024x2048_S1024x256_S2048x256_0_0_1_1_n_n.rhsIdx (ix2 k d) ((contrEquiv1 dot_S1024x2048_S1024x256_S2048x256_0_0_1_1_n_n 1024 rfl rfl).symm r) = ix2 r d := funext fun a => Fin.ext (by
    match a with
    | ⟨0, _⟩ => exact (rhs_tab_0 _ _).trans hk
    | ⟨1, _⟩ => exact rhs_tab_1 _ _)
  rw [el, er]
  rfl

/-- A column sum over a tile's rows, at class `k`. -/
theorem colsum_apply (x : FVec Ideal S1024x2048 .f32) (k : Fin 2048) :
    multiReduction .add [0] S2048 x 0x00000000#32 reduces_S1024x2048_S2048 (.inl rfl) rfl (ix1 k) = ∑ r : Fin 1024, x (ix2 r k) := by
  refine (Ideal.multiReduction_add_single x 0x00000000#32 reduces_S1024x2048_S2048 (.inl rfl) rfl (ix1 k)).trans ?_
  refine Finset.sum_congr rfl fun r _ => congrArg x (funext fun a => Fin.ext ?_)
  match a with
  | ⟨0, _⟩ => rfl
  | ⟨1, _⟩ => rfl

/-- One tile's step on the counts, at class `k`: the accumulator plus the number of the tile's rows whose label of
    class `k` passes. -/
theorem pay5_apply (v4 : Vec Ideal S1024x2048 .f32) (v17 : Vec Ideal S1x2048 .f32) (u : Fin 1) (k : Fin 2048) :
    k0_pay5 v4 v17 (ix2 u k) = v17 (ix2 u k) + ∑ r : Fin 1024, passes (v4 (ix2 r k)) := by
  show shapeCast S1x2048 (addf v17 (shapeCast S1x2048
      (multiReduction .add [0] S2048 (k0_pay3 v4) 0x00000000#32 reduces_S1024x2048_S2048 (.inl rfl) rfl) shapeCasts_S2048_S1x2048))
    shapeCasts_S1x2048_S1x2048 (ix2 u k) = _
  rw [shapeCast_self, addf_apply, shapeCast_a_1a_apply, colsum_apply]
  rfl

/-! ## The accumulators after each tile -/

variable (P : Vec Ideal S16384x256 .f32) (L : Vec Ideal S16384x2048 .f32)

/-- What tile `n` adds to the table at `(k, d)`, and to the counts at `k`. -/
def tabTile (n : ℕ) (k : Fin 2048) (d : Fin 256) : EReal :=
  ∑ r : Fin 1024, passes (labTile1 L n (ix2 r k)) * predTile1 P n (ix2 r d)
def cntTile (n : ℕ) (k : Fin 2048) : EReal := ∑ r : Fin 1024, passes (labTile1 L n (ix2 r k))

theorem tabAt_reset (n : ℕ) (hn : n % 8 = 0) (k : Fin 2048) (d : Fin 256) : tabAt P L n (ix2 k d) = tabTile P L n k d := by
  cases n with
  | zero =>
    show k0_pay4 (predTile1 P 0) (labTile1 L 0) (k0_pay1 (F := Ideal)) (ix2 k d) = _
    rw [pay4_apply, pay1_apply, zero_add]
    rfl
  | succ n =>
    show k0_pay4 (predTile1 P (n + 1)) (labTile1 L (n + 1)) (if (n + 1) % 8 = 0 then (k0_pay1 (F := Ideal)) else tabAt P L n) (ix2 k d) = _
    rw [if_pos hn, pay4_apply, pay1_apply, zero_add]
    rfl
theorem tabAt_step (n : ℕ) (hn : (n + 1) % 8 ≠ 0) (k : Fin 2048) (d : Fin 256) :
    tabAt P L (n + 1) (ix2 k d) = tabAt P L n (ix2 k d) + tabTile P L (n + 1) k d := by
  show k0_pay4 (predTile1 P (n + 1)) (labTile1 L (n + 1)) (if (n + 1) % 8 = 0 then (k0_pay1 (F := Ideal)) else tabAt P L n) (ix2 k d) = _
  rw [if_neg hn, pay4_apply]
  rfl
/-- After the tile `j` of core `g`'s eight the table holds the sum of what its tiles `0 … j` added. -/
theorem tabAt_closed (g j : ℕ) (hj : j < 8) (k : Fin 2048) (d : Fin 256) :
    tabAt P L (8 * g + j) (ix2 k d) = ∑ t ∈ Finset.range (j + 1), tabTile P L (8 * g + t) k d := by
  induction j with
  | zero => rw [tabAt_reset P L _ (by omega), Finset.sum_range_one]
  | succ j ih =>
    rw [show 8 * g + (j + 1) = (8 * g + j) + 1 from rfl, tabAt_step P L _ (by omega), ih (by omega), Finset.sum_range_succ _ (j + 1)]
    rfl

theorem cntAt_reset (n : ℕ) (hn : n % 8 = 0) (u : Fin 1) (k : Fin 2048) : cntAt L n (ix2 u k) = cntTile L n k := by
  cases n with
  | zero =>
    show k0_pay5 (labTile1 L 0) (k0_pay2 (F := Ideal)) (ix2 u k) = _
    rw [pay5_apply, pay2_apply, zero_add]
    rfl
  | succ n =>
    show k0_pay5 (labTile1 L (n + 1)) (if (n + 1) % 8 = 0 then (k0_pay2 (F := Ideal)) else cntAt L n) (ix2 u k) = _
    rw [if_pos hn, pay5_apply, pay2_apply, zero_add]
    rfl
theorem cntAt_step (n : ℕ) (hn : (n + 1) % 8 ≠ 0) (u : Fin 1) (k : Fin 2048) :
    cntAt L (n + 1) (ix2 u k) = cntAt L n (ix2 u k) + cntTile L (n + 1) k := by
  show k0_pay5 (labTile1 L (n + 1)) (if (n + 1) % 8 = 0 then (k0_pay2 (F := Ideal)) else cntAt L n) (ix2 u k) = _
  rw [if_neg hn, pay5_apply]
  rfl
theorem cntAt_closed (g j : ℕ) (hj : j < 8) (u : Fin 1) (k : Fin 2048) :
    cntAt L (8 * g + j) (ix2 u k) = ∑ t ∈ Finset.range (j + 1), cntTile L (8 * g + t) k := by
  induction j with
  | zero => rw [cntAt_reset L _ (by omega), Finset.sum_range_one]
  | succ j ih =>
    rw [show 8 * g + (j + 1) = (8 * g + j) + 1 from rfl, cntAt_step L _ (by omega), ih (by omega), Finset.sum_range_succ _ (j + 1)]
    rfl

/-! ## A core's eight tiles are its 8192 rows; the two cores' are all 16384 -/

/-- Row `r` of tile `8 g + q` is row `8192 g + 1024 q + r` of the arrays. -/
theorem tile_row (g : Fin 2) (q : Fin 8) (r : Fin 1024) :
    (1024 * (8 * g.val + q.val) + r.val) % 16384 = 8 * 1024 * g.val + 1024 * q.val + r.val := by
  have := g.isLt
  have := q.isLt
  have := r.isLt
  omega

theorem labTile1_row (g : Fin 2) (q : Fin 8) (r : Fin 1024) (k : Fin 2048) :
    labTile1 L (8 * g.val + q.val) (ix2 r k)
      = L (ix2 (⟨8 * 1024 * g.val + 1024 * q.val + r.val, Cert.LibSums.group_tile_row_lt (N := 16384) (by norm_num) g q r⟩ : Fin 16384) k) :=
  congrArg L (funext fun a => Fin.ext (by
    match a with
    | ⟨0, _⟩ => exact tile_row g q r
    | ⟨1, _⟩ => rfl))
theorem predTile1_row (g : Fin 2) (q : Fin 8) (r : Fin 1024) (d : Fin 256) :
    predTile1 P (8 * g.val + q.val) (ix2 r d)
      = P (ix2 (⟨8 * 1024 * g.val + 1024 * q.val + r.val, Cert.LibSums.group_tile_row_lt (N := 16384) (by norm_num) g q r⟩ : Fin 16384) d) :=
  congrArg P (funext fun a => Fin.ext (by
    match a with
    | ⟨0, _⟩ => exact tile_row g q r
    | ⟨1, _⟩ => rfl))

/-- Core `g`'s table after its eighth tile: the masked sums over its 8192 rows. -/
theorem tabAt_group (g : Fin 2) (k : Fin 2048) (d : Fin 256) :
    tabAt P L (8 * g.val + 7) (ix2 k d)
      = ∑ q : Fin 8, ∑ r : Fin 1024,
          (fun b : Fin 16384 => passes (L (ix2 b k)) * P (ix2 b d))
            ⟨8 * 1024 * g.val + 1024 * q.val + r.val, Cert.LibSums.group_tile_row_lt (N := 16384) (by norm_num) g q r⟩ := by
  rw [tabAt_closed P L g.val 7 (by omega)]
  refine (Finset.sum_range fun t => tabTile P L (8 * g.val + t) k d).trans ?_
  refine Finset.sum_congr rfl fun q _ => Finset.sum_congr rfl fun r _ => ?_
  rw [labTile1_row, predTile1_row]
theorem cntAt_group (g : Fin 2) (u : Fin 1) (k : Fin 2048) :
    cntAt L (8 * g.val + 7) (ix2 u k)
      = ∑ q : Fin 8, ∑ r : Fin 1024,
          (fun b : Fin 16384 => passes (L (ix2 b k)))
            ⟨8 * 1024 * g.val + 1024 * q.val + r.val, Cert.LibSums.group_tile_row_lt (N := 16384) (by norm_num) g q r⟩ := by
  rw [cntAt_closed L g.val 7 (by omega)]
  refine (Finset.sum_range fun t => cntTile L (8 * g.val + t) k).trans ?_
  refine Finset.sum_congr rfl fun q _ => Finset.sum_congr rfl fun r _ => ?_
  rw [labTile1_row]

/-- THE TABLE. The two cores' tables added: at `(k, d)`, the sum over all 16384 rows of the row's thresholded label of
    class `k` times its prediction's coordinate `d`. -/
theorem tab_total (k : Fin 2048) (d : Fin 256) :
    tabAt P L (8 * (0 : Fin 2).val + 7) (ix2 k d) + tabAt P L (8 * (1 : Fin 2).val + 7) (ix2 k d)
      = ∑ b : Fin 16384, passes (L (ix2 b k)) * P (ix2 b d) := by
  rw [Cert.LibSums.sum_group_tiles 2 8 1024 16384 (by norm_num) (fun b : Fin 16384 => passes (L (ix2 b k)) * P (ix2 b d)),
    Fin.sum_univ_two, tabAt_group, tabAt_group]

/-- THE COUNTS. The two cores' count rows added: at class `k`, the number of rows whose label of class `k` passes. -/
theorem cnt_total (u : Fin 1) (k : Fin 2048) :
    cntAt L (8 * (0 : Fin 2).val + 7) (ix2 u k) + cntAt L (8 * (1 : Fin 2).val + 7) (ix2 u k)
      = ∑ b : Fin 16384, passes (L (ix2 b k)) := by
  rw [Cert.LibSums.sum_group_tiles 2 8 1024 16384 (by norm_num) (fun b : Fin 16384 => passes (L (ix2 b k))),
    Fin.sum_univ_two, cntAt_group, cntAt_group]

/-- The call's two results at an entry: a core's slab is its accumulator after its eighth tile. -/
theorem res0_apply (g : Fin 2) (k : Fin 2048) (d : Fin 256) :
    res0 P L (ix3 g k d) = tabAt P L (8 * g.val + 7) (ix2 k d) := by
  show shapeCast S1x2048x256 (tabAt P L (8 * g.val + 7)) shapeCasts_S2048x256_S1x2048x256 (ix3 (0 : Fin 1) k d) = _
  exact shapeCast_ab_1ab_apply _ _ _ _ _
theorem res1_apply (g : Fin 2) (u : Fin 1) (k : Fin 2048) :
    res1 L (ix3 g u k) = cntAt L (8 * g.val + 7) (ix2 (0 : Fin 1) k) := by
  show shapeCast S1x1x2048 (cntAt L (8 * g.val + 7)) shapeCasts_S1x2048_S1x1x2048 (ix3 (0 : Fin 1) (0 : Fin 1) k) = _
  exact shapeCast_ab_1ab_apply _ _ _ _ _

end Cert.Bridge.Acc

end
-- ==== Proof.BridgeCount.lean ====
import Idealize.ShloMosaic.PureOps.Ideal.Laws
import Idealize.ShloMosaic.PureOps.IdealRules
import Idealize.ShloMosaic.PureOps.Reduce
import Mathlib.Algebra.BigOperators.Group.Finset.Basic
import Mathlib.Algebra.Order.BigOperators.Group.Finset
import Mathlib.Data.EReal.Basic

/-! # Counting with integers and counting with extended reals

One program counts the rows that pass a threshold with 32-bit integers — each row contributes the word `0` or `1`,
the words are added, the total is compared with `0` or raised to at least `1` and only then converted to a float —,
the other adds the same `0` / `1` values as floats. With fewer than `2^31` rows the integer total never wraps, so it
IS the number of passing rows; at the ideal values a conversion is the integer itself and a float sum is exact, so
the two counts are one extended real: the number of passing rows. -/

namespace Cert.Bridge.Count

open Idealize.ShloMosaic
open scoped BigOperators

/-- A one-bit word widened to 32 bits keeps its value. -/
theorem setWidth_bit_toNat (b : BitVec 1) : (b.setWidth 32).toNat = b.toNat := by
  rcases BitVec.eq_zero_or_eq_one b with rfl | rfl <;> rfl

/-- … read as a signed integer too: `0` or `1`. -/
theorem setWidth_bit_toInt (b : BitVec 1) : (b.setWidth 32).toInt = (b.toNat : ℤ) := by
  rcases BitVec.eq_zero_or_eq_one b with rfl | rfl <;> rfl

/-- A one-bit word is at most `1`. -/
theorem bit_toNat_le (b : BitVec 1) : b.toNat ≤ 1 := by
  have := b.isLt
  omega

/-- At the ideal values the signed conversion of a widened bit is the unsigned conversion of the bit: `0` or `1`. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [setWidth_bit_toInt, Int.cast_natCast]

/-- The coercion of naturals into the extended reals (through the reals) carries finite sums to finite sums. -/
theorem coe_nat_sum {ι : Type*} (s : Finset ι) (f : ι → ℕ) :
    (((∑ k ∈ s, f k : ℕ) : ℝ) : EReal) = ∑ k ∈ s, ((f k : ℝ) : EReal) := by
  classical
  induction s using Finset.induction_on with
  | empty => simp
  | insert a s ha ih => rw [Finset.sum_insert ha, Finset.sum_insert ha, Nat.cast_add, EReal.coe_add, ih]

/-- Adding 32-bit words: the total's value is the sum of the values modulo `2^32`. -/
theorem fold_addi_toNat {ι : Type*} (s : Finset ι) (g : ι → BitVec 32) :
    (s.fold IntOp.addi 0#32 g).toNat = (∑ k ∈ s, (g k).toNat) % 2 ^ 32 := by
  classical
  induction s using Finset.induction_on with
  | empty => simp
  | insert a s ha ih =>
    rw [Finset.fold_insert ha, Finset.sum_insert ha]
    show (g a + s.fold IntOp.addi 0#32 g).toNat = _
    rw [BitVec.toNat_add, ih, Nat.add_mod_mod]

/-- So the integer total of widened bits is the word of the number of set bits. -/
theorem fold_addi_bits {ι : Type*} [Fintype ι] (g : ι → BitVec 1) :
    Finset.univ.fold IntOp.addi 0#32 (fun k => (g k).setWidth 32) = BitVec.ofNat 32 (∑ k, (g k).toNat) := by
  apply BitVec.eq_of_toNat_eq
  rw [fold_addi_toNat, BitVec.toNat_ofNat]
  simp only [setWidth_bit_toNat]

/-- The number of set bits is at most the number of bits. -/
theorem sum_bits_le {ι : Type*} [Fintype ι] (g : ι → BitVec 1) : ∑ k, (g k).toNat ≤ Fintype.card ι := by
  have h := Finset.sum_le_card_nsmul Finset.univ (fun k => (g k).toNat) 1 fun k _ => bit_toNat_le (g k)
  rwa [smul_eq_mul, mul_one, Finset.card_univ] at h

/-- A number below `2^31`, as a 32-bit word, read back signed, is itself. -/
theorem ofNat_toInt {n : ℕ} (hn : n < 2147483648) : (BitVec.ofNat 32 n).toInt = (n : ℤ) := by
  have h1 : (BitVec.ofNat 32 n).toNat = n := by
    rw [BitVec.toNat_ofNat]
    exact Nat.mod_eq_of_lt (by omega)
  rw [BitVec.toInt_eq_toNat_cond, h1, if_pos (by omega)]

/-- The signed maximum with the word `1`, converted: the larger of the number and `1`, as an extended real. -/
theorem sitofp_maxsi_one {n : ℕ} (hn : n < 2147483648) :
    FloatOps.sitofp (F := Ideal) .f32 (IntOp.maxsi (BitVec.ofNat 32 n) 1#32) = max (((n : ℝ) : EReal)) 1 := by
  have hn' := ofNat_toInt hn
  have h1 : (1#32 : BitVec 32).toInt = 1 := rfl
  show ((((if (1#32 : BitVec 32).slt (BitVec.ofNat 32 n) then BitVec.ofNat 32 n else 1#32).toInt : ℤ) : ℝ) : EReal) = _
  by_cases h : 1 < n
  · have hs : (1#32 : BitVec 32).slt (BitVec.ofNat 32 n) = true := by
      rw [BitVec.slt, hn', h1]; exact decide_eq_true (by exact_mod_cast h)
    rw [if_pos hs, hn', Int.cast_natCast, max_eq_left]
    rw [← EReal.coe_one, EReal.coe_le_coe_iff]
    exact_mod_cast h.le
  · have hs : ¬ (1#32 : BitVec 32).slt (BitVec.ofNat 32 n) = true := by
      rw [BitVec.slt, hn', h1]; simp only [decide_eq_true_eq, not_lt]; exact_mod_cast not_lt.mp h
    rw [if_neg hs, h1, Int.cast_one, EReal.coe_one, max_eq_right]
    rw [← EReal.coe_one, EReal.coe_le_coe_iff]
    exact_mod_cast not_lt.mp h

/-- The signed comparison "greater than the word `0`" of such a word is the comparison of the number, as an extended
    real, with `0`. -/
theorem cmpi_sgt_zero {n : ℕ} (hn : n < 2147483648) :
    IntOp.cmpi .sgt (BitVec.ofNat 32 n) 0#32 = Ideal.cmp .ogt (((n : ℝ) : EReal)) 0 := by
  have hn' := ofNat_toInt hn
  have h0 : (0#32 : BitVec 32).toInt = 0 := rfl
  show BitVec.ofBool ((0#32 : BitVec 32).slt (BitVec.ofNat 32 n)) = BitVec.ofBool (decide ((0 : EReal) < ((n : ℝ) : EReal)))
  congr 1
  rw [BitVec.slt, hn', h0, ← EReal.coe_zero, decide_eq_decide, EReal.coe_lt_coe_iff]
  exact_mod_cast Iff.rfl

/-! ## The two counts -/

variable {ι : Type*} [Fintype ι]

/-- The float count: the sum of the bits' values as extended reals. -/
theorem sum_uitofp (g : ι → BitVec 1) :
    ∑ k, FloatOps.uitofp (F := Ideal) .f32 (g k) = (((∑ k, (g k).toNat : ℕ) : ℝ) : EReal) :=
  (coe_nat_sum Finset.univ fun k => (g k).toNat).symm

/-- THE DENOMINATOR. The integer count raised to at least one and converted is the float count raised to at least the
    float `1.0`. -/
theorem count_max (hcard : Fintype.card ι < 2147483648) (g : ι → BitVec 1) :
    FloatOps.sitofp (F := Ideal) .f32 (IntOp.maxsi (Finset.univ.fold IntOp.addi 0#32 fun k => (g k).setWidth 32) 1#32)
      = max (∑ k, FloatOps.uitofp (F := Ideal) .f32 (g k)) (Ideal.ofBits .f32 0x3F800000#32) := by
  have h1 : Ideal.ofBits .f32 0x3F800000#32 = 1 := IdealRules.sign_bit.ideal_onePat .f32
  rw [fold_addi_bits, sitofp_maxsi_one (lt_of_le_of_lt (sum_bits_le g) hcard), sum_uitofp, h1]

/-- WHICH CLASSES EXIST. The integer count is positive exactly when the float count is. -/
theorem count_pos (hcard : Fintype.card ι < 2147483648) (g : ι → BitVec 1) :
    IntOp.cmpi .sgt (Finset.univ.fold IntOp.addi 0#32 fun k => (g k).setWidth 32) 0#32
      = FloatOps.cmpf (F := Ideal) .ogt (∑ k, FloatOps.uitofp (F := Ideal) .f32 (g k)) (Ideal.ofBits .f32 0x00000000#32) := by
  rw [fold_addi_bits, cmpi_sgt_zero (lt_of_le_of_lt (sum_bits_le g) hcard), sum_uitofp, Ideal.ofBits_zero_f32]
  rfl

end Cert.Bridge.Count
-- ==== Proof.BridgeRef.lean ====
import proofs.«402318_j62947040690217_3_alg».proof.Proof.Gen.ReferenceIdeal.Read
import proofs.«402318_j62947040690217_3_alg».proof.Proof.BridgeCount
import Idealize.ShloMosaic.Lib.ValueIdx
import Idealize.ShloMosaic.PureOps.Reduce

/-! # The reference's centroid tables, entry by entry

The reference thresholds the labels at 0.8, counts each class's passing rows with 32-bit integers, sums the passing
rows' predictions per class with one product (maskᵀ · predictions), and divides by the count raised to at least one.
Read at an entry, with the integer count replaced by the float count it equals: the numerator is the sum over all
16384 rows of the row's pass bit (as `0` / `1`) times its prediction's coordinate, the denominator the larger of the
number of passing rows and `1`; a class exists when its number of passing rows is positive. The normalised,
transposed table is one fixed chain of operations applied to the centroid table. -/

noncomputable section

namespace Cert.Bridge.Ref

open Idealize.ShloMosaic Idealize.ShloMosaic.ValueIdx Cert.ReferenceIdeal Cert.ReferenceIdeal.Gen Cert.ReferenceIdeal.Read
open scoped BigOperators

/-- A label passes the threshold 0.8 (the word `0x3F4CCCCD`): the comparison's bit. -/
def bit (x : EReal) : BitVec 1 :=
  FloatOps.cmpf (F := Ideal) (φ := .f32) .oge x (Ideal.ofBits .f32 0x3F4CCCCD#32)

variable (P : (⟨S16384x256, .f32⟩ : BufTy).Contents (Elt Ideal)) (L : (⟨S16384x2048, .f32⟩ : BufTy).Contents (Elt Ideal))

/-- The mask at row `b`, class `k`. -/
theorem v1_apply (b : Fin 16384) (k : Fin 2048) : val_main_v1 (F := Ideal) L (ix2 b k) = bit (L (ix2 b k)) := by
  rw [val_main_v1_apply, val_main_v0_apply, val_main_cst_apply]
  rfl

/-- The rows of the labels are one axis to sum over. -/
theorem rows_reduce : S16384x2048.Reduces [0] S2048 := by decide

/-- The integer count of class `k`: the 32-bit sum, in any order, of the rows' pass bits widened to words. -/
theorem v3_apply (k : Fin 2048) :
    val_main_v3 (F := Ideal) L (ix1 k) = Finset.univ.fold IntOp.addi 0#32 (fun b : Fin 16384 => (bit (L (ix2 b k))).setWidth 32) := by
  unfold val_main_v3
  rw [Host.reduce_eq_fold_single IntOp.addi _ _ reducesTo_S16384x2048_S2048_d0 rows_reduce h_S_ (ix1 k)]
  have hf : (val_main_v2 (F := Ideal) L ∘ rows_reduce.lift (ix1 k)) = fun b : Fin 16384 => (bit (L (ix2 b k))).setWidth 32 := by
    refine funext fun (b : Fin 16384) => ?_
    show (val_main_v1 (F := Ideal) L (rows_reduce.lift (ix1 k) b)).setWidth 32 = _
    rw [show rows_reduce.lift (ix1 k) b = ix2 b k from funext fun a => Fin.ext (by
      match a with
      | ⟨0, _⟩ => rfl
      | ⟨1, _⟩ => rfl), v1_apply]
  rw [hf]
  rfl

/-- The numerator at `(k, d)`: the sum over the rows of the pass bit times the prediction's coordinate `d`. -/
theorem v8_apply (k : Fin 2048) (d : Fin 256) :
    val_main_v8 (F := Ideal) P L (ix2 k d)
      = ∑ b : Fin 16384, FloatOps.uitofp (F := Ideal) .f32 (bit (L (ix2 b k))) * P (ix2 b d) := by
  rw [val_main_v8_apply]
  refine Finset.sum_congr rfl fun b _ => ?_
  rw [val_main_v7_apply, val_main_v6_apply,
    show idx_main_v7 (lidx_main_v8 (ix2 k d) b) = ix2 b k from funext fun a => Fin.ext (by
      match a with
      | ⟨0, _⟩ => rfl
      | ⟨1, _⟩ => rfl),
    show ridx_main_v8 (ix2 k d) b = ix2 b d from funext fun a => Fin.ext (by
      match a with
      | ⟨0, _⟩ => rfl
      | ⟨1, _⟩ => rfl), v1_apply]

theorem card_rows : Fintype.card (Fin 16384) < 2147483648 := by
  rw [Fintype.card_fin]
  norm_num

/-- The denominator at `(k, d)`: the number of passing rows of class `k`, at least `1`. -/
theorem v13_apply (k : Fin 2048) (d : Fin 256) :
    val_main_v13 (F := Ideal) L (ix2 k d)
      = max (∑ b : Fin 16384, FloatOps.uitofp (F := Ideal) .f32 (bit (L (ix2 b k)))) (Ideal.ofBits .f32 0x3F800000#32) := by
  rw [val_main_v13_apply, val_main_v12_apply, val_main_v11_apply, val_main_v10_apply, val_main_v9_apply, val_main_c_1_apply,
    show idx_main_v12 (idx_main_v13 (ix2 k d)) = ix1 k from funext fun a => Fin.ext (by
      match a with
      | ⟨0, _⟩ => rfl), v3_apply]
  exact Count.count_max card_rows _

/-- THE CENTROID TABLE at `(k, d)`. -/
theorem v14_apply (k : Fin 2048) (d : Fin 256) :
    val_main_v14 (F := Ideal) P L (ix2 k d)
      = FloatOps.hostDivf (F := Ideal) (φ := .f32)
          (∑ b : Fin 16384, FloatOps.uitofp (F := Ideal) .f32 (bit (L (ix2 b k))) * P (ix2 b d))
          (max (∑ b : Fin 16384, FloatOps.uitofp (F := Ideal) .f32 (bit (L (ix2 b k)))) (Ideal.ofBits .f32 0x3F800000#32)) := by
  rw [val_main_v14_apply, v8_apply, v13_apply]

/-- WHICH CLASSES EXIST: class `k` does when its float count is positive. -/
theorem v5_apply (k : Fin 2048) :
    val_main_v5 (F := Ideal) L (ix1 k)
      = FloatOps.cmpf (F := Ideal) (φ := .f32) .ogt (∑ b : Fin 16384, FloatOps.uitofp (F := Ideal) .f32 (bit (L (ix2 b k))))
          (Ideal.ofBits .f32 0x00000000#32) := by
  rw [val_main_v5_apply, val_main_v4_apply, val_main_c_0_apply, v3_apply]
  exact Count.count_pos card_rows _

/-- Rows normalised to unit length (the norm floored at the word `0x322BCC77`), then transposed: the chain of
    operations both programs apply to their centroid table. -/
def normT (X : FVec Ideal S2048x256 .f32) : FVec Ideal S256x2048 .f32 :=
  transpose S256x2048 [1, 0]
    (Host.divf (F := Ideal) X
      (broadcastInDim S2048x256 ![0, 1] bcast_S2048x1_S2048x256_0_1
        (maximumf
          (Host.sqrt (F := Ideal)
            (broadcastInDim S2048x1 ![0] bcast_S2048_S2048x1_0
              (Host.reduceAdd (F := Ideal) (mulf X X) (constant (F := Ideal) S_ .f32 0x00000000#32) reducesTo_S2048x256_S2048_d1 h_S_)))
          (broadcastInDim S2048x1 ![] bcast_S_S2048x1 (constant (F := Ideal) S_ .f32 0x322BCC77#32)))))
    transposes_S2048x256_S256x2048_1_0

/-- THE NORMALISED TRANSPOSED TABLE is that chain on the centroid table. -/
theorem v38_eq : val_main_v38 (F := Ideal) P L = normT (val_main_v14 (F := Ideal) P L) := rfl

end Cert.Bridge.Ref

end
-- ==== Proof.BridgeTables.lean ====
import proofs.«402318_j62947040690217_3_alg».proof.Proof.KVal
import proofs.«402318_j62947040690217_3_alg».proof.Proof.BridgeAcc
import proofs.«402318_j62947040690217_3_alg».proof.Proof.BridgeRef
import proofs.«402318_j62947040690217_3_alg».proof.Proof.Gen.KernelIdeal.Regions
import proofs.«402318_j62947040690217_3_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

/-! # The three tables handed to the second call are the reference's

Between its two calls the kernel program adds the two cores' partial tables and partial counts, divides the table by
the count raised to at least one (the class centroids), marks the classes whose count is positive, and normalises
and transposes the centroids. The first call's results are the per-core sums over the rows (the closed forms of the
accumulators), so the added tables are the sums over all 16384 rows — the reference's numerator —, and the added
float counts are the reference's integer counts. Hence the centroid table, the table of existing classes and the
normalised transposed table are, entry by entry, the reference's. A change of float format is the identity on
extended reals, so the casts to the 16-bit format the second call reads change nothing. -/

noncomputable section

namespace Cert.Bridge.Tables

open Idealize.ShloMosaic Idealize.ShloMosaic.ValueIdx Idealize.ShloMosaic.TcCoe Idealize.SL.Sem
open Cert.KernelIdeal Cert.KernelIdeal.Gen
open scoped BigOperators

/-! ## The host's operations between the calls, as functions of the first call's two results -/

/-- The two cores' tables added. -/
def sumTab (R0 : Vec Ideal S2x2048x256 .f32) : FVec Ideal S2048x256 .f32 :=
  addf
    (shapeCast S2048x256 (extractStridedSlice S1x2048x256 ![0, 0, 0] R0 slices_S2x2048x256_S1x2048x256_0_0_0) shapeCasts_S1x2048x256_S2048x256)
    (shapeCast S2048x256 (extractStridedSlice S1x2048x256 ![1, 0, 0] R0 slices_S2x2048x256_S1x2048x256_1_0_0) shapeCasts_S1x2048x256_S2048x256)

/-- The two cores' count rows added. -/
def sumCnt (R1 : Vec Ideal S2x1x2048 .f32) : FVec Ideal S2048 .f32 :=
  addf
    (shapeCast S2048 (extractStridedSlice S1x1x2048 ![0, 0, 0] R1 slices_S2x1x2048_S1x1x2048_0_0_0) shapeCasts_S1x1x2048_S2048)
    (shapeCast S2048 (extractStridedSlice S1x1x2048 ![1, 0, 0] R1 slices_S2x1x2048_S1x1x2048_1_0_0) shapeCasts_S1x1x2048_S2048)

/-- The centroids: the added table divided, row by row, by the added count raised to at least `1.0`. -/
def centK (R0 : Vec Ideal S2x2048x256 .f32) (R1 : Vec Ideal S2x1x2048 .f32) : FVec Ideal S2048x256 .f32 :=
  Host.divf (F := Ideal) (sumTab R0)
    (broadcastInDim S2048x256 ![0, 1] bcast_S2048x1_S2048x256_0_1
      (broadcastInDim S2048x1 ![0] bcast_S2048_S2048x1_0
        (maximumf (sumCnt R1) (broadcastInDim S2048 ![] bcast_S_S2048 (constant (F := Ideal) S_ .f32 0x3F800000#32)))))

/-- Which classes exist: the added count compared with zero, as `0.0` / `1.0`, in a row. -/
def existsK (R1 : Vec Ideal S2x1x2048 .f32) : FVec Ideal S1x2048 .f32 :=
  broadcastInDim S1x2048 ![1] bcast_S2048_S1x2048_1
    (uitofp .f32 (cmpf .ogt (sumCnt R1) (broadcastInDim S2048 ![] bcast_S_S2048 (constant (F := Ideal) S_ .f32 0x00000000#32))))

variable (m : (ℓ : Loc Cert.KernelIdeal.nD Cert.KernelIdeal.τ Cert.KernelIdeal.sig) → Buf (Elt Ideal) ℓ)
  (outs : Cert.KernelIdeal.Gen.Outs (F := Ideal)) (c : Dev Cert.KernelIdeal.nD)

/-- The first call's results are what the host stretch starts from. -/
theorem V1_v0_1 : V1 m outs c (Proc.devRef .tc main_v0_1) = outs 1 main_v0_1 c := by
  simp only [V1, Function.update_self]
theorem V1_v0_0 : V1 m outs c (Proc.devRef .tc main_v0_0) = outs 1 main_v0_0 c := by
  simp only [V1, Function.update_of_ne (StableHlo.devRef_ne_of_ne (by decide : main_v0_0 ≠ main_v0_1)), Function.update_self]

/-- The three buffers the second call reads, after the host stretch. -/
theorem V2_v28 :
    (Gen.V2 m outs c (Proc.devRef .tc main_v28) : S2048x256.Idx → EReal)
      = truncf .bf16 (centK (outs 1 main_v0_0 c) (outs 1 main_v0_1 c)) bitsLt_bf16_f32 := by
  show StableHlo.after hostOps1 (V1 m outs c) (Proc.devRef .tc main_v28) = _
  after_results
  rw [V1_v0_0 m outs c, V1_v0_1 m outs c]
  rfl
theorem V2_v19 :
    (Gen.V2 m outs c (Proc.devRef .tc main_v19) : S1x2048.Idx → EReal) = existsK (outs 1 main_v0_1 c) := by
  show StableHlo.after hostOps1 (V1 m outs c) (Proc.devRef .tc main_v19) = _
  after_results
  rw [V1_v0_1 m outs c]
  rfl
theorem V2_v30 :
    (Gen.V2 m outs c (Proc.devRef .tc main_v30) : S256x2048.Idx → EReal)
      = truncf .bf16 (Ref.normT (centK (outs 1 main_v0_0 c) (outs 1 main_v0_1 c))) bitsLt_bf16_f32 := by
  show StableHlo.after hostOps1 (V1 m outs c) (Proc.devRef .tc main_v30) = _
  after_results
  rw [V1_v0_0 m outs c, V1_v0_1 m outs c]
  rfl

/-! ## The added tables at an entry -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

theorem sumTab_apply (R0 : Vec Ideal S2x2048x256 .f32) (k : Fin 2048) (d : Fin 256) :
    sumTab R0 (ix2 k d) = R0 (ix3 (0 : Fin 2) k d) + R0 (ix3 (1 : Fin 2) k d) := by
  unfold sumTab
  rw [addf_apply, shapeCast_1ab_ab_apply, shapeCast_1ab_ab_apply]
  congr 1
  · exact extractStridedSlice_apply _ R0 _ _ _ fun a => by
      match a with
      | ⟨0, _⟩ => rfl
      | ⟨1, _⟩ => exact (Nat.zero_add _).symm
      | ⟨2, _⟩ => exact (Nat.zero_add _).symm
  · exact extractStridedSlice_apply _ R0 _ _ _ fun a => by
      match a with
      | ⟨0, _⟩ => rfl
      | ⟨1, _⟩ => exact (Nat.zero_add _).symm
      | ⟨2, _⟩ => exact (Nat.zero_add _).symm

theorem sumCnt_apply (R1 : Vec Ideal S2x1x2048 .f32) (k : Fin 2048) :
    sumCnt R1 (ix1 k) = R1 (ix3 (0 : Fin 2) (0 : Fin 1) k) + R1 (ix3 (1 : Fin 2) (0 : Fin 1) k) := by
  unfold sumCnt
  rw [addf_apply, shapeCast_11a_a_apply, shapeCast_11a_a_apply]
  congr 1
  · exact extractStridedSlice_apply _ R1 _ _ _ fun a => by
      match a with
      | ⟨0, _⟩ => rfl
      | ⟨1, _⟩ => rfl
      | ⟨2, _⟩ => exact (Nat.zero_add _).symm
  · exact extractStridedSlice_apply _ R1 _ _ _ fun a => by
      match a with
      | ⟨0, _⟩ => rfl
      | ⟨1, _⟩ => rfl
      | ⟨2, _⟩ => exact (Nat.zero_add _).symm

/-- The centroids at `(k, d)`: the added table's entry over the added count of class `k` raised to at least `1.0`. -/
theorem centK_apply (R0 : Vec Ideal S2x2048x256 .f32) (R1 : Vec Ideal S2x1x2048 .f32) (k : Fin 2048) (d : Fin 256) :
    centK R0 R1 (ix2 k d)
      = FloatOps.hostDivf (F := Ideal) (φ := .f32) (sumTab R0 (ix2 k d)) (max (sumCnt R1 (ix1 k)) (Ideal.ofBits .f32 0x3F800000#32)) := by
  unfold centK
  show FloatOps.hostDivf (F := Ideal) (φ := .f32) (sumTab R0 (ix2 k d)) _ = _
  congr 1

/-- Class `k`'s entry of the row of existing classes. -/
theorem existsK_apply (R1 : Vec Ideal S2x1x2048 .f32) (u : Fin 1) (k : Fin 2048) :
    existsK R1 (ix2 u k)
      = FloatOps.uitofp (F := Ideal) .f32
          (FloatOps.cmpf (F := Ideal) (φ := .f32) .ogt (sumCnt R1 (ix1 k)) (Ideal.ofBits .f32 0x00000000#32)) := by
  unfold existsK
  refine (broadcastInDim_apply _ bcast_S2048_S1x2048_1 _ (ix2 u k) (ix1 k) fun a => by
    match a with
    | ⟨0, _⟩ => show k.val = if (2048 : Nat) = 1 then 0 else k.val; rw [if_neg (by decide)]).trans ?_
  rfl

/-! ## The kernel's pass value and the reference's pass bit -/

theorem passes_eq (x : EReal) : Acc.passes x = FloatOps.uitofp (F := Ideal) .f32 (Ref.bit x) :=
  Count.sitofp_setWidth_bit _

/-! ## The three tables -/

section
variable (P : Vec Ideal S16384x256 .f32) (L : Vec Ideal S16384x2048 .f32)

/-- The added tables of the first call's results are the sums over all the rows. -/
theorem sumTab_res0 (k : Fin 2048) (d : Fin 256) :
    sumTab (KVal.res0 P L) (ix2 k d)
      = ∑ b : Fin 16384, FloatOps.uitofp (F := Ideal) .f32 (Ref.bit (L (ix2 b k))) * P (ix2 b d) := by
  rw [sumTab_apply, Acc.res0_apply, Acc.res0_apply, Acc.tab_total]
  exact Finset.sum_congr rfl fun b _ => by rw [passes_eq]
theorem sumCnt_res1 (k : Fin 2048) :
    sumCnt (KVal.res1 L) (ix1 k) = ∑ b : Fin 16384, FloatOps.uitofp (F := Ideal) .f32 (Ref.bit (L (ix2 b k))) := by
  rw [sumCnt_apply, Acc.res1_apply, Acc.res1_apply, Acc.cnt_total]
  exact Finset.sum_congr rfl fun b _ => passes_eq _

/-- The kernel program's centroid table is the reference's, as arrays. -/
theorem centK_eq : centK (KVal.res0 P L) (KVal.res1 L) = Cert.ReferenceIdeal.Read.val_main_v14 (F := Ideal) P L := by
  funext i
  obtain ⟨k, d, rfl⟩ : ∃ (k : Fin 2048) (d : Fin 256), i = ix2 k d := ⟨i 0, i 1, eq_ix2 i⟩
  rw [centK_apply, sumTab_res0, sumCnt_res1]
  exact (Ref.v14_apply P L k d).symm
end

/-- THE CENTROID TABLE the second call reads is the reference's (its cast to the 16-bit format is the identity). -/
theorem cent_eq
    (h0 : outs 1 main_v0_0 c = KVal.res0 (m ((c : Thread nD τ).loc main_arg0)) (m ((c : Thread nD τ).loc main_arg1)))
    (h1 : outs 1 main_v0_1 c = KVal.res1 (m ((c : Thread nD τ).loc main_arg1))) (i : S2048x256.Idx) :
    (Gen.V2 m outs c (Proc.devRef .tc main_v28) : S2048x256.Idx → EReal) i
      = Cert.ReferenceIdeal.Read.val_main_v14 (F := Ideal) (m ((c : Thread nD τ).loc main_arg0)) (m ((c : Thread nD τ).loc main_arg1)) i := by
  rw [V2_v28, h0, h1, centK_eq]
  rfl

/-- THE NORMALISED TRANSPOSED TABLE the second call reads is the reference's. -/
theorem centT_eq
    (h0 : outs 1 main_v0_0 c = KVal.res0 (m ((c : Thread nD τ).loc main_arg0)) (m ((c : Thread nD τ).loc main_arg1)))
    (h1 : outs 1 main_v0_1 c = KVal.res1 (m ((c : Thread nD τ).loc main_arg1))) (i : S256x2048.Idx) :
    (Gen.V2 m outs c (Proc.devRef .tc main_v30) : S256x2048.Idx → EReal) i
      = Cert.ReferenceIdeal.Read.val_main_v38 (F := Ideal) (m ((c : Thread nD τ).loc main_arg0)) (m ((c : Thread nD τ).loc main_arg1)) i := by
  rw [V2_v30, h0, h1, centK_eq, Ref.v38_eq]
  rfl

/-- THE ROW OF EXISTING CLASSES the second call reads: at class `k`, the reference's "count positive" bit as `0.0` / `1.0`. -/
theorem exists_eq
    (h1 : outs 1 main_v0_1 c = KVal.res1 (m ((c : Thread nD τ).loc main_arg1))) (i : S1x2048.Idx) :
    (Gen.V2 m outs c (Proc.devRef .tc main_v19) : S1x2048.Idx → EReal) i
      = FloatOps.uitofp (F := Ideal) .f32
          (Cert.ReferenceIdeal.Read.val_main_v5 (F := Ideal) (m ((c : Thread nD τ).loc main_arg1)) (ix1 (⟨(i 1).val, (i 1).isLt⟩ : Fin 2048))) := by
  obtain ⟨u, k, rfl⟩ : ∃ (u : Fin 1) (k : Fin 2048), i = ix2 u k := ⟨i 0, i 1, eq_ix2 i⟩
  rw [V2_v19, h1, existsK_apply, sumCnt_res1, Ref.v5_apply]

end Cert.Bridge.Tables

end
-- ==== Proof.BridgeLoss.lean ====
import proofs.«402318_j62947040690217_3_alg».proof.Proof.KVal
import proofs.«402318_j62947040690217_3_alg».proof.Proof.Gen.KernelIdeal.Regions
import proofs.«402318_j62947040690217_3_alg».proof.Proof.Gen.ReferenceIdeal.Read
import proofs.«402318_j62947040690217_3_alg».proof.Proof.LibSums
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.EReal.Operations
import Mathlib.Algebra.BigOperators.Fin

/-! # The loss: the kernel program's final scalar is the reference's

Both programs end in the mean over the 16384 rows of a positive and a negative term per row. The kernel's second call
walks the rows in 32 tiles of 512, adds each tile's rows' terms into a one-entry accumulator that is reset at the first
of every sixteen tiles, leaves each half's total at one corner of its result and zero elsewhere; the host adds the
result's entries and divides by the row count. The reference forms the two terms for every row, averages each and adds.
Given that the three tables handed to the second call are the reference's, the two scalars are equal as extended reals:
per row the terms agree (the integer count of a row's weights is their floating sum, which cannot wrap; the two hinge
constants are complementary), a sum over the rows is the sum over the tiles of the sums over each tile's rows, and the
division by the positive row count distributes over the sum of the two totals. No entry need be finite. -/

noncomputable section

namespace Cert.Bridge.Loss

open Idealize.ShloMosaic Idealize.ShloMosaic.ValueIdx Cert.KernelIdeal Cert.KernelIdeal.Gen Cert.KernelIdeal.KVal
open Cert.ReferenceIdeal.Read

/-! ## Extended reals: the constants, the division by the row count, the count of a row's weights -/

/-- The word `0x3F800000` denotes one. -/
theorem ofBits_one : Ideal.ofBits .f32 0x3F800000#32 = ((1 : ℝ) : EReal) := by
  simp [Ideal.ofBits, Ideal.ieee]
  rw [← EReal.coe_mul, ← EReal.coe_one]
  congr 1
  norm_num

/-- The reference's margin word `0x3E99999A` denotes `10066330 / 2^25`. -/
theorem ofBits_c03 : Ideal.ofBits .f32 0x3E99999A#32 = ((10066330 / 2 ^ 25 : ℝ) : EReal) := by
  simp [Ideal.ofBits, Ideal.ieee]
  rw [← EReal.coe_mul]
  congr 1

/-- The kernel's threshold word `0x3F333333` denotes `11744051 / 2^24`, which is one minus the margin exactly. -/
theorem ofBits_c07 : Ideal.ofBits .f32 0x3F333333#32 = ((11744051 / 2 ^ 24 : ℝ) : EReal) := by
  simp [Ideal.ofBits, Ideal.ieee]
  rw [← EReal.coe_mul]
  congr 1

/-- The word `0x46800000` denotes the row count 16384. -/
theorem ofBits_n : Ideal.ofBits .f32 0x46800000#32 = ((16384 : ℝ) : EReal) := by
  simp [Ideal.ofBits, Ideal.ieee]
  rw [← EReal.coe_mul]
  congr 1
  norm_num

/-- The two hinge constants are complementary: the smaller one minus (one minus x) is x minus the larger one, on every
    extended real (at the two infinities both sides are that infinity). -/
theorem hinge_shift (x : EReal) :
    Ideal.ofBits .f32 0x3E99999A#32 - (Ideal.ofBits .f32 0x3F800000#32 - x) = x - Ideal.ofBits .f32 0x3F333333#32 := by
  rw [ofBits_c03, ofBits_c07, ofBits_one]
  induction x using EReal.rec with
  | bot => rfl
  | top => rfl
  | coe r =>
    rw [← EReal.coe_sub, ← EReal.coe_sub, ← EReal.coe_sub]
    congr 1
    norm_num
    ring

/-- Division by the row count distributes over a sum of two extended reals, whatever they are: it is multiplication by a
    nonnegative real. -/
theorem div_rows_add (a b : EReal) :
    Ideal.div (a + b) (Ideal.ofBits .f32 0x46800000#32) = Ideal.div a (Ideal.ofBits .f32 0x46800000#32) + Ideal.div b (Ideal.ofBits .f32 0x46800000#32) := by
  rw [ofBits_n, Ideal.div_coe (by norm_num), Ideal.div_coe (by norm_num), Ideal.div_coe (by norm_num)]
  exact EReal.right_distrib_of_nonneg_of_ne_top (EReal.coe_nonneg.mpr (by norm_num)) (EReal.coe_ne_top _) a b

/-- The coercion of a finite sum of reals is the sum of the coercions. -/
theorem coe_sum {ι : Type*} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- A wrapping 32-bit sum of fewer than 2^32 words, each zero or one, does not wrap: it is the number of ones. -/
theorem fold_addi_bits {ι : Type*} (s : Finset ι) (f : ι → BitVec 1) (hs : s.card < 2 ^ 32) :
    (s.fold IntOp.addi 0#32 (fun k => (f k).setWidth 32)).toNat = ∑ k ∈ s, (f k).toNat ∧ ∑ k ∈ s, (f k).toNat ≤ s.card := by
  induction s using Finset.cons_induction with
  | empty => exact ⟨rfl, le_refl _⟩
  | cons a s ha ih =>
    rw [Finset.card_cons] at hs
    obtain ⟨e, le⟩ := ih (by omega)
    have h1 : (f a).toNat < 2 := (f a).isLt
    rw [Finset.fold_cons, Finset.sum_cons, Finset.card_cons]
    refine ⟨?_, by omega⟩
    show ((f a).setWidth 32 + _).toNat = _
    rw [BitVec.toNat_add, e, BitVec.toNat_setWidth, Nat.mod_eq_of_lt (by omega : (f a).toNat < 2 ^ 32), Nat.mod_eq_of_lt (by omega)]

/-- The signed maximum with one of a small count, read as a real, is the real maximum with one. -/
theorem maxsi_one_real (S : BitVec 32) (hS : S.toNat < 2 ^ 31) :
    ((IntOp.maxsi S 1#32).toInt : ℝ) = max (S.toNat : ℝ) 1 := by
  have hSi : S.toInt = S.toNat := BitVec.toInt_eq_toNat_of_lt (by omega)
  unfold IntOp.maxsi
  by_cases h : (1#32).slt S = true
  · rw [if_pos h, hSi]
    rw [BitVec.slt_iff_toInt_lt, hSi] at h
    have : (1 : ℝ) ≤ (S.toNat : ℝ) := by
      have h' : (1 : ℤ) < (S.toNat : ℤ) := by simpa using h
      exact_mod_cast h'.le
    rw [max_eq_left this]; simp
  · rw [if_neg h]
    rw [BitVec.slt_iff_toInt_lt, hSi] at h
    have : (S.toNat : ℝ) ≤ 1 := by
      have h' : ¬ (1 : ℤ) < (S.toNat : ℤ) := by simpa using h
      exact_mod_cast (not_lt.mp h')
    rw [max_eq_right this]; simp

/-- Selecting a one-bit flag's float value by another bit is the float value of their conjunction. -/
theorem select_uitofp (c e : BitVec 1) :
    Scalar.select c (FloatOps.uitofp (F := Ideal) .f32 e) (Ideal.ofBits .f32 0x00000000#32)
      = FloatOps.uitofp (F := Ideal) .f32 (IntOp.andi c e) := by
  rw [Ideal.ofBits_zero_f32]
  rcases BitVec.eq_zero_or_eq_one c with rfl | rfl <;> rcases BitVec.eq_zero_or_eq_one e with rfl | rfl
  all_goals (show Scalar.select _ ((_ : ℝ) : EReal) 0 = ((_ : ℝ) : EReal); simp [Scalar.select, IntOp.andi])

/-- The number of ones among 2048 one-bit words, counted with 32-bit integers, floored at one and converted, is the
    floating sum of the words floored at one: the integer sum cannot wrap. -/
theorem count_as_float (w : Fin 2048 → BitVec 1) :
    FloatOps.sitofp (F := Ideal) .f32 (IntOp.maxsi ((Finset.univ : Finset (Fin 2048)).fold IntOp.addi 0#32 (fun k => (w k).setWidth 32)) 1#32)
      = max (∑ k : Fin 2048, FloatOps.uitofp (F := Ideal) .f32 (w k)) (Ideal.ofBits .f32 0x3F800000#32) := by
  obtain ⟨e, le⟩ := fold_addi_bits (Finset.univ : Finset (Fin 2048)) w (by simp)
  have hS : ((Finset.univ : Finset (Fin 2048)).fold IntOp.addi 0#32 (fun k => (w k).setWidth 32)).toNat < 2 ^ 31 := by
    rw [e]; simp at le; omega
  show (((IntOp.maxsi _ 1#32).toInt : ℝ) : EReal) = max (∑ k : Fin 2048, (((w k).toNat : ℝ) : EReal)) _
  rw [maxsi_one_real _ hS, ofBits_one, EReal.coe_strictMono.monotone.map_max, e, Nat.cast_sum, coe_sum]

/-! ## Layout operations and sums read at an entry -/

section Layout
variable {α : Type}

/-- A vector viewed as a column: entry `(p, 0)` of the `[a, 1]` view is entry `p`. -/
theorem shapeCast_col_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column broadcast along the rows' entries: entry `(p, c)` of the `[a, b]` broadcast is the column's entry `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of a rank-two array of extended reals, read at row `p`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

end Layout

/-! ## The per-row terms -/

/-- A row of 256 extended reals divided by the larger of its Euclidean norm and the small constant. -/
def nrm (x : Fin 256 → EReal) (d : Fin 256) : EReal :=
  Ideal.div (x d) (max (Ideal.sqrt (∑ k : Fin 256, x k * x k)) (Ideal.ofBits .f32 0x322BCC77#32))

/-- The labels of a row that are positive, the others replaced by zero. -/
def posPart (l : Fin 2048 → EReal) (k : Fin 2048) : EReal :=
  Scalar.select (Ideal.cmp .ogt (l k) (Ideal.ofBits .f32 0x00000000#32)) (l k) (Ideal.ofBits .f32 0x00000000#32)

/-- The dot product of the normalised prediction row with the normalised combination of centroids its positive labels
    select. -/
def rowDot (p : Fin 256 → EReal) (l : Fin 2048 → EReal) (Cm : Fin 2048 → Fin 256 → EReal) : EReal :=
  ∑ d : Fin 256, nrm p d * nrm (fun d' => ∑ k : Fin 2048, posPart l k * Cm k d') d

/-- The weight of class `k` in a row's negative term: the class's existence flag `e k` where the row's label is below the
    lower threshold, zero elsewhere. -/
def negMask (l e : Fin 2048 → EReal) (k : Fin 2048) : EReal :=
  Scalar.select (Ideal.cmp .olt (l k) (Ideal.ofBits .f32 0x3E4CCCCD#32)) (e k) (Ideal.ofBits .f32 0x00000000#32)

/-- A row's negative term from its cosines and its weights: the weighted sum of the hinged cosines over the larger of the
    total weight and one. -/
def negTerm (cosr nm : Fin 2048 → EReal) : EReal :=
  Ideal.div (∑ k : Fin 2048, max (cosr k - Ideal.ofBits .f32 0x3F333333#32) (Ideal.ofBits .f32 0x00000000#32) * nm k)
    (max (∑ k : Fin 2048, nm k) (Ideal.ofBits .f32 0x3F800000#32))

/-! ## The second call's payloads read at an entry -/

/-- The normalised tile: entry `(r, d)` is row `r` of the tile, normalised, at `d`. -/
theorem pay6_apply (v3 : Vec Ideal S512x256 .f32) (r : Fin 512) (d : Fin 256) :
    k1_pay6 v3 (ix2 r d) = nrm (fun k => v3 (ix2 r k)) d := by
  unfold k1_pay6 nrm
  show Ideal.div (v3 (ix2 r d)) (broadcastTo S512x256 _ broadcasts_S512x1_S512x256 (ix2 r d)) = _
  refine congrArg (Ideal.div _) ?_
  refine (broadcastTo_col_apply _ broadcasts_S512x1_S512x256 r d).trans ?_
  show max (Ideal.sqrt (shapeCast S512x1 _ shapeCasts_S512_S512x1 (ix2 r (0 : Fin 1)))) _ = _
  refine congrArg (fun z => max (Ideal.sqrt z) _) ?_
  refine (shapeCast_col_apply _ shapeCasts_S512_S512x1 r 0).trans ?_
  exact rowSum_apply _ reduces_S512x256_S512 (.inl rfl) rfl r

/-! ## The two products of the second call, read at an entry -/

/-- The operand indices of the 512x2048 by 2048x256 product, axis by axis: the left operand is read at (row, class), the
    right one at (class, feature). -/
theorem lhs_cmb_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_cmb_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_cmb_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_cmb_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The product of a 512x2048 tile with a 2048x256 table into a zero accumulator: entry `(r, d)` is the sum over the 2048
    classes of the tile's row `r` times the table's column `d`. -/
theorem matmul_cmb_apply (l : FVec Ideal S512x2048 .bf16) (t : FVec Ideal S2048x256 .bf16) (r : Fin 512) (d : Fin 256) :
    matmul dot_S512x2048_S2048x256_S512x256_1_0_0_1_n_n none l t (constant (F := Ideal) S512x256 .f32 0x00000000#32) (ix2 r d)
      = ∑ k : Fin 2048, l (ix2 r k) * t (ix2 k d) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r d) ((contrEquiv1 dot_S512x2048_S2048x256_S512x256_1_0_0_1_n_n 2048 rfl rfl).symm k) = ix2 r k := funext fun a => Fin.ext (by
    match a with
    | ⟨0, _⟩ => exact lhs_cmb_0 _ _
    | ⟨1, _⟩ => exact (lhs_cmb_1 _ _).trans hk)
  have er : dot_S512x2048_S2048x256_S512x256_1_0_0_1_n_n.rhsIdx (ix2 r d) ((contrEquiv1 dot_S512x2048_S2048x256_S512x256_1_0_0_1_n_n 2048 rfl rfl).symm k) = ix2 k d := funext fun a => Fin.ext (by
    match a with
    | ⟨0, _⟩ => exact (rhs_cmb_0 _ _).trans hk
    | ⟨1, _⟩ => exact rhs_cmb_1 _ _)
  rw [el, er]

/-- The operand indices of the 512x256 by 256x2048 product, axis by axis: the left operand is read at (row, feature), the
    right one at (feature, class). -/
theorem lhs_cos_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_cos_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_cos_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_cos_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The product of a 512x256 tile with a 256x2048 table into a zero accumulator: entry `(r, k)` is the sum over the 256
    features of the tile's row `r` times the table's column `k`. -/
theorem matmul_cos_apply (l : FVec Ideal S512x256 .bf16) (t : FVec Ideal S256x2048 .bf16) (r : Fin 512) (k : Fin 2048) :
    matmul dot_S512x256_S256x2048_S512x2048_1_0_0_1_n_n none l t (constant (F := Ideal) S512x2048 .f32 0x00000000#32) (ix2 r k)
      = ∑ d : Fin 256, l (ix2 r d) * t (ix2 d k) := by
  simp only [matmul]
  rw [Ideal.matmul_constant_zero_apply, ← Equiv.sum_comp (contrEquiv1 dot_S512x256_S256x2048_S512x2048_1_0_0_1_n_n 256 rfl rfl).symm]
  refine Finset.sum_congr rfl fun d _ => ?_
  have hk := contrEquiv1_symm_val dot_S512x256_S256x2048_S512x2048_1_0_0_1_n_n 256 rfl rfl d
  have el : dot_S512x256_S256x2048_S512x2048_1_0_0_1_n_n.lhsIdx (ix2 r k) ((contrEquiv1 dot_S512x256_S256x2048_S512x2048_1_0_0_1_n_n 256 rfl rfl).symm d) = ix2 r d := funext fun a => Fin.ext (by
    match a with
    | ⟨0, _⟩ => exact lhs_cos_0 _ _
    | ⟨1, _⟩ => exact (lhs_cos_1 _ _).trans hk)
  have er : dot_S512x256_S256x2048_S512x2048_1_0_0_1_n_n.rhsIdx (ix2 r k) ((contrEquiv1 dot_S512x256_S256x2048_S512x2048_1_0_0_1_n_n 256 rfl rfl).symm d) = ix2 d k := funext fun a => Fin.ext (by
    match a with
    | ⟨0, _⟩ => exact (rhs_cos_0 _ _).trans hk
    | ⟨1, _⟩ => exact rhs_cos_1 _ _)
  rw [el, er]

/-- The column of row dot products: entry `(r, 0)` is the dot product of row `r`'s normalised prediction with the normalised
    combination of the table's rows that row `r`'s positive labels select. -/
theorem pay8_apply (v3 : Vec Ideal S512x256 .f32) (v4 : Vec Ideal S512x2048 .f32) (v5 : Vec Ideal S2048x256 .bf16) (r : Fin 512) (u : Fin 1) :
    k1_pay8 v3 v4 v5 (ix2 r u) = rowDot (fun d => v3 (ix2 r d)) (fun k => v4 (ix2 r k)) (fun k d => v5 (ix2 k d)) := by
  unfold k1_pay8 rowDot
  refine (shapeCast_col_apply _ shapeCasts_S512_S512x1 r u).trans ?_
  refine (rowSum_apply _ reduces_S512x256_S512 (.inl rfl) rfl r).trans ?_
  refine Finset.sum_congr rfl fun d _ => ?_
  show k1_pay6 v3 (ix2 r d) * Ideal.div _ (broadcastTo S512x256 _ broadcasts_S512x1_S512x256 (ix2 r d)) = _
  rw [pay6_apply]
  refine congrArg (nrm (fun k => v3 (ix2 r k)) d * ·) ?_
  have hcmb : ∀ d' : Fin 256,
      matmul dot_S512x2048_S2048x256_S512x256_1_0_0_1_n_n none
        (truncf .bf16 (select (cmpf .ogt v4 (broadcast S512x2048 (Scalar.ofBits (F := Ideal) .f32 0x00000000#32))) v4
          (broadcast S512x2048 (Scalar.ofBits (F := Ideal) .f32 0x00000000#32))) bitsLt_bf16_f32 : FVec Ideal S512x2048 .bf16)
        (shapeCast S2048x256 v5 shapeCasts_S2048x256_S2048x256) (constant (F := Ideal) S512x256 .f32 0x00000000#32) (ix2 r d')
        = ∑ k : Fin 2048, posPart (fun k => v4 (ix2 r k)) k * v5 (ix2 k d') := fun d' => by
    rw [matmul_cmb_apply, shapeCast_self]
    rfl
  unfold nrm
  refine congrArg₂ Ideal.div (hcmb d) ?_
  refine (broadcastTo_col_apply _ broadcasts_S512x1_S512x256 r d).trans ?_
  show max (Ideal.sqrt (shapeCast S512x1 _ shapeCasts_S512_S512x1 (ix2 r (0 : Fin 1)))) _ = _
  refine congrArg (fun z => max (Ideal.sqrt z) _) ?_
  refine (shapeCast_col_apply _ shapeCasts_S512_S512x1 r 0).trans ?_
  refine (rowSum_apply _ reduces_S512x256_S512 (.inl rfl) rfl r).trans ?_
  refine Finset.sum_congr rfl fun k _ => ?_
  exact congrArg₂ (· * ·) (hcmb k) (hcmb k)

/-- The sum along the first axis of a rank-two array of extended reals, read at column `c`. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ r : Fin a, src (ix2 r c) := by
  refine (Ideal.multiReduction_add_single src 0x00000000#32 h hφ hacc (ix1 c)).trans ?_
  refine Finset.sum_congr rfl fun k _ => congrArg src (funext fun ax => Fin.ext ?_)
  match ax with
  | ⟨0, _⟩ => rfl
  | ⟨1, _⟩ => rfl

/-- One tile's step on the one-entry accumulator: the old value plus the sum over the tile's 512 rows of one minus the row's
    dot product, plus the sum over the rows of the row's negative term (cosines against the 256x2048 table, weights from
    the row's labels and the existence flags). -/
theorem pay1_apply (v4 : Vec Ideal S512x2048 .f32) (v8 : FVec Ideal S256x2048 .bf16) (v10 : FVec Ideal S1x2048 .f32)
    (v19 : FVec Ideal S512x256 .bf16) (v36 : FVec Ideal S512x1 .f32) (v63 : Vec Ideal S1x1 .f32) :
    k1_pay1 v4 v8 v10 v19 v36 v63 (ix2 (0 : Fin 1) (0 : Fin 1))
      = v63 (ix2 (0 : Fin 1) (0 : Fin 1)) + ((∑ r : Fin 512, (Ideal.ofBits .f32 0x3F800000#32 - v36 (ix2 r (0 : Fin 1))))
          + ∑ r : Fin 512, negTerm (fun k => ∑ d : Fin 256, v19 (ix2 r d) * v8 (ix2 d k))
              (negMask (fun k => v4 (ix2 r k)) (fun k => v10 (ix2 (0 : Fin 1) k)))) := by
  unfold k1_pay1
  rw [shapeCast_self]
  show v63 (ix2 0 0) + (shapeCast S1x1 _ shapeCasts_S1_S1x1 (ix2 0 0) + shapeCast S1x1 _ shapeCasts_S1_S1x1 (ix2 0 0)) = _
  refine congrArg (v63 (ix2 0 0) + ·) (congrArg₂ (· + ·) ?_ ?_)
  · refine (shapeCast_col_apply _ shapeCasts_S1_S1x1 0 0).trans ?_
    exact colSum_apply _ reduces_S512x1_S1 (.inl rfl) rfl 0
  · refine (shapeCast_col_apply _ shapeCasts_S1_S1x1 0 0).trans ?_
    refine (colSum_apply _ reduces_S512x1_S1 (.inl rfl) rfl 0).trans ?_
    refine Finset.sum_congr rfl fun r _ => ?_
    have hnm : ∀ k : Fin 2048,
        select (cmpf .olt v4 (broadcast S512x2048 (Scalar.ofBits (F := Ideal) .f32 0x3E4CCCCD#32)))
          (broadcastTo S512x2048 (shapeCast S1x2048 v10 shapeCasts_S1x2048_S1x2048) broadcasts_S1x2048_S512x2048)
          (broadcast S512x2048 (Scalar.ofBits (F := Ideal) .f32 0x00000000#32)) (ix2 r k)
        = negMask (fun k => v4 (ix2 r k)) (fun k => v10 (ix2 (0 : Fin 1) k)) k := fun k => by
      rw [select_apply, broadcastTo_1b_ab_apply, shapeCast_self]
      rfl
    unfold negTerm
    refine congrArg₂ Ideal.div ?_ ?_
    · refine (shapeCast_col_apply _ shapeCasts_S512_S512x1 r 0).trans ?_
      refine (rowSum_apply _ reduces_S512x2048_S512 (.inl rfl) rfl r).trans ?_
      refine Finset.sum_congr rfl fun k _ => ?_
      refine congrArg₂ (· * ·) ?_ (hnm k)
      refine congrArg (fun z => max (z - Ideal.ofBits .f32 0x3F333333#32) (Ideal.ofBits .f32 0x00000000#32)) ?_
      exact matmul_cos_apply v19 v8 r k
    · refine congrArg (fun z => max z (Ideal.ofBits .f32 0x3F800000#32)) ?_
      refine (shapeCast_col_apply _ shapeCasts_S512_S512x1 r 0).trans ?_
      refine (rowSum_apply _ reduces_S512x2048_S512 (.inl rfl) rfl r).trans ?_
      exact Finset.sum_congr rfl fun k _ => hnm k

/-! ## The reference's rows -/

variable (P : Vec Ideal S16384x256 .f32) (L : Vec Ideal S16384x2048 .f32)

/-- Row `b` of the predictions. -/
def rowP (b : Fin 16384) : Fin 256 → EReal := fun d => P (ix2 b d)
/-- Row `b` of the labels. -/
def rowL (b : Fin 16384) : Fin 2048 → EReal := fun k => L (ix2 b k)

/-- The reference's normalised predictions at `(b, d)`: row `b` normalised (its sum of squares starts from zero). -/
theorem ref_v19 (b : Fin 16384) (d : Fin 256) : val_main_v19 (F := Ideal) P (ix2 b d) = nrm (rowP P b) d := by
  have hidx : ∀ k : Fin 256, idx_main_call0_v1 (idx_main_call0_v2 (idx_main_v18 (ix2 b d))) k = ix2 b k := fun k =>
    funext fun a => Fin.ext (by match a with | ⟨0, _⟩ => rfl | ⟨1, _⟩ => rfl)
  rw [val_main_v19_apply, val_main_v18_apply, val_main_v17_apply, val_main_v16_apply, val_main_cst_2_apply, val_main_v15_apply,
    val_main_call0_v2_apply, val_main_call0_v1_apply, val_main_call0_cst_apply]
  simp only [val_main_call0_v0_apply, hidx, Ideal.ofBits_def, Ideal.ofBits_zero_f32, zero_add]
  rfl

/-- The reference's combination of centroids at `(b, d)`: the positive labels of row `b` against column `d` of its centroid
    table. -/
theorem ref_v23 (b : Fin 16384) (d : Fin 256) :
    val_main_v23 (F := Ideal) P L (ix2 b d) = ∑ k : Fin 2048, posPart (rowL L b) k * val_main_v14 (F := Ideal) P L (ix2 k d) := by
  have hl : ∀ k : Fin 2048, lidx_main_v23 (ix2 b d) k = ix2 b k := fun k =>
    funext fun a => Fin.ext (by match a with | ⟨0, _⟩ => rfl | ⟨1, _⟩ => rfl)
  have hr : ∀ k : Fin 2048, ridx_main_v23 (ix2 b d) k = ix2 k d := fun k =>
    funext fun a => Fin.ext (by match a with | ⟨0, _⟩ => rfl | ⟨1, _⟩ => rfl)
  rw [val_main_v23_apply]
  refine Finset.sum_congr rfl fun k _ => ?_
  rw [hl, hr, val_main_v22_apply, val_main_v21_apply, val_main_v20_apply, val_main_cst_3_apply, val_main_call1_v1_apply,
    val_main_call1_v0_apply, val_main_cst_4_apply]
  rfl

/-- … and its normalisation. -/
theorem ref_v28 (b : Fin 16384) (d : Fin 256) :
    val_main_v28 (F := Ideal) P L (ix2 b d)
      = nrm (fun d' => ∑ k : Fin 2048, posPart (rowL L b) k * val_main_v14 (F := Ideal) P L (ix2 k d')) d := by
  have hidx : ∀ k : Fin 256, idx_main_call2_v1 (idx_main_call2_v2 (idx_main_v27 (ix2 b d))) k = ix2 b k := fun k =>
    funext fun a => Fin.ext (by match a with | ⟨0, _⟩ => rfl | ⟨1, _⟩ => rfl)
  rw [val_main_v28_apply, val_main_v27_apply, val_main_v26_apply, val_main_v25_apply, val_main_cst_5_apply, val_main_v24_apply,
    val_main_call2_v2_apply, val_main_call2_v1_apply, val_main_call2_cst_apply]
  simp only [val_main_call2_v0_apply, hidx, ref_v23, Ideal.ofBits_def, Ideal.ofBits_zero_f32, zero_add]
  rfl

/-- The reference's positive term of row `b`. -/
theorem ref_v32 (b : Fin 16384) :
    val_main_v32 (F := Ideal) P L (ix1 b)
      = Ideal.ofBits .f32 0x3F800000#32 - rowDot (rowP P b) (rowL L b) (fun k d => val_main_v14 (F := Ideal) P L (ix2 k d)) := by
  have hidx : ∀ k : Fin 256, idx_main_v30 (ix1 b) k = ix2 b k := fun k =>
    funext fun a => Fin.ext (by match a with | ⟨0, _⟩ => rfl | ⟨1, _⟩ => rfl)
  rw [val_main_v32_apply, val_main_v31_apply, val_main_cst_7_apply, val_main_v30_apply, val_main_cst_6_apply]
  simp only [val_main_v29_apply, hidx, ref_v19, ref_v28, Ideal.ofBits_def, Ideal.ofBits_zero_f32, zero_add]
  rfl

/-- The reference's cosine of row `b` to class `k`. -/
theorem ref_v39 (b : Fin 16384) (k : Fin 2048) :
    val_main_v39 (F := Ideal) P L (ix2 b k) = ∑ d : Fin 256, nrm (rowP P b) d * val_main_v38 (F := Ideal) P L (ix2 d k) := by
  have hl : ∀ d : Fin 256, lidx_main_v39 (ix2 b k) d = ix2 b d := fun d =>
    funext fun a => Fin.ext (by match a with | ⟨0, _⟩ => rfl | ⟨1, _⟩ => rfl)
  have hr : ∀ d : Fin 256, ridx_main_v39 (ix2 b k) d = ix2 d k := fun d =>
    funext fun a => Fin.ext (by match a with | ⟨0, _⟩ => rfl | ⟨1, _⟩ => rfl)
  rw [val_main_v39_apply]
  refine Finset.sum_congr rfl fun d _ => ?_
  rw [hl, hr, ref_v19]

/-- The reference's weight bit of class `k` in row `b`: the label is below the lower threshold and the class exists. -/
theorem ref_v44 (b : Fin 16384) (k : Fin 2048) :
    val_main_v44 (F := Ideal) L (ix2 b k)
      = IntOp.andi (Ideal.cmp .olt (L (ix2 b k)) (Ideal.ofBits .f32 0x3E4CCCCD#32)) (val_main_v5 (F := Ideal) L (ix1 k)) := by
  have hidx : idx_main_v42 (idx_main_v43 (ix2 b k)) = ix1 k :=
    funext fun a => Fin.ext (by match a with | ⟨0, _⟩ => rfl)
  rw [val_main_v44_apply, val_main_v41_apply, val_main_v40_apply, val_main_cst_9_apply, val_main_v43_apply, val_main_v42_apply, hidx]
  rfl

/-- The reference's integer count of row `b`'s weight bits: a fold of 32-bit additions over the 2048 classes, in any order. -/
theorem ref_v52 (b : Fin 16384) :
    val_main_v52 (F := Ideal) L (ix1 b)
      = (Finset.univ : Finset (Fin 2048)).fold IntOp.addi 0#32 (fun k => (val_main_v44 (F := Ideal) L (ix2 b k)).setWidth 32) := by
  unfold val_main_v52
  refine (Host.reduce_eq_fold_single IntOp.addi _ _ Cert.ReferenceIdeal.Facts₀.reducesTo_S16384x2048_S16384_d1
    (by decide : Cert.ReferenceIdeal.S16384x2048.Reduces [1] Cert.ReferenceIdeal.S16384) Cert.ReferenceIdeal.Facts₀.h_S_ (ix1 b)).trans ?_
  refine congrArg (Finset.fold IntOp.addi _ · _) (funext fun k => ?_)
  show val_main_v51 (F := Ideal) L _ = _
  rw [val_main_v51_apply]
  exact congrArg (fun i => (val_main_v44 (F := Ideal) L i).setWidth 32)
    (funext fun a => Fin.ext (by match a with | ⟨0, _⟩ => rfl | ⟨1, _⟩ => rfl))

/-- … floored at one and converted: the floating sum of the weight bits, floored at one. -/
theorem ref_v55 (b : Fin 16384) :
    val_main_v55 (F := Ideal) L (ix1 b)
      = max (∑ k : Fin 2048, FloatOps.uitofp (F := Ideal) .f32 (val_main_v44 (F := Ideal) L (ix2 b k))) (Ideal.ofBits .f32 0x3F800000#32) := by
  rw [val_main_v55_apply, val_main_v54_apply, val_main_v53_apply, val_main_c_14_apply, ref_v52]
  exact count_as_float _

/-- The reference's negative term of row `b`: its hinge `max(margin − (1 − cos), 0)` is `max(cos − threshold, 0)`, its
    weights are the flags selected by the label test, its denominator the floored count. -/
theorem ref_v59 (b : Fin 16384) :
    val_main_v59 (F := Ideal) P L (ix1 b)
      = negTerm (fun k => ∑ d : Fin 256, nrm (rowP P b) d * val_main_v38 (F := Ideal) P L (ix2 d k))
          (negMask (rowL L b) (fun k => FloatOps.uitofp (F := Ideal) .f32 (val_main_v5 (F := Ideal) L (ix1 k)))) := by
  have hnm : ∀ k : Fin 2048, negMask (rowL L b) (fun k => FloatOps.uitofp (F := Ideal) .f32 (val_main_v5 (F := Ideal) L (ix1 k))) k
      = FloatOps.uitofp (F := Ideal) .f32 (val_main_v44 (F := Ideal) L (ix2 b k)) := fun k => by
    unfold negMask rowL
    rw [select_uitofp, ref_v44]
  have hidx : ∀ k : Fin 2048, idx_main_v58 (ix1 b) k = ix2 b k := fun k =>
    funext fun a => Fin.ext (by match a with | ⟨0, _⟩ => rfl | ⟨1, _⟩ => rfl)
  rw [val_main_v59_apply, ref_v55, val_main_v58_apply, val_main_cst_15_apply]
  unfold negTerm
  simp only [hnm]
  refine congrArg₂ Ideal.div ?_ rfl
  rw [Ideal.ofBits_def, Ideal.ofBits_zero_f32, zero_add]
  refine Finset.sum_congr rfl fun k _ => ?_
  rw [hidx, val_main_v57_apply, val_main_v56_apply, val_main_v50_apply, val_main_v49_apply, val_main_cst_12_apply, val_main_v48_apply,
    val_main_v47_apply, val_main_cst_11_apply, val_main_v46_apply, val_main_v45_apply, val_main_cst_10_apply, ref_v39]
  simp only [Ideal.ofBits_def, Ideal.subf_def, Ideal.maximumf_def, Ideal.mulf_def, hinge_shift, Ideal.ofBits_zero_f32]

/-! ## The kernel's accumulator after each tile -/

variable (C : Vec Ideal S2048x256 .bf16) (T : Vec Ideal S256x2048 .bf16) (E : Vec Ideal S1x2048 .f32)

/-- The array row that row `r` of the second call's tile `t` is. -/
def tileRow (t : ℕ) (r : Fin 512) : Fin 16384 := ⟨(512 * t + r.val) % 16384, Nat.mod_lt _ (by decide)⟩

/-- A row's positive term: one minus the dot product of the normalised prediction with the normalised combination of
    centroids. -/
def posRow (b : Fin 16384) : EReal :=
  Ideal.ofBits .f32 0x3F800000#32 - rowDot (rowP P b) (rowL L b) (fun k d => C (ix2 k d))

/-- A row's negative term: the hinged cosines to the existing classes the row's labels rule out, averaged. -/
def negRow (b : Fin 16384) : EReal :=
  negTerm (fun k => ∑ d : Fin 256, nrm (rowP P b) d * T (ix2 d k)) (negMask (rowL L b) (fun k => E (ix2 (0 : Fin 1) k)))

/-- What tile `t` adds to the accumulator: its rows' positive terms plus its rows' negative terms. -/
def tileSum (t : ℕ) : EReal :=
  (∑ r : Fin 512, posRow P L C (tileRow t r)) + ∑ r : Fin 512, negRow P L T E (tileRow t r)

/-- One tile's step, in the array's rows: the accumulator grows by the tile's sum. -/
theorem tile_step (t : ℕ) (prev : Vec Ideal S1x1 .f32) :
    k1_pay1 (labTile2 L t) (k1_pay4 T) (k1_pay5 E) (k1_pay7 (predTile2 P t)) (k1_pay8 (predTile2 P t) (labTile2 L t) C) prev
        (ix2 (0 : Fin 1) (0 : Fin 1))
      = prev (ix2 (0 : Fin 1) (0 : Fin 1)) + tileSum P L C T E t := by
  rw [pay1_apply]
  unfold tileSum
  refine congrArg (prev (ix2 0 0) + ·) (congrArg₂ (· + ·) ?_ ?_)
  · refine Finset.sum_congr rfl fun r _ => ?_
    rw [pay8_apply]
    rfl
  · refine Finset.sum_congr rfl fun r _ => ?_
    unfold negRow
    refine congrArg₂ negTerm (funext fun k => Finset.sum_congr rfl fun d _ => ?_) ?_
    · refine congrArg₂ (· * ·) ?_ ?_
      · show k1_pay6 (predTile2 P t) (ix2 r d) = _
        rw [pay6_apply]
        rfl
      · unfold k1_pay4
        rw [shapeCast_self]
    · unfold k1_pay5
      rw [shapeCast_self]
      rfl

/-- The reset value of the accumulator is zero. -/
theorem pay3_apply : (k1_pay3 (F := Ideal)) (ix2 (0 : Fin 1) (0 : Fin 1)) = 0 := by
  unfold k1_pay3
  rw [shapeCast_self]
  exact Ideal.ofBits_zero_f32

/-- After the first tile the accumulator holds that tile's sum. -/
theorem lossAt_zero : lossAt P L C T E 0 (ix2 (0 : Fin 1) (0 : Fin 1)) = tileSum P L C T E 0 := by
  rw [lossAt, tile_step, pay3_apply, zero_add]

/-- After a later tile: that tile's sum, added to zero at the first tile of a half and to the previous value otherwise. -/
theorem lossAt_succ (n : ℕ) :
    lossAt P L C T E (n + 1) (ix2 (0 : Fin 1) (0 : Fin 1))
      = (if (n + 1) % 16 = 0 then 0 else lossAt P L C T E n (ix2 (0 : Fin 1) (0 : Fin 1))) + tileSum P L C T E (n + 1) := by
  rw [lossAt, tile_step]
  by_cases h : (n + 1) % 16 = 0
  · rw [if_pos h, if_pos h, pay3_apply]
  · rw [if_neg h, if_neg h]

/-- After tile `j` of half `c'` the accumulator holds the sum of what the half's tiles up to `j` added. -/
theorem lossAt_closed (c' j : ℕ) (hj : j < 16) :
    lossAt P L C T E (16 * c' + j) (ix2 (0 : Fin 1) (0 : Fin 1)) = ∑ j' ∈ Finset.range (j + 1), tileSum P L C T E (16 * c' + j') := by
  induction j with
  | zero =>
    rw [Finset.sum_range_one]
    cases c' with
    | zero => exact lossAt_zero P L C T E
    | succ m =>
      have e : 16 * (m + 1) + 0 = (16 * m + 15) + 1 := by omega
      rw [e, lossAt_succ, if_pos (by omega), zero_add]
  | succ j ih =>
    have e : 16 * c' + (j + 1) = (16 * c' + j) + 1 := by omega
    rw [Finset.sum_range_succ, ← ih (by omega), e, lossAt_succ, if_neg (by omega)]

/-! ## The second call's result and the host's last operations -/

/-- A small natural number, as a 32-bit word, equals the zero word exactly when it is zero. -/
theorem cmpi_eq_zero (n : ℕ) (hn : n < 2 ^ 32) : IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro e
      have := congrArg BitVec.toNat e
      rw [BitVec.toNat_ofNat, Nat.mod_eq_of_lt hn] at this
      exact h this
    show BitVec.ofBool (BitVec.ofNat 32 n == 0#32) = 0#1
    rw [hne]
    rfl

/-- The stored 8x128 slab: the accumulator at entry (0, 0), zero elsewhere. -/
theorem pay2_apply (v71 : Vec Ideal S1x1 .f32) (a : Fin 8) (b : Fin 128) :
    k1_pay2 v71 (ix2 a b) = if a.val = 0 ∧ b.val = 0 then v71 (ix2 (0 : Fin 1) (0 : Fin 1)) else 0 := by
  unfold k1_pay2
  rw [select_apply]
  have hb : broadcastTo S8x128 (shapeCast S1x1 v71 shapeCasts_S1x1_S1x1) broadcasts_S1x1_S8x128 (ix2 a b) = v71 (ix2 (0 : Fin 1) (0 : Fin 1)) := by
    rw [shapeCast_self]
    exact broadcastTo_apply v71 broadcasts_S1x1_S8x128 (ix2 a b) (ix2 (0 : Fin 1) (0 : Fin 1)) fun ax => by
      match ax with
      | ⟨0, _⟩ => rfl
      | ⟨1, _⟩ => rfl
  have hc : andi (cmpi .eq (iota .tc S8x128 32 [0] iota_S8x128_d0_w32) (broadcast S8x128 0#32))
        (cmpi .eq (iota .tc S8x128 32 [1] iota_S8x128_d1_w32) (broadcast S8x128 0#32)) (ix2 a b)
      = IntOp.andi (if a.val = 0 then 1#1 else 0#1) (if b.val = 0 then 1#1 else 0#1) := by
    show IntOp.andi (IntOp.cmpi .eq (iota .tc S8x128 32 [0] iota_S8x128_d0_w32 (ix2 a b)) 0#32)
      (IntOp.cmpi .eq (iota .tc S8x128 32 [1] iota_S8x128_d1_w32 (ix2 a b)) 0#32) = _
    rw [iota_single_apply, iota_single_apply]
    exact congrArg₂ IntOp.andi (cmpi_eq_zero a.val (by have := a.isLt; omega)) (cmpi_eq_zero b.val (by have := b.isLt; omega))
  rw [hc, hb]
  show Scalar.select _ _ (Ideal.ofBits .f32 0x00000000#32) = _
  rw [Ideal.ofBits_zero_f32]
  by_cases ha : a.val = 0 <;> by_cases hb' : b.val = 0
  · rw [if_pos ha, if_pos hb', if_pos ⟨ha, hb'⟩]; rfl
  · rw [if_pos ha, if_neg hb', if_neg (fun h => hb' h.2)]; rfl
  · rw [if_neg ha, if_pos hb', if_neg (fun h => ha h.1)]; rfl
  · rw [if_neg ha, if_neg hb', if_neg (fun h => ha h.1)]; rfl

/-- The second call's 16x128 result: half `a / 8`'s final accumulator at `(8 (a / 8), 0)`, zero elsewhere. -/
theorem res31_apply (a : Fin 16) (b : Fin 128) :
    res31 P L C T E (ix2 a b)
      = if a.val % 8 = 0 ∧ b.val = 0 then lossAt P L C T E (16 * (a.val / 8) + 15) (ix2 (0 : Fin 1) (0 : Fin 1)) else 0 := by
  unfold res31
  exact pay2_apply _ _ _

/-- A sum over a rectangle of a value placed at its corner and zero elsewhere is the value. -/
theorem sum_corner {n m : ℕ} (hn : 0 < n) (hm : 0 < m) (x : EReal) :
    ∑ a : Fin n, ∑ b : Fin m, (if a.val = 0 ∧ b.val = 0 then x else 0) = x := by
  rw [Finset.sum_eq_single (⟨0, hn⟩ : Fin n), Finset.sum_eq_single (⟨0, hm⟩ : Fin m)]
  · simp
  · intro b _ hb
    rw [if_neg]
    rintro ⟨_, h⟩
    exact hb (Fin.ext h)
  · intro h
    exact absurd (Finset.mem_univ _) h
  · intro a _ ha
    refine Finset.sum_eq_zero fun b _ => if_neg ?_
    rintro ⟨h, _⟩
    exact ha (Fin.ext h)
  · intro h
    exact absurd (Finset.mem_univ _) h

/-- The entries of the second call's result add up to the two halves' accumulators after their last tiles. -/
theorem res31_sum :
    ∑ i : S16x128.Idx, res31 P L C T E i
      = lossAt P L C T E 15 (ix2 (0 : Fin 1) (0 : Fin 1)) + lossAt P L C T E 31 (ix2 (0 : Fin 1) (0 : Fin 1)) := by
  have h : ∀ p : Fin 2, ∑ q : Fin 8, ∑ b : Fin 128,
      res31 P L C T E (ix2 (⟨8 * p.val + q.val, Cert.LibSums.tile_row_lt (a := 2) (b := 8) (N := 16) rfl p q⟩ : Fin 16) b)
        = lossAt P L C T E (16 * p.val + 15) (ix2 (0 : Fin 1) (0 : Fin 1)) := fun p => by
    have e : ∀ (q : Fin 8) (b : Fin 128),
        res31 P L C T E (ix2 (⟨8 * p.val + q.val, Cert.LibSums.tile_row_lt (a := 2) (b := 8) (N := 16) rfl p q⟩ : Fin 16) b)
          = if q.val = 0 ∧ b.val = 0 then lossAt P L C T E (16 * p.val + 15) (ix2 (0 : Fin 1) (0 : Fin 1)) else 0 := fun q b => by
      rw [res31_apply]
      have h1 : (8 * p.val + q.val) % 8 = q.val := by have := q.isLt; omega
      have h2 : (8 * p.val + q.val) / 8 = p.val := by have := q.isLt; omega
      show (if (8 * p.val + q.val) % 8 = 0 ∧ _ then lossAt P L C T E (16 * ((8 * p.val + q.val) / 8) + 15) _ else _) = _
      rw [h1, h2]
    simp only [e]
    exact sum_corner (by decide) (by decide) _
  rw [sum_idx2, Cert.LibSums.sum_tiles 2 8 16 rfl, Fin.sum_univ_two, h, h]
  rfl

variable (m : (ℓ : Loc Cert.KernelIdeal.nD Cert.KernelIdeal.τ Cert.KernelIdeal.sig) → Buf (Elt Ideal) ℓ)
  (outs : Cert.KernelIdeal.Gen.Outs (F := Ideal)) (c : Dev Cert.KernelIdeal.nD)

/-- The host's last operations: the sum of the result's entries from zero, divided by the row count. -/
theorem host_tail (R : Vec Ideal S16x128 .f32) (h31 : outs 3 main_v31 c = R) :
    (Gen.V4 m outs c (Proc.devRef .tc main_v33) : S_.Idx → EReal)
      = fun i => Ideal.div (Ideal.ofBits .f32 0x00000000#32 + ∑ j : S16x128.Idx, R j) (Ideal.ofBits .f32 0x46800000#32) := by
  show StableHlo.after hostOps2 (V3 m outs c) (Proc.devRef .tc main_v33) = _
  after_results
  have e : V3 m outs c (Proc.devRef .tc main_v31) = R := by
    simp only [V3, Function.update_self]
    exact h31
  rw [e]
  funext i
  show Ideal.div (Host.reduceAdd (F := Ideal) R (constant (F := Ideal) S_ .f32 0x00000000#32) reducesTo_S16x128_S_d0_1 h_S_ i) _ = _
  simp only [Host.reduceAdd, Ideal.hostReduceAdd_def]
  rw [Ideal.hostReduceAdd_total reducesTo_S16x128_S_d0_1 (fun b => b.elim0)]
  rfl

/-! ## The two scalars -/

/-- A sum over a rank-one index set is the sum over its coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- A tile's sum, row by row. -/
theorem tileSum_eq (t : ℕ) :
    tileSum P L C T E t = ∑ r : Fin 512, (posRow P L C (tileRow t r) + negRow P L T E (tileRow t r)) :=
  Finset.sum_add_distrib.symm

/-- The two halves' accumulators after their last tiles add up to the sum over all rows of the positive terms plus the
    sum over all rows of the negative terms: the rows regrouped by halves and tiles. -/
theorem total_kernel :
    lossAt P L C T E 15 (ix2 (0 : Fin 1) (0 : Fin 1)) + lossAt P L C T E 31 (ix2 (0 : Fin 1) (0 : Fin 1))
      = (∑ b : Fin 16384, posRow P L C b) + ∑ b : Fin 16384, negRow P L T E b := by
  have hrow : ∀ (p : Fin 2) (q : Fin 16) (r : Fin 512),
      (⟨16 * 512 * p.val + 512 * q.val + r.val,
          Cert.LibSums.group_tile_row_lt (a := 2) (b := 16) (c := 512) (N := 16384) rfl p q r⟩ : Fin 16384)
        = tileRow (16 * p.val + q.val) r := fun p q r =>
    Fin.ext (by
      show 16 * 512 * p.val + 512 * q.val + r.val = (512 * (16 * p.val + q.val) + r.val) % 16384
      have := p.isLt; have := q.isLt; have := r.isLt; omega)
  rw [Cert.LibSums.sum_group_tiles 2 16 512 16384 rfl (posRow P L C),
    Cert.LibSums.sum_group_tiles 2 16 512 16384 rfl (negRow P L T E)]
  simp only [hrow, ← Finset.sum_add_distrib]
  refine Eq.trans ?_ (Finset.sum_congr rfl fun p _ => Finset.sum_congr rfl fun q _ => tileSum_eq P L C T E (16 * p.val + q.val))
  rw [Fin.sum_univ_two, ← Finset.sum_range (fun q => tileSum P L C T E (16 * (0 : Fin 2).val + q)),
    ← Finset.sum_range (fun q => tileSum P L C T E (16 * (1 : Fin 2).val + q))]
  exact congrArg₂ (· + ·) (lossAt_closed P L C T E 0 15 (by decide)) (lossAt_closed P L C T E 1 15 (by decide))

/-- THE LOSS. Given that the three tables handed to the second call are the reference's centroid table, its transposed
    normalised centroids and its existence flags, the kernel program's final scalar is the reference's. -/
theorem result_eq
    (hC : ∀ i, (C i : EReal) = Cert.ReferenceIdeal.Read.val_main_v14 (F := Ideal) P L i)
    (hT : ∀ i, (T i : EReal) = Cert.ReferenceIdeal.Read.val_main_v38 (F := Ideal) P L i)
    (hE : ∀ i : S1x2048.Idx, (E i : EReal)
      = FloatOps.uitofp (F := Ideal) .f32 (Cert.ReferenceIdeal.Read.val_main_v5 (F := Ideal) L (ix1 (⟨(i 1).val, (i 1).isLt⟩ : Fin 2048))))
    (h31 : outs 3 main_v31 c = KVal.res31 P L C T E) :
    (Gen.V4 m outs c (Proc.devRef .tc main_v33) : S_.Idx → EReal) = Cert.ReferenceIdeal.Read.val_main_v64 (F := Ideal) P L := by
  have hpos : ∀ b : Fin 16384, val_main_v32 (F := Ideal) P L (ix1 b) = posRow P L C b := fun b => by
    rw [ref_v32]
    unfold posRow
    exact congrArg (fun Cm => Ideal.ofBits .f32 0x3F800000#32 - rowDot (rowP P b) (rowL L b) Cm)
      (funext fun k => funext fun d => (hC (ix2 k d)).symm)
  have hneg : ∀ b : Fin 16384, val_main_v59 (F := Ideal) P L (ix1 b) = negRow P L T E b := fun b => by
    rw [ref_v59]
    unfold negRow
    refine congrArg₂ negTerm (funext fun k => Finset.sum_congr rfl fun d _ => ?_) ?_
    · rw [hT]
    · exact congrArg (negMask (rowL L b)) (funext fun k => (hE (ix2 (0 : Fin 1) k)).symm)
  rw [host_tail m outs c (res31 P L C T E) h31]
  funext i
  rw [res31_sum, total_kernel, val_main_v64_apply, val_main_v61_apply, val_main_v63_apply, val_main_v60_apply, val_main_v62_apply,
    val_main_cst_16_apply, val_main_cst_17_apply, val_main_cst_18_apply, val_main_cst_19_apply, sum_idx1, sum_idx1]
  simp only [hpos, hneg, Ideal.ofBits_def, Ideal.ofBits_zero_f32, zero_add, Ideal.addf_def, Ideal.hostDivf_def]
  exact div_rows_add _ _

end Cert.Bridge.Loss

end
-- ==== Proof.Value.lean ====
import proofs.«402318_j62947040690217_3_alg».proof.Defs
import proofs.«402318_j62947040690217_3_alg».proof.Proof.KRun
import proofs.«402318_j62947040690217_3_alg».proof.Proof.Read0
import proofs.«402318_j62947040690217_3_alg».proof.Proof.Read1
import proofs.«402318_j62947040690217_3_alg».proof.Proof.BridgeTables
import proofs.«402318_j62947040690217_3_alg».proof.Proof.BridgeLoss
import proofs.«402318_j62947040690217_3_alg».proof.Proof.Gen.ReferenceIdeal.Run
import proofs.«402318_j62947040690217_3_alg».proof.Proof.Gen.ReferenceIdeal.Read

/-! # The two programs compute one number

The kernel program's run ends with its result buffer at the last valuation. Its two pallas_calls leave, in their
result arrays, the pure recursions over the row tiles; the host stretch between them turns the first call's
partial sums into the reference's centroid table, its normalised transpose and the classes that exist; given
those, the second call's accumulated loss, summed and divided by the host, is the reference's result. -/

noncomputable section

namespace Cert.Proof.Value

open Idealize.ShloMosaic Idealize.ShloMosaic.TcCoe Idealize.SL.Sem Cert.KernelIdeal Cert.KernelIdeal.Gen

section AnyFloat
variable {F : FTy → Type} [FloatOps F]
variable (m : (ℓ : Loc nD τ sig) → Buf (Elt F) ℓ) (c : Dev nD)

/-- The two argument arrays as launched. -/
abbrev P : Vec F S16384x256 .f32 := m ((c.tc : Thread nD τ).loc main_arg0)
abbrev L : Vec F S16384x2048 .f32 := m ((c.tc : Thread nD τ).loc main_arg1)

/-- What the first call leaves in its two result arrays: the per-core table and count accumulators after each
    core's eighth tile. -/
theorem first_res0 : kouts m 1 main_v0_0 c = KVal.res0 (P m c) (L m c) :=
  (W2_arr m c 2).trans (arr0_2 (Vr0 m) c)
theorem first_res1 : kouts m 1 main_v0_1 c = KVal.res1 (L m c) :=
  (W2_arr m c 3).trans (arr0_3 (Vr0 m) c)

/-- The arguments are as launched when the second call is entered: nothing before it writes them. -/
theorem second_arg0 : Vr1 m c main_arg0 = P m c :=
  (V2_of m (outsA m) c main_arg0 (by decide)).trans (V1_of m (outsA m) c main_arg0 (by decide))
theorem second_arg1 : Vr1 m c main_arg1 = L m c :=
  (V2_of m (outsA m) c main_arg1 (by decide)).trans (V1_of m (outsA m) c main_arg1 (by decide))

/-- What the second call leaves in its result array: each core's loss accumulator after its sixteenth tile, over
    the three tables the host stretch handed it. -/
theorem second_res :
    kouts m 3 main_v31 c
      = KVal.res31 (P m c) (L m c) (V2 m (kouts m) c (Proc.devRef .tc main_v28)) (V2 m (kouts m) c (Proc.devRef .tc main_v30)) (V2 m (kouts m) c (Proc.devRef .tc main_v19)) := by
  refine (W4_arr m c 5).trans ((arr1_5 (Vr1 m) c).trans ?_)
  show KVal.res31 (Vr1 m c main_arg0) (Vr1 m c main_arg1) _ _ _ = _
  rw [second_arg0, second_arg1]
  rfl

end AnyFloat

/-- At the extended reals, from memories that agree on the two arguments, the kernel program's result buffer at the
    last valuation is the reference run's result. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Cert.ReferenceIdeal.Value.res_main_v64 m' c = V4 m (kouts m) c (Proc.devRef .tc main_v33) := by
  rw [Cert.ReferenceIdeal.Read.val_main_v64_eq, h0, h1]
  exact (Cert.Bridge.Loss.result_eq (P m c) (L m c) _ _ _ m (kouts m) c
    (fun i => Cert.Bridge.Tables.cent_eq m (kouts m) c (first_res0 m c) (first_res1 m c) i)
    (fun i => Cert.Bridge.Tables.centT_eq m (kouts m) c (first_res0 m c) (first_res1 m c) i)
    (fun i => Cert.Bridge.Tables.exists_eq m (kouts m) c (first_res1 m c) i)
    (second_res m c)).symm

end Cert.Proof.Value

end
-- ==== Proof.lean ====
import proofs.«402318_j62947040690217_3_alg».proof.Defs
import proofs.«402318_j62947040690217_3_alg».proof.Proof.Gen.Kernel
import proofs.«402318_j62947040690217_3_alg».proof.Proof.Gen.KernelIdeal
import proofs.«402318_j62947040690217_3_alg».proof.Proof.Gen.ReferenceIdeal
import proofs.«402318_j62947040690217_3_alg».proof.Proof.Gen.Pre_finite_inputs
import proofs.«402318_j62947040690217_3_alg».proof.Proof.Frames
import proofs.«402318_j62947040690217_3_alg».proof.Proof.Value
import Idealize.ShloMosaic.Adequacy
import Idealize.ShloMosaic.Init

/-! # A centroid loss in two pallas_calls against its jnp reference

The loss: per class, the centroid is the mean of the prediction rows whose label entry reaches 0.8; per row, a
positive term 1 − cos(row, label-weighted centroid sum) and a negative term, the mean over the existing classes
with label below 0.2 of max(0.3 − (1 − cos(row, centroid)), 0); the result is the mean of both over the rows.

The kernel program builds the per-class sums and counts in a first call (tile by tile, one accumulator pair per
core, the host adding the two cores' partial results and dividing), and the per-row terms in a second call whose
scalar accumulator the host sums and divides by the number of rows. At the extended reals a change of float format
is the identity and sums may be regrouped, so the two programs agree: the tiles partition the rows; a count of 0/1
words that cannot wrap equals the sum of the same 0/1 values as floats; the kernel's constant 0.7 is exactly
1 − 0.3 for the two binary32 values written, and 0.3 − (1 − x) = x − 0.7 on every extended real; a division by
the positive number of rows distributes over the sum of the two means.

Claimed: the three programs run, fault nowhere and leave their arguments unchanged; the idealized kernel program
differs from the word-level one by one rewrite (a widening of a narrowing replaced by the value); the idealized
kernel program and the idealized reference end with equal results. -/

noncomputable section

namespace Cert.Proof

open Idealize.ShloMosaic Idealize.SL.Sem

/-- The idealized kernel program and the idealized reference, run from memories agreeing on the arguments, both end,
    with the same result: the kernel program's run holds its result buffer at the last valuation, the reference's
    at its composed term, and the two are equal (`Value.result_eq`). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.V4 m (Cert.KernelIdeal.Gen.kouts m) c (Proc.devRef .tc Cert.KernelIdeal.main_v33), ?_, ?_⟩
  · exact (θ_run (Cert.KernelIdeal.defs (F := Ideal)) _ _).mono (fun r h c =>
      ⟨h c _ (Frames.mem_uc_i Cert.KernelIdeal.main_v33 (by decide)),
       (h c _ (Frames.mem_uc_i Cert.KernelIdeal.main_arg0 (by decide))).trans (Cert.KernelIdeal.Gen.V4_main_arg0 m (Cert.KernelIdeal.Gen.kouts m) c),
       (h c _ (Frames.mem_uc_i Cert.KernelIdeal.main_arg1 (by decide))).trans (Cert.KernelIdeal.Gen.V4_main_arg1 m (Cert.KernelIdeal.Gen.kouts m) c)⟩)
      (Cert.KernelIdeal.Gen.run_all (F := Ideal) m ρ)
  · exact (θ_run (Cert.ReferenceIdeal.defs (F := Ideal)) _ _).mono (fun _ h c =>
      ⟨(h c).1.trans (Value.result_eq m m' c (hagree c).1 (hagree c).2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, algebraic⟩

end Cert.Proof

end
